-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S12288x12288 : Shape := ⟨2, ![12288, 12288]⟩
abbrev S12288 : Shape := ⟨1, ![12288]⟩
abbrev S3x512x512 : Shape := ⟨3, ![3, 512, 512]⟩
abbrev S3x512 : Shape := ⟨2, ![3, 512]⟩
abbrev S32x1536 : Shape := ⟨2, ![32, 1536]⟩
abbrev S32 : Shape := ⟨1, ![32]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S32x1536 : S_.BroadcastsInDim S32x1536 (![] : Fin 0 → Fin S32x1536.rank)
  reducesTo_S32x1536_S_d0_1 : S32x1536.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S3x512x512 .f32) (main_arg6 : FVec F S3x512 .f32) (main_arg7 : FVec F S32x1536 .f32) (main_arg8 : FVec F S32 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512x512 .f32 := Host.absf main_arg5
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg6
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S32x1536 .f32 := Host.absf main_arg7
  let main_cst_10 : FVec F S_ .f32 := constant S_ .f32 0x7F800000#32
  let main_v30 : FVec F S32x1536 .f32 := broadcastInDim S32x1536 ![] bcast_S_S32x1536 main_cst_10
  let main_v31 : IVec S32x1536 1 := cmpf .olt main_v29 main_v30
  let main_c_11 : IVec S_ 1 := constantI S_ 1 1#1
  let main_v32 : IVec S_ 1 := (fun x v => Host.reduce IntOp.andi x v reducesTo_S32x1536_S_d0_1 h_S_) main_v31 main_c_11
  let main_v33 : IVec S_ 1 := andi main_v28 main_v32
  fn_part2 (F := F) main_arg8 main_v33

def fn {F : FTy → Type} [FloatOps F] (main_arg0 : FVec F S12288x512 .f32) (main_arg1 : FVec F S12288x12288 .f32) (main_arg2 : IVec S12288 32) (main_arg3 : FVec F S3x512x512 .f32) (main_arg4 : FVec F S3x512 .f32) (main_arg5 : FVec F S3x512x512 .f32) (main_arg6 : FVec F S3x512 .f32) (main_arg7 : FVec F S32x1536 .f32) (main_arg8 : FVec F S32 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S3x512x512 .f32 := Host.absf main_arg3
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512 .f32 := Host.absf main_arg4
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg5 main_arg6 main_arg7 main_arg8 main_v13 main_v16
-- ==== Kernel.lean ====
abbrev S12288x512 : Shape := ⟨2, ![12288, 512]⟩
abbrev S12288x12288 : Shape := ⟨2, ![12288, 12288]⟩
abbrev S12288 : Shape := ⟨1, ![12288]⟩
abbrev S3x512x512 : Shape := ⟨3, ![3, 512, 512]⟩
abbrev S3x512 : Shape := ⟨2, ![3, 512]⟩
abbrev S32x1536 : Shape := ⟨2, ![32, 1536]⟩
abbrev S32 : Shape := ⟨1, ![32]⟩
abbrev S3x4096x512 : Shape := ⟨3, ![3, 4096, 512]⟩
abbrev S3x1x512 : Shape := ⟨3, ![3, 1, 512]⟩
abbrev S32x3x512 : Shape := ⟨3, ![32, 3, 512]⟩
abbrev S3x32x512 : Shape := ⟨3, ![3, 32, 512]⟩
abbrev S1x32 : Shape := ⟨2, ![1, 32]⟩
abbrev S1x1024x512 : Shape := ⟨3, ![1, 1024, 512]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S1x512 : Shape := ⟨2, ![1, 512]⟩
abbrev S1024x1024 : Shape := ⟨2, ![1024, 1024]⟩
abbrev S4096x32 : Shape := ⟨2, ![4096, 32]⟩
abbrev S1x32x512 : Shape := ⟨3, ![1, 32, 512]⟩
abbrev S1024x32 : Shape := ⟨2, ![1024, 32]⟩
abbrev S32x512 : Shape := ⟨2, ![32, 512]⟩
abbrev S512x32 : Shape := ⟨2, ![512, 32]⟩
abbrev S1024 : Shape := ⟨1, ![1024]⟩
abbrev S1024x1 : Shape := ⟨2, ![1024, 1]⟩

abbrev nBuf : Space → Nat
  | .hbm => 18
  | .vmem => 27
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S12288, .i32⟩
  | .hbm, ⟨3, _⟩ => ⟨S3x512x512, .f32⟩
  | .hbm, ⟨4, _⟩ => ⟨S3x512, .f32⟩
  | .hbm, ⟨5, _⟩ => ⟨S3x512x512, .f32⟩
  | .hbm, ⟨6, _⟩ => ⟨S3x512, .f32⟩
  | .hbm, ⟨7, _⟩ => ⟨S32x1536, .f32⟩
  | .hbm, ⟨8, _⟩ => ⟨S32, .f32⟩
  | .hbm, ⟨9, _⟩ => ⟨S3x4096x512, .f32⟩
  | .hbm, ⟨10, _⟩ => ⟨S3x1x512, .f32⟩
  | .hbm, ⟨11, _⟩ => ⟨S3x1x512, .f32⟩
  | .hbm, ⟨12, _⟩ => ⟨S32x3x512, .f32⟩
  | .hbm, ⟨13, _⟩ => ⟨S3x32x512, .f32⟩
  | .hbm, ⟨14, _⟩ => ⟨S1x32, .f32⟩
  | .hbm, ⟨15, _⟩ => ⟨S3x4096x512, .bf16⟩
  | .hbm, ⟨16, _⟩ => ⟨S3x4096x512, .bf16⟩
  | .hbm, ⟨17, _⟩ => ⟨S4096x32, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .f32⟩
  | .local _ .vmem, ⟨9, _⟩ => ⟨S1024x1024, .f32⟩
  | .local _ .vmem, ⟨10, _⟩ => ⟨S1x1024x512, .bf16⟩
  | .local _ .vmem, ⟨11, _⟩ => ⟨S1x1024x512, .bf16⟩
  | .local _ .vmem, ⟨12, _⟩ => ⟨S1x512x512, .f32⟩
  | .local _ .vmem, ⟨13, _⟩ => ⟨S1x512x512, .f32⟩
  | .local _ .vmem, ⟨14, _⟩ => ⟨S1x1x512, .f32⟩
  | .local _ .vmem, ⟨15, _⟩ => ⟨S1x1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1024x512, .f32⟩
  | .local _ .vmem, ⟨19, _⟩ => ⟨S1x1024x512, .bf16⟩
  | .local _ .vmem, ⟨20, _⟩ => ⟨S1x1024x512, .bf16⟩
  | .local _ .vmem, ⟨21, _⟩ => ⟨S1x32x512, .f32⟩
  | .local _ .vmem, ⟨22, _⟩ => ⟨S1x32x512, .f32⟩
  | .local _ .vmem, ⟨23, _⟩ => ⟨S1x32, .f32⟩
  | .local _ .vmem, ⟨24, _⟩ => ⟨S1024x32, .f32⟩
  | .local _ .vmem, ⟨25, _⟩ => ⟨S1024x32, .f32⟩
  | .local _ .vmem, ⟨26, _⟩ => ⟨S1024x32, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![3, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨2, ![4, 3], ![false, false]⟩

def k2_cond2 (i : grid2.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_10 : BitVec 32 := 0#32
  let v17 : BitVec 1 := Scalar.cmpi .ne v16 c0_i32_10
  v17

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S12288x512_S3x4096x512 : S12288x512.ShapeCasts S3x4096x512
  shapeCasts_S3x512_S3x1x512 : S3x512.ShapeCasts S3x1x512
  shapeCasts_S32x1536_S32x3x512 : S32x1536.ShapeCasts S32x3x512
  transposes_S32x3x512_S3x32x512_1_0_2 : S32x3x512.Transposes [1, 0, 2] S3x32x512
  shapeCasts_S32_S1x32 : S32.ShapeCasts S1x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  reduces_S1024x32_S1024 : S1024x32.Reduces [1] S1024
  shapeCasts_S1024_S1024x1 : S1024.ShapeCasts S1024x1
  broadcasts_S1024x1_S1024x32 : S1024x1.Broadcasts S1024x32
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S3x4096x512.size a
  hwx0_0 : ∀ i : grid0.Coords, EltTy.bits .f32 = 32 ∨ (Rect.block (s := S3x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S3x512x512.size a
  hwx0_1 : ∀ i : grid0.Coords, EltTy.bits .f32 = 32 ∨ (Rect.block (s := S3x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S3x1x512.size a
  hwx0_2 : ∀ i : grid0.Coords, EltTy.bits .f32 = 32 ∨ (Rect.block (s := S3x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S3x4096x512.size a
  hwx0_3 : ∀ i : grid0.Coords, EltTy.bits .bf16 = 32 ∨ (Rect.block (s := S3x4096x512) S1x1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S12288x12288.size a
  hwx1_0 : ∀ i : grid1.Coords, EltTy.bits .f32 = 32 ∨ (Rect.block (s := S12288x12288) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S3x4096x512.size a
  hwx1_1 : ∀ i : grid1.Coords, EltTy.bits .bf16 = 32 ∨ (Rect.block (s := S3x4096x512) S1x1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S3x512x512.size a
  hwx1_2 : ∀ i : grid1.Coords, EltTy.bits .f32 = 32 ∨ (Rect.block (s := S3x512x512) S1x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S3x1x512.size a
  hwx1_3 : ∀ i : grid1.Coords, EltTy.bits .f32 = 32 ∨ (Rect.block (s := S3x1x512) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S3x4096x512.size a
  hwx1_4 : ∀ i : grid1.Coords, EltTy.bits .bf16 = 32 ∨ (Rect.block (s := S3x4096x512) S1x1024x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S3x4096x512.size a
  hwx2_0 : ∀ i : grid2.Coords, EltTy.bits .bf16 = 32 ∨ (Rect.block (s := S3x4096x512) S1x1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x512.size a ≤ S3x32x512.size a
  hwx2_1 : ∀ i : grid2.Coords, EltTy.bits .f32 = 32 ∨ (Rect.block (s := S3x32x512) S1x32x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x32.size a ≤ S4096x32.size a
  hwx2_3 : ∀ i : grid2.Coords, EltTy.bits .f32 = 32 ∨ (Rect.block (s := S4096x32) S1024x32.size (cc2_transform_3 i) (hinb2_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v7) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x32x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S12288x512 : Shape := ⟨2, ![12288, 512]⟩
abbrev S12288x12288 : Shape := ⟨2, ![12288, 12288]⟩
abbrev S12288 : Shape := ⟨1, ![12288]⟩
abbrev S3x512x512 : Shape := ⟨3, ![3, 512, 512]⟩
abbrev S3x512 : Shape := ⟨2, ![3, 512]⟩
abbrev S32x1536 : Shape := ⟨2, ![32, 1536]⟩
abbrev S32 : Shape := ⟨1, ![32]⟩
abbrev S3x4096x512 : Shape := ⟨3, ![3, 4096, 512]⟩
abbrev S4096x12288 : Shape := ⟨2, ![4096, 12288]⟩
abbrev S4096x3x4096 : Shape := ⟨3, ![4096, 3, 4096]⟩
abbrev S3x4096x4096 : Shape := ⟨3, ![3, 4096, 4096]⟩
abbrev S3x1x512 : Shape := ⟨3, ![3, 1, 512]⟩
abbrev S_ : Shape := ⟨0, ![]⟩
abbrev S4096x3x512 : Shape := ⟨3, ![4096, 3, 512]⟩
abbrev S4096x1536 : Shape := ⟨2, ![4096, 1536]⟩
abbrev S1536x32 : Shape := ⟨2, ![1536, 32]⟩
abbrev S4096x32 : Shape := ⟨2, ![4096, 32]⟩
abbrev S1x32 : Shape := ⟨2, ![1, 32]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S12288, .i32⟩
  | .hbm, ⟨3, _⟩ => ⟨S3x512x512, .f32⟩
  | .hbm, ⟨4, _⟩ => ⟨S3x512, .f32⟩
  | .hbm, ⟨5, _⟩ => ⟨S3x512x512, .f32⟩
  | .hbm, ⟨6, _⟩ => ⟨S3x512, .f32⟩
  | .hbm, ⟨7, _⟩ => ⟨S32x1536, .f32⟩
  | .hbm, ⟨8, _⟩ => ⟨S32, .f32⟩
  | .hbm, ⟨9, _⟩ => ⟨S3x4096x512, .f32⟩
  | .hbm, ⟨10, _⟩ => ⟨S4096x12288, .f32⟩
  | .hbm, ⟨11, _⟩ => ⟨S4096x3x4096, .f32⟩
  | .hbm, ⟨12, _⟩ => ⟨S3x4096x4096, .f32⟩
  | .hbm, ⟨13, _⟩ => ⟨S3x4096x512, .f32⟩
  | .hbm, ⟨14, _⟩ => ⟨S3x1x512, .f32⟩
  | .hbm, ⟨15, _⟩ => ⟨S3x4096x512, .f32⟩
  | .hbm, ⟨16, _⟩ => ⟨S3x4096x512, .f32⟩
  | .hbm, ⟨17, _⟩ => ⟨S_, .f32⟩
  | .hbm, ⟨18, _⟩ => ⟨S3x4096x512, .f32⟩
  | .hbm, ⟨19, _⟩ => ⟨S3x4096x512, .f32⟩
  | .hbm, ⟨20, _⟩ => ⟨S3x4096x512, .f32⟩
  | .hbm, ⟨21, _⟩ => ⟨S3x4096x512, .f32⟩
  | .hbm, ⟨22, _⟩ => ⟨S3x1x512, .f32⟩
  | .hbm, ⟨23, _⟩ => ⟨S3x4096x512, .f32⟩
  | .hbm, ⟨24, _⟩ => ⟨S3x4096x512, .f32⟩
  | .hbm, ⟨25, _⟩ => ⟨S_, .f32⟩
  | .hbm, ⟨26, _⟩ => ⟨S3x4096x512, .f32⟩
  | .hbm, ⟨27, _⟩ => ⟨S3x4096x512, .f32⟩
  | .hbm, ⟨28, _⟩ => ⟨S4096x3x512, .f32⟩
  | .hbm, ⟨29, _⟩ => ⟨S4096x1536, .f32⟩
  | .hbm, ⟨30, _⟩ => ⟨S1536x32, .f32⟩
  | .hbm, ⟨31, _⟩ => ⟨S4096x32, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1, .f32⟩
  | .hbm, ⟨48, _⟩ => ⟨S4096x32, .f32⟩
  | .hbm, ⟨49, _⟩ => ⟨S4096x32, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v22 : Ref sig .tc := ⟨.hbm, 49, rfl⟩

abbrev nD : Nat := 1
abbrev τ : Topo := Topo.v7x

variable {F : FTy → Type} [FloatOps F]

class Facts₀ : Prop where
  shapeCasts_S12288x512_S3x4096x512 : S12288x512.ShapeCasts S3x4096x512
  slices_S12288x12288_S4096x12288_0_0 : S12288x12288.Slices ![0, 0] S4096x12288
  shapeCasts_S4096x12288_S4096x3x4096 : S4096x12288.ShapeCasts S4096x3x4096
  transposes_S4096x3x4096_S3x4096x4096_1_0_2 : S4096x3x4096.Transposes [1, 0, 2] S3x4096x4096
  bcast_S3x512_S3x1x512_0_2 : S3x512.BroadcastsInDim S3x1x512 (![0, 2] : Fin 2 → Fin S3x1x512.rank)
  bcast_S3x1x512_S3x4096x512_0_1_2 : S3x1x512.BroadcastsInDim S3x4096x512 (![0, 1, 2] : Fin 3 → Fin S3x4096x512.rank)
  bcast_S_S3x4096x512 : S_.BroadcastsInDim S3x4096x512 (![] : Fin 0 → Fin S3x4096x512.rank)
  transposes_S3x4096x512_S4096x3x512_1_0_2 : S3x4096x512.Transposes [1, 0, 2] S4096x3x512
  shapeCasts_S4096x3x512_S4096x1536 : S4096x3x512.ShapeCasts S4096x1536
  transposes_S32x1536_S1536x32_1_0 : S32x1536.Transposes [1, 0] S1536x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  reducesTo_S4096x32_S4096_d1 : S4096x32.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  dot_S3x4096x512_S3x512x512_S3x4096x512_2_2_1_1_0_0_wf : DotDims.WF S3x4096x512 S3x512x512 S3x4096x512 [2] [2] [1] [1] [0] [0]
  dot_S3x4096x4096_S3x4096x512_S3x4096x512_2_1_1_2_0_0_wf : DotDims.WF S3x4096x4096 S3x4096x512 S3x4096x512 [2] [1] [1] [2] [0] [0]
  dot_S4096x1536_S1536x32_S4096x32_1_0_0_1_n_n_wf : DotDims.WF S4096x1536 S1536x32 S4096x32 [1] [0] [0] [1] [] []

variable [Facts₀]

def dot_S3x4096x512_S3x512x512_S3x4096x512_2_2_1_1_0_0 : DotDims S3x4096x512 S3x512x512 S3x4096x512 where
  lhsContracting := [2]
  rhsContracting := [2]
  lhsNonContracting := [1]
  rhsNonContracting := [1]
  lhsBatch := [0]
  rhsBatch := [0]
  wf := dot_S3x4096x512_S3x512x512_S3x4096x512_2_2_1_1_0_0_wf
def dot_S3x4096x4096_S3x4096x512_S3x4096x512_2_1_1_2_0_0 : DotDims S3x4096x4096 S3x4096x512 S3x4096x512 where
  lhsContracting := [2]
  rhsContracting := [1]
  lhsNonContracting := [1]
  rhsNonContracting := [2]
  lhsBatch := [0]
  rhsBatch := [0]
  wf := dot_S3x4096x4096_S3x4096x512_S3x4096x512_2_1_1_2_0_0_wf
def dot_S4096x1536_S1536x32_S4096x32_1_0_0_1_n_n : DotDims S4096x1536 S1536x32 S4096x32 where
  lhsContracting := [1]
  rhsContracting := [0]
  lhsNonContracting := [0]
  rhsNonContracting := [1]
  lhsBatch := []
  rhsBatch := []
  wf := dot_S4096x1536_S1536x32_S4096x32_1_0_0_1_n_n_wf

class Facts : Prop extends Facts₀ where

variable [Facts]
-- ==== Proof.K.Kern0.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body: one linear layer and a rectifier on a block of rows

The body reads a block of 1024 rows, one relation's weight matrix and its bias row, and stores the
block's rows times the transposed weights, plus the bias, clipped below at zero, over the whole
output block. -/

/-- The body on whole staging buffers: the three inputs are handed back as they were, the output buffer
    ends at the stored value, a function of the three inputs only. -/
theorem sound_kernel0 (c : Dev nD) (E : Set ℕ) (i : grid0.Coords)
    (arg2 : Memref sig .tc .vmem S1x1024x512 .f32) (harg2 : arg2.IsWhole) (arg3 : Memref sig .tc .vmem S1x512x512 .f32) (harg3 : arg3.IsWhole)
    (arg4 : Memref sig .tc .vmem S1x1x512 .f32) (harg4 : arg4.IsWhole) (arg5 : Memref sig .tc .vmem S1x1024x512 .bf16) (harg5 : arg5.IsWhole)
    (x : Vec F S1x1024x512 .f32) (w : Vec F S1x512x512 .f32) (b : Vec F S1x1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz3 : (![0, 0, 0] : Fin 3 → Nat) = fun _ => 0 := by funext a; fin_cases a <;> rfl
  rw [View.read_writes_eq_canon _ _ _ (View.cover_of_tiled _ S1x1024x512.size (by rfl))]
  rw [View.canon_unit_zero hz3]
  simp only [View.readAt_eq_ld, View.ld_unit_zero (S := S1x1024x512) hz3, View.ld_unit_zero (S := S1x512x512) hz3,
    View.ld_unit_zero (S := S1x1x512) hz3]

end Cert.Kernel.Hand

end
-- ==== Proof.K.Region0.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import proofs.«170717_j11553462026818_1_alg».proof.Proof.K.Kern0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data: twelve row blocks, each one linear layer and a rectifier

The region's arrays are what the core holds when the region is entered (`V`). At point `t` the three
input windows hold their blocks of those arrays and the body leaves them in place; the output window's
buffer ends at the body's value of the three blocks and is written back at every point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the body's triple applies, the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Kern1.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body: a block product accumulated over four column blocks, then a linear layer

At a point with column-block number `k` (the grid's last coordinate) the body first clears its
accumulator if `k = 0`, adds the product of the adjacency block with the feature block to it, and, if
`k = 3`, stores the accumulator times the transposed weights, plus the bias, clipped below at zero,
over the whole output block; at the other points the output buffer is not touched. -/

/-- The accumulator after the body at a point, from what it held before. -/
def acc1_step (i : grid1.Coords) (a : Vec F S1024x1024 .f32) (h : Vec F S1x1024x512 .bf16) (s : Vec F S1024x512 .f32) : Vec F S1024x512 .f32 :=
  k1_pay2 a h (if (i 2).val = 0 then k1_pay1 else s)

/-- The output buffer after the body at a point, from what it held before. -/
def out1_step (i : grid1.Coords) (a : Vec F S1024x1024 .f32) (h : Vec F S1x1024x512 .bf16) (w : Vec F S1x512x512 .f32) (b : Vec F S1x1x512 .f32)
    (o : Vec F S1x1024x512 .bf16) (s : Vec F S1024x512 .f32) : Vec F S1x1024x512 .bf16 :=
  if (i 2).val = 3 then k1_pay3 (acc1_step i a h s) w b else o

/-! ## The two conditions, the whole-buffer stores, and the three cases of the column-block number -/

/-- The first condition (the column-block number is zero), as a fact about the coordinate. -/
theorem cond_first_iff1 (i : grid1.Coords) :
    (Scalar.cmpi .ne (Scalar.extui (Scalar.cmpi .eq (BitVec.ofNat 32 (i 2).val) 0#32)) 0#32 = 1#1) ↔ (i 2).val = 0 := by
  have hlt : (i 2).val < 4 := (i 2).isLt
  obtain h | h | h | h : (i 2).val = 0 ∨ (i 2).val = 1 ∨ (i 2).val = 2 ∨ (i 2).val = 3 := by omega
  all_goals (rw [h]; decide)

/-- The second condition (the column-block number is three), as a fact about the coordinate. -/
theorem cond_last_iff1 (i : grid1.Coords) : (k1_cond2 i = 1#1) ↔ (i 2).val = 3 := by
  have hlt : (i 2).val < 4 := (i 2).isLt
  unfold k1_cond2
  obtain h | h | h | h : (i 2).val = 0 ∨ (i 2).val = 1 ∨ (i 2).val = 2 ∨ (i 2).val = 3 := by omega
  all_goals (rw [h]; decide)

/-- The zero offsets of a rank-two and of a rank-three buffer, as constant functions. -/
theorem off2_zero1 : (![0, 0] : Fin 2 → ℕ) = fun _ => 0 := by funext a; fin_cases a <;> rfl
theorem off3_zero1 : (![0, 0, 0] : Fin 3 → ℕ) = fun _ => 0 := by funext a; fin_cases a <;> rfl

/-- The whole-buffer rectangle of the accumulator and of the output buffer. -/
abbrev racc1 : Rect S1024x512 := Rect.unit (s := S1024x512) ![0, 0] S1024x512.size inb_S1024x512_S1024x512_0_0
abbrev rout1 : Rect S1x1024x512 := Rect.unit (s := S1x1024x512) ![0, 0, 0] S1x1024x512.size inb_S1x1024x512_S1x1024x512_0_0_0

/-- A store over the whole accumulator, made last, covers it whatever was stored before. -/
theorem cover_acc1 (p : Vec F S1024x512 .f32) (L : List (View.Piece (Elt F) S1024x512 .f32)) (y : S1024x512.Idx) :
    ∃ pc ∈ ((⟨racc1, p⟩ : View.Piece (Elt F) S1024x512 .f32) :: L), y ∈ pc.1.set :=
  ⟨_, List.mem_cons.2 (Or.inl rfl), View.mem_set_unit_zero (S := S1024x512) off2_zero1 inb_S1024x512_S1024x512_0_0 y⟩

/-- After a store over the whole accumulator, made last, the accumulator holds what that store wrote. -/
theorem acc_store_read1 (v : View sig .tc .vmem S1024x512 .f32) (f : v.ty.Contents (Elt F)) (p : Vec F S1024x512 .f32)
    (L : List (View.Piece (Elt F) S1024x512 .f32)) :
    View.read (Elt F) v (v.writes (Elt F) f ((⟨racc1, p⟩ : View.Piece (Elt F) S1024x512 .f32) :: L)) = p := by
  rw [View.read_writes_eq_canon _ _ _ (cover_acc1 p L)]
  exact View.canon_cons_unit_zero (S := S1024x512) off2_zero1 inb_S1024x512_S1024x512_0_0 p L

/-- One store over the whole output buffer covers it. -/
theorem cover_out1 (p : Vec F S1x1024x512 .bf16) (y : S1x1024x512.Idx) :
    ∃ pc ∈ ([⟨rout1, p⟩] : List (View.Piece (Elt F) S1x1024x512 .bf16)), y ∈ pc.1.set :=
  ⟨_, List.mem_singleton_self _, View.mem_set_unit_zero (S := S1x1024x512) off3_zero1 inb_S1x1024x512_S1x1024x512_0_0_0 y⟩

/-- After one store over the whole output buffer it holds what was stored. -/
theorem out_store_read1 (v : View sig .tc .vmem S1x1024x512 .bf16) (f : v.ty.Contents (Elt F)) (p : Vec F S1x1024x512 .bf16) :
    View.read (Elt F) v (v.writes (Elt F) f [⟨rout1, p⟩]) = p := by
  rw [View.read_writes_eq_canon _ _ _ (cover_out1 p)]
  exact View.canon_unit_zero (S := S1x1024x512) off3_zero1 inb_S1x1024x512_S1x1024x512_0_0_0 p

set_option maxHeartbeats 1000000 in
/-- At a point whose column-block number is zero the body clears the accumulator, then accumulates. -/
theorem sound_first1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) (h0 : (i 2).val = 0) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  simp only [cc1__spmm_sage_kernel_eq_skeleton]; unfold cc1__spmm_sage_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  have h3 : (i 2).val ≠ 3 := by omega
  have hc1 := (cond_first_iff1 i).2 h0
  have hc2 := (cond_last_iff1 i).not.2 h3
  simp only [dif_pos hc1, dif_neg hc2]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr
    · ipureintro; unfold out1_step; rw [if_neg h3]
    iexact H7
  iexists _; isplitr
  swap; · iexact H8
  ipureintro
  sl_unfold_words
  refine (acc_store_read1 _ _ _ _).trans ?_
  simp only [View.readAt_eq_ld, View.ld_unit_zero (S := S1024x1024) off2_zero1, View.ld_unit_zero (S := S1x1024x512) off3_zero1,
    View.ld_unit_zero (S := S1024x512) off2_zero1, View.ld_unit_zero (S := S1x512x512) off3_zero1, View.ld_unit_zero (S := S1x1x512) off3_zero1,
    View.readCov_unit_zero (S := S1024x512) _ off2_zero1, acc1_step, if_pos h0]

set_option maxHeartbeats 1000000 in
/-- At a point whose column-block number is neither zero nor three the body only accumulates. -/
theorem sound_mid1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) (h0 : (i 2).val ≠ 0) (h3 : (i 2).val ≠ 3) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  simp only [cc1__spmm_sage_kernel_eq_skeleton]; unfold cc1__spmm_sage_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  have hc1 := (cond_first_iff1 i).not.2 h0
  have hc2 := (cond_last_iff1 i).not.2 h3
  simp only [dif_neg hc1, dif_neg hc2]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr
    · ipureintro; unfold out1_step; rw [if_neg h3]
    iexact H7
  iexists _; isplitr
  swap; · iexact H8
  ipureintro
  refine (acc_store_read1 _ _ _ _).trans ?_
  simp only [View.readAt_eq_ld, View.ld_unit_zero (S := S1024x1024) off2_zero1, View.ld_unit_zero (S := S1x1024x512) off3_zero1,
    View.ld_unit_zero (S := S1024x512) off2_zero1, acc1_step, if_neg h0]

set_option maxHeartbeats 1000000 in
/-- At a point whose column-block number is three the body accumulates, then stores the linear layer of the
    accumulator over the whole output buffer. -/
theorem sound_last1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) (h3 : (i 2).val = 3) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  simp only [cc1__spmm_sage_kernel_eq_skeleton]; unfold cc1__spmm_sage_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  have h0 : (i 2).val ≠ 0 := by omega
  have hc1 := (cond_first_iff1 i).not.2 h0
  have hc2 := (cond_last_iff1 i).2 h3
  simp only [dif_neg hc1, dif_pos hc2]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (out_store_read1 _ _ _).trans ?_
    simp only [View.readAt_eq_ld, View.ld_unit_zero (S := S1024x1024) off2_zero1, View.ld_unit_zero (S := S1x1024x512) off3_zero1,
    View.ld_unit_zero (S := S1024x512) off2_zero1, View.ld_unit_zero (S := S1x512x512) off3_zero1, View.ld_unit_zero (S := S1x1x512) off3_zero1,
    View.readCov_unit_zero (S := S1024x512) _ off2_zero1, out1_step, acc1_step, if_pos h3, if_neg h0]
  iexists _; isplitr
  swap; · iexact H8
  ipureintro
  sl_unfold_words
  refine (acc_store_read1 _ _ _ _).trans ?_
  simp only [View.readAt_eq_ld, View.ld_unit_zero (S := S1024x1024) off2_zero1, View.ld_unit_zero (S := S1x1024x512) off3_zero1,
    View.ld_unit_zero (S := S1024x512) off2_zero1, View.ld_unit_zero (S := S1x512x512) off3_zero1, View.ld_unit_zero (S := S1x1x512) off3_zero1,
    View.readCov_unit_zero (S := S1024x512) _ off2_zero1, acc1_step, if_neg h0]

/-- The body on whole buffers: the four inputs are handed back as they were, the accumulator and the
    output buffer end at `acc1_step` and `out1_step` of what the six buffers held. -/
theorem sound_kernel1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  by_cases h0 : (i 2).val = 0
  · exact sound_first1 c E i arg3 harg3 arg4 harg4 arg5 harg5 arg6 harg6 arg7 harg7 arg8 harg8 a h w b o s K h0
  by_cases h3 : (i 2).val = 3
  · exact sound_last1 c E i arg3 harg3 arg4 harg4 arg5 harg5 arg6 harg6 arg7 harg7 arg8 harg8 a h w b o s K h3
  exact sound_mid1 c E i arg3 harg3 arg4 harg4 arg5 harg5 arg6 harg6 arg7 harg7 arg8 harg8 a h w b o s K h0 h3

end Cert.Kernel.Hand

end
-- ==== Proof.K.Region1.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import proofs.«170717_j11553462026818_1_alg».proof.Proof.K.Kern1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's proof data: forty-eight points, an accumulator carried over four of them

The grid is (relation, row block, column block), the column block innermost: point `t` has column-block
number `t % 4`. The four input windows hold their blocks of the arrays the region finds (`V`) and are
left in place. The scratch accumulator after `n` points is `acc1 n`: each point adds its block product to
what the point before left, a point with column block 0 starting from the cleared accumulator. The output
window is stored, and written back, only at the points with column block 3, where it holds the last layer
of the accumulated product; elsewhere its buffer is handed back untouched. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The accumulator after `n` points (past the grid's end: unchanged). -/
def acc1 (c : Dev nD) : ℕ → Vec F S1024x512 .f32
  | 0 => k1_pay1
  | n + 1 => if h : n < cfg1.N then acc1_step (grid1.coords ⟨n, h⟩) (iblk1 V c 0 ⟨n, h⟩) (iblk1 V c 1 ⟨n, h⟩) (acc1 c n) else acc1 c n

/-- The region's invariant before point `t`: the accumulator whole, at `acc1 t` unless `t` is a multiple of
    four (there the next point clears it, and nothing is said); every other scoped buffer that is no staging
    buffer of this pipeline, at some contents; the generator register at some state. -/
def Φ1 (c : Dev nD) (t : Fin (cfg1.N + 1)) : sProp 𝕄 :=
  iprop((∃ s : Vec F S1024x512 .f32, ⌜t.val % 4 ≠ 0 → s = acc1 V c t.val⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0]
    ∗ ∃ r, prngReg c r)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c (t.val + 1)) (iblk1 V c 2 t) (iblk1 V c 3 t)
  Φ t := Φ1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c (t.val + 1)) (iblk1 V c 2 t) (iblk1 V c 3 t) := by dsimp only [dat1]
theorem Φ_eq1 (c : Dev nD) (t : Fin (cfg1.N + 1)) : (dat1 V c).Φ t = Φ1 V c t := by dsimp only [dat1]

/-- The scoped rest of the second pipeline, split at its accumulator: the accumulator's buffer whole at some
    contents, and every other scoped buffer that is no staging buffer of the pipeline, unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The invariant before the first point, from the scoped rest and the generator register. -/
theorem hin1 (c : Dev nD) : Pipeline.ΦA (U := UR sig nD τ) (Val := Elt F) spec1 c ⊢ (dat1 V c).Φ 0 := by
  rw [Φ_eq1]
  unfold Pipeline.ΦA Φ1
  rw [scopedRest1_split]
  iintro ⟨⟨⟨%f, Hf⟩, Hrest⟩, Hr⟩
  isplitl [Hf]
  · iexists f
    isplitr
    · ipureintro; intro h; exact absurd rfl h
    · rw [owns_whole]; iexact Hf
  isplitl [Hrest]
  · iexact Hrest
  iexact Hr

/-- The invariant after the last point gives them back. -/
theorem hout1 (c : Dev nD) : (dat1 V c).Φ (Fin.last cfg1.N) ⊢ Pipeline.ΦA (U := UR sig nD τ) (Val := Elt F) spec1 c := by
  rw [Φ_eq1]
  unfold Pipeline.ΦA Φ1
  rw [scopedRest1_split]
  iintro ⟨⟨%s, -, Hs⟩, Hrest, Hr⟩
  isplitr [Hr]
  · isplitl [Hs]
    · ihave Hs' := (Entails.of_eq (owns_whole (c : Thread nD τ) cc1_scratch0 fullShare s)) $$ Hs
      iexists s
      iexact Hs'
    · iexact Hrest
  iexact Hr

/-- The grid's last coordinate of point `t` is `t % 4`. -/
theorem coord_last1 (t : Fin cfg1.N) : ((grid1.coords t) 2).val = t.val % 4 :=
  (by decide +kernel : ∀ t : Fin grid1.N, ((grid1.coords t) 2).val = t.val % 4) t

/-- The body's store condition holds exactly at the points with column block 3. -/
theorem cond1_point (t : Fin cfg1.N) : k1_cond2 (grid1.coords t) = 1#1 ↔ t.val % 4 = 3 :=
  (by decide +kernel : ∀ t : Fin grid1.N, (k1_cond2 (grid1.coords t) = 1#1 ↔ t.val % 4 = 3)) t

/-- The output window is idle exactly at the other points. -/
theorem idle1_4 (t : Fin cfg1.N) : cfg1.idle 4 (cfg1.grid.coords t) = true ↔ t.val % 4 ≠ 3 :=
  (by decide +kernel : ∀ t : Fin grid1.N, (idle1 4 (grid1.coords t) = true ↔ t.val % 4 ≠ 3)) t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- One point's step of the accumulator: from what the invariant says the accumulator holds before point `t`
    (anything, if `t` has column block 0: the body clears it), the body leaves `acc1 (t + 1)`. -/
theorem acc1_succ (c : Dev nD) (t : Fin cfg1.N) (s : Vec F S1024x512 .f32) (hs : t.val % 4 ≠ 0 → s = acc1 V c t.val) :
    acc1_step (grid1.coords t) (iblk1 V c 0 t) (iblk1 V c 1 t) s = acc1 V c (t.val + 1) := by
  rw [acc1, dif_pos t.isLt]
  by_cases h0 : t.val % 4 = 0
  · unfold acc1_step
    rw [if_pos ((coord_last1 t).trans h0), if_pos ((coord_last1 ⟨t.val, t.isLt⟩).trans h0)]
  · rw [hs h0]

/-- At a point with column block 3 the output window is stored: the body leaves it at `after 4 t`. -/
theorem leaves1_4_last (c : Dev nD) (t : Fin cfg1.N) (h : t.val % 4 = 3) :
    (dat1 V c).leavesExact 4 t = owns (c : Thread nD τ) (st1_4 t) fullShare ((dat1 V c).after 4 t) := by
  have hi : cfg1.idle 4 (cfg1.grid.coords t) = false := by
    cases hb : cfg1.idle 4 (cfg1.grid.coords t) with
    | false => rfl
    | true => exact absurd h ((idle1_4 t).mp hb)
  unfold Dat.leavesExact; rw [hi]

/-- At any other point it is idle and not written back: the body leaves it as it found it. -/
theorem leaves1_4_idle (c : Dev nD) (t : Fin cfg1.N) (h : t.val % 4 ≠ 3) :
    (dat1 V c).leavesExact 4 t = iprop(∃ d, owns (c : Thread nD τ) (st1_4 t) fullShare ((dat1 V c).before 4 t d)) := by
  refine (dat1 V c).leavesExact_idle 4 t ((idle1_4 t).mpr h) ?_
  cases hb : (cfg1.win 4).flush t with
  | false => rfl
  | true => exact absurd ((flush1_4 t).mp hb) h

/-- The output buffer after the body at point `t`, from contents `before 4 t d` and an accumulator as the
    invariant describes it, is what the obligation asks of the output window there. -/
theorem out1_leaves (c : Dev nD) (t : Fin cfg1.N) (d) (s : Vec F S1024x512 .f32) (hs : t.val % 4 ≠ 0 → s = acc1 V c t.val) :
    owns (c : Thread nD τ) (st1_4 t) fullShare
        (out1_step (grid1.coords t) (iblk1 V c 0 t) (iblk1 V c 1 t) (iblk1 V c 2 t) (iblk1 V c 3 t) ((dat1 V c).before 4 t d) s)
      ⊢ (dat1 V c).leavesExact 4 t := by
  by_cases h3 : t.val % 4 = 3
  · rw [leaves1_4_last V c t h3, after1_4, ← acc1_succ V c t s hs]
    unfold out1_step; rw [if_pos ((coord_last1 t).trans h3)]
  · rw [leaves1_4_idle V c t h3]
    unfold out1_step; rw [if_neg (fun h => h3 ((coord_last1 t).symm.trans h))]
    iintro H; iexists d; iexact H

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

/-- The body at any point: the inputs' buffers hold their blocks and the accumulator is as the invariant says,
    the body's triple applies, the accumulator ends one step on, the output window as the obligation asks; the
    other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Φ_eq1, Φ_eq1, after1_0, after1_1, after1_2, after1_3]
  unfold Φ1
  iintro ⟨⟨⟨%s, %hs, Hs⟩, Hrest, Hr⟩, Ho, ⟨%d0, H0⟩, ⟨%d1, H1⟩, ⟨%d2, H2⟩, ⟨%d3, H3⟩, ⟨%d4, H4⟩⟩
  iapply (sound_kernel1 c Set.univ _ _ _ _ _ _ _ _ _ _ _ _ _ (iblk1 V c 0 t) (iblk1 V c 1 t) (iblk1 V c 2 t) (iblk1 V c 3 t)
    ((dat1 V c).before 4 t d4) s _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hrest Hr]
  · isplitl [Hs]
    · iexists (acc1_step (grid1.coords t) (iblk1 V c 0 t) (iblk1 V c 1 t) s)
      isplitr
      · ipureintro; exact fun _ => acc1_succ V c t s hs
      · iexact Hs
    isplitl [Hrest]; · iexact Hrest
    iexact Hr
  isplitl [Ho]; · iexact Ho
  isplitl [H0]; · iexact H0
  isplitl [H1]; · iexact H1
  isplitl [H2]; · iexact H2
  isplitl [H3]; · iexact H3
  ihave H4' := (out1_leaves V c t d4 s hs) $$ H4
  iexact H4'

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Kern2.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel's body: a product accumulated over the three relations, then a row-wise log-softmax

At a point with relation number `r` (the grid's last coordinate) the body first clears its accumulator if
`r = 0`, adds the product of the feature block with the transposed slice of the last layer's weights, and,
if `r = 2`, stores over the whole output block the accumulator plus the bias row, minus its row maximum,
minus the logarithm of the row sum of the exponentials; at the other points the output buffer is not touched. -/

/-- The accumulator after the body at a point, from what it held before. -/
def acc2_step (i : grid2.Coords) (h : Vec F S1x1024x512 .bf16) (w : Vec F S1x32x512 .f32) (s : Vec F S1024x32 .f32) : Vec F S1024x32 .f32 :=
  k2_pay2 h w (if (i 1).val = 0 then k2_pay1 else s)

/-- The output buffer after the body at a point, from what it held before. -/
def out2_step (i : grid2.Coords) (h : Vec F S1x1024x512 .bf16) (w : Vec F S1x32x512 .f32) (b : Vec F S1x32 .f32)
    (o : Vec F S1024x32 .f32) (s : Vec F S1024x32 .f32) : Vec F S1024x32 .f32 :=
  if (i 1).val = 2 then k2_pay3 (acc2_step i h w s) b else o

/-! ## The two branch conditions, read off the relation number -/

/-- The clearing branch is taken exactly at relation 0. -/
theorem cond1_iff2 (i : grid2.Coords) :
    (Scalar.cmpi .ne (Scalar.extui (Scalar.cmpi .eq (BitVec.ofNat 32 (i 1).val) 0#32)) 0#32 = 1#1) ↔ (i 1).val = 0 :=
  (by decide : ∀ r : Fin 3, (Scalar.cmpi .ne (Scalar.extui (Scalar.cmpi .eq (BitVec.ofNat 32 r.val) 0#32)) 0#32 = 1#1) ↔ r.val = 0) (i 1)

/-- The output branch is taken exactly at relation 2. -/
theorem cond2_iff2 (i : grid2.Coords) : k2_cond2 i = 1#1 ↔ (i 1).val = 2 := by
  unfold k2_cond2
  exact (by decide : ∀ r : Fin 3, (Scalar.cmpi .ne (Scalar.extui (Scalar.cmpi .eq (BitVec.ofNat 32 r.val) 2#32)) 0#32 = 1#1) ↔ r.val = 2) (i 1)

/-! ## Whole-buffer accesses

Every access of the body is through the rectangle of the buffer's full size at offset zero: a load through it reads the
buffer's contents, and a store through it, being the last, leaves its payload whatever was stored before. -/

/-- The offset vectors of the body's accesses are zero. -/
theorem off2_zero2 : (![0, 0] : Fin 2 → ℕ) = fun _ => 0 := by funext a; fin_cases a <;> rfl
theorem off3_zero2 : (![0, 0, 0] : Fin 3 → ℕ) = fun _ => 0 := by funext a; fin_cases a <;> rfl

/-- A last store over the whole of a buffer of the accumulator's shape covers it, whatever was stored before. -/
theorem cover_acc2 (p : Vec F S1024x32 .f32) (L : List (View.Piece (Elt F) S1024x32 .f32)) (y : S1024x32.Idx) :
    ∃ pc ∈ ((⟨Rect.unit (s := S1024x32) ![0, 0] S1024x32.size inb_S1024x32_S1024x32_0_0, p⟩ : View.Piece (Elt F) S1024x32 .f32) :: L), y ∈ pc.1.set :=
  ⟨_, List.mem_cons_self, View.mem_set_unit_zero off2_zero2 inb_S1024x32_S1024x32_0_0 y⟩

/-! ## The body, relation by relation -/

set_option maxHeartbeats 1000000 in
/-- At relation 0 the accumulator is cleared and then the product is added to the cleared value (the load between the
    two stores reads back the zeros just stored); the output buffer is not touched. -/
theorem sound_first2 (c : Dev nD) (E : Set ℕ) (i : grid2.Coords) (hr : (i 1).val = 0)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (o)
            ∗ owns (c : Thread nD τ) arg6 fullShare (k2_pay2 h w k2_pay1)) -∗ K ⟨⟩))
      ⊢ wp frame (wpE (defs₀ (F := F)) Variants.none c none) E
          (cc2__final_kernel i arg2 harg2 arg3 harg3 arg4 harg4 arg5 harg5 arg6 harg6) K := by
  have hc1 : Scalar.cmpi .ne (Scalar.extui (Scalar.cmpi .eq (BitVec.ofNat 32 (i 1).val) 0#32)) 0#32 = 1#1 := (cond1_iff2 i).mpr hr
  have hc2 : ¬ (k2_cond2 i = 1#1) := fun hc => by have := (cond2_iff2 i).mp hc; omega
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover_acc2 _ _), View.canon_cons_unit_zero off2_zero2]
  simp only [View.readAt_eq_ld, View.ld_unit_zero (S := S1x1024x512) off3_zero2, View.ld_unit_zero (S := S1x32x512) off3_zero2,
    View.readCov_unit_zero (S := S1024x32) _ off2_zero2]

set_option maxHeartbeats 1000000 in
/-- At relation 1 the product is added to what the accumulator held; the output buffer is not touched. -/
theorem sound_mid2 (c : Dev nD) (E : Set ℕ) (i : grid2.Coords) (hr : (i 1).val = 1)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (o)
            ∗ owns (c : Thread nD τ) arg6 fullShare (k2_pay2 h w s)) -∗ K ⟨⟩))
      ⊢ wp frame (wpE (defs₀ (F := F)) Variants.none c none) E
          (cc2__final_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun hc => by have := (cond1_iff2 i).mp hc; omega
  have hc2 : ¬ (k2_cond2 i = 1#1) := fun hc => by have := (cond2_iff2 i).mp hc; omega
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_acc2 _ _), View.canon_cons_unit_zero off2_zero2]
  simp only [View.readAt_eq_ld, View.ld_unit_zero (S := S1x1024x512) off3_zero2, View.ld_unit_zero (S := S1x32x512) off3_zero2,
    View.ld_unit_zero (S := S1024x32) off2_zero2]

set_option maxHeartbeats 1000000 in
/-- At relation 2 the product is added to what the accumulator held, and the output buffer is stored over whole with the
    row-wise log-softmax of the new accumulator (read back after its store) plus the bias row. -/
theorem sound_last2 (c : Dev nD) (E : Set ℕ) (i : grid2.Coords) (hr : (i 1).val = 2)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (k2_pay3 (k2_pay2 h w s) b)
            ∗ owns (c : Thread nD τ) arg6 fullShare (k2_pay2 h w s)) -∗ K ⟨⟩))
      ⊢ wp frame (wpE (defs₀ (F := F)) Variants.none c none) E
          (cc2__final_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun hc => by have := (cond1_iff2 i).mp hc; omega
  have hc2 : k2_cond2 i = 1#1 := (cond2_iff2 i).mpr hr
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_acc2 _ _), View.canon_cons_unit_zero off2_zero2]
    simp only [View.readAt_eq_ld, View.ld_unit_zero (S := S1x1024x512) off3_zero2, View.ld_unit_zero (S := S1x32x512) off3_zero2,
      View.ld_unit_zero (S := S1024x32) off2_zero2, View.ld_unit_zero (S := S1x32) off2_zero2,
      View.readCov_unit_zero (S := S1024x32) _ off2_zero2]
  iexists _; isplitr
  swap; · iexact H4
  ipureintro
  sl_unfold_words
  rw [View.read_writes_eq_canon _ _ _ (cover_acc2 _ _), View.canon_cons_unit_zero off2_zero2]
  simp only [View.readAt_eq_ld, View.ld_unit_zero (S := S1x1024x512) off3_zero2, View.ld_unit_zero (S := S1x32x512) off3_zero2,
    View.ld_unit_zero (S := S1024x32) off2_zero2]

/-! ## The body at any point -/

/-- The body on whole buffers: the three inputs are handed back as they were, the accumulator and the
    output buffer end at `acc2_step` and `out2_step` of what the five buffers held. -/
theorem sound_kernel2 (c : Dev nD) (E : Set ℕ) (i : grid2.Coords)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (out2_step i h w b o s)
            ∗ owns (c : Thread nD τ) arg6 fullShare (acc2_step i h w s)) -∗ K ⟨⟩))
      ⊢ wp frame (wpE (defs₀ (F := F)) Variants.none c none) E
          (cc2__final_kernel i arg2 harg2 arg3 harg3 arg4 harg4 arg5 harg5 arg6 harg6) K := by
  have hlt : (i 1).val < 3 := (i 1).isLt
  rcases (by omega : (i 1).val = 0 ∨ (i 1).val = 1 ∨ (i 1).val = 2) with hr | hr | hr
  · have eo : out2_step i h w b o s = o := by unfold out2_step; rw [if_neg (by omega)]
    have ea : acc2_step i h w s = k2_pay2 h w k2_pay1 := by unfold acc2_step; rw [if_pos hr]
    rw [eo, ea]
    exact sound_first2 c E i hr arg2 harg2 arg3 harg3 arg4 harg4 arg5 harg5 arg6 harg6 h w b o s K
  · have eo : out2_step i h w b o s = o := by unfold out2_step; rw [if_neg (by omega)]
    have ea : acc2_step i h w s = k2_pay2 h w s := by unfold acc2_step; rw [if_neg (by omega)]
    rw [eo, ea]
    exact sound_mid2 c E i hr arg2 harg2 arg3 harg3 arg4 harg4 arg5 harg5 arg6 harg6 h w b o s K
  · have eo : out2_step i h w b o s = k2_pay3 (acc2_step i h w s) b := by unfold out2_step; rw [if_pos hr]
    have ea : acc2_step i h w s = k2_pay2 h w s := by unfold acc2_step; rw [if_neg (by omega)]
    rw [eo, ea]
    exact sound_last2 c E i hr arg2 harg2 arg3 harg3 arg4 harg4 arg5 harg5 arg6 harg6 h w b o s K

end Cert.Kernel.Hand

end
-- ==== Proof.K.Region2.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import proofs.«170717_j11553462026818_1_alg».proof.Proof.K.Kern2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third region's proof data: twelve points, an accumulator carried over three of them

The grid is (row block, relation), the relation innermost: point `t` has relation number `t % 3`. The three
input windows hold their blocks of the arrays the region finds (`V`) and are left in place. The scratch
accumulator after `n` points is `acc2 n`: each point adds its block product to what the point before left,
a point with relation 0 starting from the cleared accumulator. The output window is stored, and written
back, only at the points with relation 2, where it holds the row-wise log-softmax of the accumulated
product plus the bias; elsewhere its buffer is handed back untouched. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The accumulator after `n` points (past the grid's end: unchanged). -/
def acc2 (c : Dev nD) : ℕ → Vec F S1024x32 .f32
  | 0 => k2_pay1
  | n + 1 => if h : n < cfg2.N then acc2_step (grid2.coords ⟨n, h⟩) (iblk2 V c 0 ⟨n, h⟩) (iblk2 V c 1 ⟨n, h⟩) (acc2 c n) else acc2 c n

/-- The region's invariant before point `t`: the accumulator whole, at `acc2 t` unless `t` is a multiple of
    three (there the next point clears it, and nothing is said); every other scoped buffer that is no staging
    buffer of this pipeline, at some contents; the generator register at some state. -/
def Φ2 (c : Dev nD) (t : Fin (cfg2.N + 1)) : sProp 𝕄 :=
  iprop((∃ s : Vec F S1024x32 .f32, ⌜t.val % 3 ≠ 0 → s = acc2 V c t.val⌝ ∗ owns (c : Thread nD τ) (Memref.whole cc2_scratch0) fullShare s)
    ∗ Pipeline.scopedRestBut (Ix := Unit) (Name := ℕ) (U := UR sig nD τ) (Lvl := ℕ) (Val := Elt F) spec2 c [cc2_scratch0]
    ∗ ∃ r, prngReg c r)

/-- The proof data of the third pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c (t.val + 1)) (iblk2 V c 2 t)
  Φ t := Φ2 V c t
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c (t.val + 1)) (iblk2 V c 2 t) := by dsimp only [dat2]
theorem Φ_eq2 (c : Dev nD) (t : Fin (cfg2.N + 1)) : (dat2 V c).Φ t = Φ2 V c t := by dsimp only [dat2]

/-- The scoped rest split at the accumulator: its buffer whole at some contents, the remainder unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The invariant before the first point, from the scoped rest and the generator register. -/
theorem hin2 (c : Dev nD) : Pipeline.ΦA (U := UR sig nD τ) (Val := Elt F) spec2 c ⊢ (dat2 V c).Φ 0 := by
  rw [Φ_eq2]
  unfold Pipeline.ΦA Φ2
  rw [scopedRest2_split]
  simp only [owns_whole]
  iintro ⟨⟨⟨%f, Hf⟩, Hrest⟩, Hr⟩
  isplitl [Hf]
  · iexists f; isplitr
    · ipureintro; intro h; exact absurd rfl h
    iexact Hf
  isplitl [Hrest]; · iexact Hrest
  iexact Hr

/-- The invariant after the last point gives them back. -/
theorem hout2 (c : Dev nD) : (dat2 V c).Φ (Fin.last cfg2.N) ⊢ Pipeline.ΦA (U := UR sig nD τ) (Val := Elt F) spec2 c := by
  rw [Φ_eq2]
  unfold Pipeline.ΦA Φ2
  rw [scopedRest2_split]
  simp only [owns_whole]
  iintro ⟨⟨%s, -, Hs⟩, Hrest, Hr⟩
  isplitr [Hr]
  · isplitl [Hs]
    · iexists s; iexact Hs
    iexact Hrest
  iexact Hr

/-! ## The point's relation number, and what it decides -/

/-- The grid's last coordinate of point `t` is `t % 3`. -/
theorem coord_last2 (t : Fin cfg2.N) : ((grid2.coords t) 1).val = t.val % 3 :=
  (by decide +kernel : ∀ t : Fin grid2.N, ((grid2.coords t) 1).val = t.val % 3) t

/-- The output branch is taken exactly at the points with relation 2. -/
theorem cond2_point (t : Fin cfg2.N) : k2_cond2 (grid2.coords t) = 1#1 ↔ t.val % 3 = 2 :=
  (by decide +kernel : ∀ t : Fin grid2.N, k2_cond2 (grid2.coords t) = 1#1 ↔ t.val % 3 = 2) t

/-- The output window is idle exactly at the other points. -/
theorem idle2_3 (t : Fin cfg2.N) : cfg2.idle 3 (cfg2.grid.coords t) = true ↔ t.val % 3 ≠ 2 := by
  show (!(k2_cond2 (grid2.coords t) == 1#1)) = true ↔ _
  rw [Bool.not_eq_true', beq_eq_false_iff_ne, Ne, cond2_point]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- One more point of the accumulator. -/
theorem acc2_succ (c : Dev nD) (t : Fin cfg2.N) :
    acc2 V c (t.val + 1) = acc2_step (grid2.coords t) (iblk2 V c 0 t) (iblk2 V c 1 t) (acc2 V c t.val) := by
  rw [acc2, dif_pos t.isLt]

/-- The body's accumulator at point `t`, from contents that are `acc2 t` unless the point clears them. -/
theorem acc2_step_eq (c : Dev nD) (t : Fin cfg2.N) (s : Vec F S1024x32 .f32) (hs : t.val % 3 ≠ 0 → s = acc2 V c t.val) :
    acc2_step (grid2.coords t) (iblk2 V c 0 t) (iblk2 V c 1 t) s = acc2 V c (t.val + 1) := by
  rw [acc2_succ]
  by_cases h0 : t.val % 3 = 0
  · have hc : ((grid2.coords t) 1).val = 0 := by rw [coord_last2]; exact h0
    unfold acc2_step; rw [if_pos hc, if_pos hc]
  · rw [hs h0]

/-- The output window's post at a point with relation 2: live, and written back. -/
theorem leaves2_3_last (c : Dev nD) (t : Fin cfg2.N) (h : t.val % 3 = 2) :
    (dat2 V c).leavesExact 3 t = owns (c : Thread nD τ) (st2_3 t) fullShare ((dat2 V c).after 3 t) := by
  have hi : cfg2.idle 3 (cfg2.grid.coords t) = false :=
    Bool.eq_false_iff.mpr fun hi => (idle2_3 t).mp hi h
  unfold Dat.leavesExact; rw [hi]

/-- The output window's post at any other point: idle, not written back. -/
theorem leaves2_3_idle (c : Dev nD) (t : Fin cfg2.N) (h : t.val % 3 ≠ 2) :
    (dat2 V c).leavesExact 3 t = iprop(∃ d, owns (c : Thread nD τ) (st2_3 t) fullShare ((dat2 V c).before 3 t d)) :=
  (dat2 V c).leavesExact_idle 3 t ((idle2_3 t).mpr h) (Bool.eq_false_iff.mpr fun hf => h ((flush2_3 t).mp hf))

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

/-- The body at any point: the inputs' buffers hold their blocks and the accumulator is where the invariant
    puts it, the body's triple applies; the accumulator ends one point further, the output buffer at the
    log-softmax where the relation is 2 and untouched elsewhere; what the core owes passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, Φ_eq2, Φ_eq2]
  unfold Φ2
  by_cases h2 : t.val % 3 = 2
  · rw [leaves2_3_last V c t h2, after2_3]
    iintro ⟨⟨⟨%s, %hs, Hs⟩, Hrest, Hr⟩, Ho, ⟨%d0, H0⟩, ⟨%d1, H1⟩, ⟨%d2, H2⟩, ⟨%d3, H3⟩⟩
    have hacc : acc2_step (grid2.coords t) (iblk2 V c 0 t) (iblk2 V c 1 t) s = acc2 V c (t.val + 1) := acc2_step_eq V c t s hs
    have hout : out2_step (grid2.coords t) (iblk2 V c 0 t) (iblk2 V c 1 t) (iblk2 V c 2 t) ((dat2 V c).before 3 t d3) s
        = k2_pay3 (acc2 V c (t.val + 1)) (iblk2 V c 2 t) := by
      unfold out2_step; rw [if_pos (by rw [coord_last2]; exact h2), hacc]
    iapply (sound_kernel2 c Set.univ _ _ _ _ _ _ _ _ _ _ _ (iblk2 V c 0 t) (iblk2 V c 1 t) (iblk2 V c 2 t) ((dat2 V c).before 3 t d3) s _)
    rw [hacc, hout]
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hrest Hr]
    · isplitl [Hs]
      · iexists _; isplitr
        · ipureintro; intro _; rfl
        iexact Hs
      isplitl [Hrest]; · iexact Hrest
      iexact Hr
    isplitl [Ho]; · iexact Ho
    isplitl [H0]; · iexact H0
    isplitl [H1]; · iexact H1
    isplitl [H2]; · iexact H2
    iexact H3
  · rw [leaves2_3_idle V c t h2]
    iintro ⟨⟨⟨%s, %hs, Hs⟩, Hrest, Hr⟩, Ho, ⟨%d0, H0⟩, ⟨%d1, H1⟩, ⟨%d2, H2⟩, ⟨%d3, H3⟩⟩
    have hacc : acc2_step (grid2.coords t) (iblk2 V c 0 t) (iblk2 V c 1 t) s = acc2 V c (t.val + 1) := acc2_step_eq V c t s hs
    have hout : out2_step (grid2.coords t) (iblk2 V c 0 t) (iblk2 V c 1 t) (iblk2 V c 2 t) ((dat2 V c).before 3 t d3) s
        = (dat2 V c).before 3 t d3 := by
      unfold out2_step; rw [if_neg (by rw [coord_last2]; exact h2)]
    iapply (sound_kernel2 c Set.univ _ _ _ _ _ _ _ _ _ _ _ (iblk2 V c 0 t) (iblk2 V c 1 t) (iblk2 V c 2 t) ((dat2 V c).before 3 t d3) s _)
    rw [hacc, hout]
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hrest Hr]
    · isplitl [Hs]
      · iexists _; isplitr
        · ipureintro; intro _; rfl
        iexact Hs
      isplitl [Hrest]; · iexact Hrest
      iexact Hr
    isplitl [Ho]; · iexact Ho
    isplitl [H0]; · iexact H0
    isplitl [H1]; · iexact H1
    isplitl [H2]; · iexact H2
    iexists d3; iexact H3

/-- The library's body obligation, at every point. -/
theorem body_obligation2 (c : Dev nD) : BodyObligation (dat2 (F := F) V c) (defs₀ (F := F)) Variants.none () Set.univ := by
  refine fun t => ?_
  rw [bigSep_W2, bigSep_W2]
  exact sound_body2 V c t

end Cert.Kernel.Hand

end
-- ==== Proof.K.Run.lean ====
import proofs.«170717_j11553462026818_1_alg».proof.Proof.Gen.Kernel.Launch
import proofs.«170717_j11553462026818_1_alg».proof.Proof.Gen.Kernel.Skeleton
import proofs.«170717_j11553462026818_1_alg».proof.Proof.Gen.Kernel.Points
import proofs.«170717_j11553462026818_1_alg».proof.Proof.Gen.Kernel.Regions
import proofs.«170717_j11553462026818_1_alg».proof.Proof.K.Region0
import proofs.«170717_j11553462026818_1_alg».proof.Proof.K.Region1
import proofs.«170717_j11553462026818_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The whole program's run: six host reshapes, then the three regions one after the other

Between two items of @main core `c` holds every unscoped buffer at a known valuation: the launch memory, then the
host operations' results, then, after each region, that region's output array at what its write-backs leave
(`x6`, `x7`, `x8`: the first layer's features, the second layer's, the result). Each region is entered at the
valuation before it, with its proof data's arrays read off that valuation, and left at the one after it. -/

variable (m : (ℓ : Loc nD τ sig) → Buf (Elt F) ℓ)

/-- Core `c`'s buffers when the first region is entered. -/
abbrev U1 : (c : Dev nD) → (b : Ref sig .tc) → Buf (Elt F) ((c : Thread nD τ).loc b) := fun c b => Gen.V1 m c b
/-- What the first region leaves in its output array: the first layer's features. -/
def x6 (c : Dev nD) : Buf (Elt F) ((c : Thread nD τ).loc main_v6) := (dat0 (U1 m) c).arrAt 3 cfg0.N
/-- Core `c`'s buffers when the second region is entered. -/
abbrev U2 : (c : Dev nD) → (b : Ref sig .tc) → Buf (Elt F) ((c : Thread nD τ).loc b) :=
  fun c b => Function.update (Gen.V1 m c) main_v6 (x6 m c) b
/-- What the second region leaves in its output array: the second layer's features. -/
def x7 (c : Dev nD) : Buf (Elt F) ((c : Thread nD τ).loc main_v7) := (dat1 (U2 m) c).arrAt 4 cfg1.N
/-- Core `c`'s buffers when the third region is entered. -/
abbrev U3 : (c : Dev nD) → (b : Ref sig .tc) → Buf (Elt F) ((c : Thread nD τ).loc b) :=
  fun c b => Function.update (Function.update (Gen.V1 m c) main_v6 (x6 m c)) main_v7 (x7 m c) b
/-- What the third region leaves in its output array: the result. -/
def x8 (c : Dev nD) : Buf (Elt F) ((c : Thread nD τ).loc main_v8) := (dat2 (U3 m) c).arrAt 3 cfg2.N

/-- What the regions leave, as the family the boundary valuations read. -/
def outs : Gen.Outs (F := F) := fun _ r c =>
  if h6 : r = main_v6 then h6 ▸ x6 m c
  else if h7 : r = main_v7 then h7 ▸ x7 m c
  else if h8 : r = main_v8 then h8 ▸ x8 m c
  else m ((c : Thread nD τ).loc r)

theorem outs_v6 (J : ℕ) (c : Dev nD) : outs m J main_v6 c = x6 m c := by unfold outs; rw [dif_pos rfl]
theorem outs_v7 (J : ℕ) (c : Dev nD) : outs m J main_v7 c = x7 m c := by
  unfold outs; rw [dif_neg (by decide), dif_pos rfl]
theorem outs_v8 (J : ℕ) (c : Dev nD) : outs m J main_v8 c = x8 m c := by
  unfold outs; rw [dif_neg (by decide), dif_neg (by decide), dif_pos rfl]

/-- The valuations between the items are the boundary arrays above. -/
theorem V2_eq (c : Dev nD) : Gen.V2 m (outs m) c = Function.update (Gen.V1 m c) main_v6 (x6 m c) := by
  show Function.update (Gen.V1 m c) main_v6 (outs m 2 main_v6 c) = _; rw [outs_v6]
theorem V3_eq (c : Dev nD) : Gen.V3 m (outs m) c
    = Function.update (Function.update (Gen.V1 m c) main_v6 (x6 m c)) main_v7 (x7 m c) := by
  show Function.update (Gen.V2 m (outs m) c) main_v7 (outs m 3 main_v7 c) = _; rw [outs_v7, V2_eq]
theorem V4_v8 (c : Dev nD) : Gen.V4 m (outs m) c main_v8 = x8 m c := by
  show Function.update (Gen.V3 m (outs m) c) main_v8 (outs m 4 main_v8 c) main_v8 = _
  rw [Function.update_self, outs_v8]

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## Each region's arrays at its exit are the next valuation's -/

theorem V2_of_ne (c : Dev nD) (r : Ref sig .tc) (h : r ≠ main_v6) : Gen.V2 m (outs m) c r = U1 m c r := by
  rw [V2_eq]; exact Function.update_of_ne (StableHlo.devRef_ne_of_ne h) _ _
theorem V3_of_ne (c : Dev nD) (r : Ref sig .tc) (h : r ≠ main_v7) : Gen.V3 m (outs m) c r = U2 m c r := by
  rw [V3_eq]; exact Function.update_of_ne (StableHlo.devRef_ne_of_ne h) _ _
theorem V4_of_ne (c : Dev nD) (r : Ref sig .tc) (h : r ≠ main_v8) : Gen.V4 m (outs m) c r = U3 m c r := by
  show Function.update (Gen.V3 m (outs m) c) main_v8 (outs m 4 main_v8 c) r = _
  rw [Function.update_of_ne (StableHlo.devRef_ne_of_ne h), V3_eq]
theorem V2_out (c : Dev nD) : Gen.V2 m (outs m) c main_v6 = x6 m c := by rw [V2_eq]; exact Function.update_self _ _ _
theorem V3_out (c : Dev nD) : Gen.V3 m (outs m) c main_v7 = x7 m c := by rw [V3_eq]; exact Function.update_self _ _ _
theorem V4_out (c : Dev nD) : Gen.V4 m (outs m) c main_v8 = x8 m c := V4_v8 m c

theorem hF0 (c : Dev nD) (w : Fin cfg0.W) : (pdats m 0 c).arrAt w cfg0.N = Gen.V2 m (outs m) c (Pipeline.arrRef spec0 w) := by
  show (dat0 (U1 m) c).arrAt w cfg0.N = _
  match w with
  | ⟨0, _⟩ => exact ((dat0 (U1 m) c).arrAt_in 0 rfl _).trans ((A_eq0 (U1 m) c 0).trans (V2_of_ne m c main_v0 (by decide)).symm)
  | ⟨1, _⟩ => exact ((dat0 (U1 m) c).arrAt_in 1 rfl _).trans ((A_eq0 (U1 m) c 1).trans (V2_of_ne m c main_arg3 (by decide)).symm)
  | ⟨2, _⟩ => exact ((dat0 (U1 m) c).arrAt_in 2 rfl _).trans ((A_eq0 (U1 m) c 2).trans (V2_of_ne m c main_v1 (by decide)).symm)
  | ⟨3, _⟩ => exact (V2_out m c).symm
theorem hrest0 (c : Dev nD) : ∀ b, b ∉ Finset.univ.image (Pipeline.arrRef spec0) → Gen.V2 m (outs m) c b = U1 m c b :=
  fun b hb => V2_of_ne m c b fun h => hb (Finset.mem_image.mpr ⟨3, Finset.mem_univ _, h.symm⟩)
theorem hF1 (c : Dev nD) (w : Fin cfg1.W) : (pdats m 1 c).arrAt w cfg1.N = Gen.V3 m (outs m) c (Pipeline.arrRef spec1 w) := by
  show (dat1 (U2 m) c).arrAt w cfg1.N = _
  match w with
  | ⟨0, _⟩ => exact ((dat1 (U2 m) c).arrAt_in 0 rfl _).trans ((A_eq1 (U2 m) c 0).trans (V3_of_ne m c main_arg1 (by decide)).symm)
  | ⟨1, _⟩ => exact ((dat1 (U2 m) c).arrAt_in 1 rfl _).trans ((A_eq1 (U2 m) c 1).trans (V3_of_ne m c main_v6 (by decide)).symm)
  | ⟨2, _⟩ => exact ((dat1 (U2 m) c).arrAt_in 2 rfl _).trans ((A_eq1 (U2 m) c 2).trans (V3_of_ne m c main_arg5 (by decide)).symm)
  | ⟨3, _⟩ => exact ((dat1 (U2 m) c).arrAt_in 3 rfl _).trans ((A_eq1 (U2 m) c 3).trans (V3_of_ne m c main_v2 (by decide)).symm)
  | ⟨4, _⟩ => exact (V3_out m c).symm
theorem hrest1 (c : Dev nD) : ∀ b, b ∉ Finset.univ.image (Pipeline.arrRef spec1) → Gen.V3 m (outs m) c b = U2 m c b :=
  fun b hb => V3_of_ne m c b fun h => hb (Finset.mem_image.mpr ⟨4, Finset.mem_univ _, h.symm⟩)
theorem hF2 (c : Dev nD) (w : Fin cfg2.W) : (pdats m 2 c).arrAt w cfg2.N = Gen.V4 m (outs m) c (Pipeline.arrRef spec2 w) := by
  show (dat2 (U3 m) c).arrAt w cfg2.N = _
  match w with
  | ⟨0, _⟩ => exact ((dat2 (U3 m) c).arrAt_in 0 rfl _).trans ((A_eq2 (U3 m) c 0).trans (V4_of_ne m c main_v7 (by decide)).symm)
  | ⟨1, _⟩ => exact ((dat2 (U3 m) c).arrAt_in 1 rfl _).trans ((A_eq2 (U3 m) c 1).trans (V4_of_ne m c main_v4 (by decide)).symm)
  | ⟨2, _⟩ => exact ((dat2 (U3 m) c).arrAt_in 2 rfl _).trans ((A_eq2 (U3 m) c 2).trans (V4_of_ne m c main_v5 (by decide)).symm)
  | ⟨3, _⟩ => exact (V4_out m c).symm
theorem hrest2 (c : Dev nD) : ∀ b, b ∉ Finset.univ.image (Pipeline.arrRef spec2) → Gen.V4 m (outs m) c b = U3 m c b :=
  fun b hb => V4_of_ne m c b fun h => hb (Finset.mem_image.mpr ⟨3, Finset.mem_univ _, h.symm⟩)

/-- The rest that rides along ends owing nothing. -/
theorem hE3 (c : Dev nD) : (E (F := F) 3 c) ⊢ (iprop(∃ W, owes (c : Thread nD τ) (0 : CellTallies nD τ sig Unit) W) : sProp 𝕄) := by
  iintro ⟨-, H⟩; iexact H

/-! ## The regions as segments -/

-- a library lemma stated over the pinned configuration unifies with the printed one only when unification may
-- unfold plain definitions in a metavariable's type
set_option backward.isDefEq.respectTransparency.types false in
/-- Region 0 over the thread state: entered from every unscoped buffer at the contents before it, left at those
    after it. Its arrays are split out of the unscoped buffers and put back at what the write-backs leave; the
    generator register goes into the region's invariant and comes back; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the contents before it, left at those
    after it. Its arrays are split out of the unscoped buffers and put back at what the write-backs leave; the
    generator register goes into the region's invariant and comes back; nothing is owed; the kernel has no
    semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none, V2_eq]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m) c)
    unfold Pipeline.ΦA
    iintro ⟨Hp, -, Hr⟩
    isplitl [Hr]; · iexact Hr
    iexact Hp
  hout c := by
    rw [Pipeline.ownSems0_none]
    refine BIBase.Entails.trans (hout1 (U2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at the contents before it, left at those
    after it. Its arrays are split out of the unscoped buffers and put back at what the write-backs leave; the
    generator register goes into the region's invariant and comes back; nothing is owed; the kernel has no
    semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none, V3_eq]
    have hsplit := Pipeline.arrays_of_unscopedBufs (p := 2) (pcfgs (F := F)) Gen.adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U3 m) c)
    unfold Pipeline.ΦA
    iintro ⟨Hp, -, Hr⟩
    isplitl [Hr]; · iexact Hr
    iexact Hp
  hout c := by
    rw [Pipeline.ownSems0_none]
    refine BIBase.Entails.trans (hout2 (U3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U3 m c) (fun b => Gen.V4 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters every weakly fair execution of @main terminates, nothing faulting; the result
    array ends at what the third region leaves and every argument array as launched. -/
theorem run_named (ρ : Dev nD → PrngReg) :
    θ_run defs (onTc (τ := τ) (main (F := F))) ⟨m, fun _ => 0, ρ⟩ (fun r => ∀ c : Dev nD,
      r.2.mem ((c.tc : Thread nD τ).loc main_v8) = x8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) Gen.adm (pdats m) () cellOf_inj emb₁ defs₀ 𝒱₀ L lv m ρ main
    (Gen.segs m 𝒱₀ L lv E () (pdats m) (reg0 m) (reg1 m) (reg2 m))
    (fun c Q => by
      rewrite [main_chain c, Seg.run_eq_chain,
        show (Gen.segs m 𝒱₀ L lv E () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, .rfl, .rfl, sep_mono .rfl (hE3 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v8) = x8 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  -- the end: the result's and each argument's buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨(h (Proc.devRef .tc main_v8) (Finset.mem_filter.mpr ⟨StableHlo.devRef_mem_tcRefs main_v8, by decide⟩)).trans (V4_v8 m c),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c),
      (h (Proc.devRef .tc main_arg4) (Finset.mem_filter.mpr ⟨StableHlo.devRef_mem_tcRefs main_arg4, by decide⟩)).trans (Gen.V4_main_arg4 m (outs m) c),
      (h (Proc.devRef .tc main_arg5) (Finset.mem_filter.mpr ⟨StableHlo.devRef_mem_tcRefs main_arg5, by decide⟩)).trans (Gen.V4_main_arg5 m (outs m) c),
      (h (Proc.devRef .tc main_arg6) (Finset.mem_filter.mpr ⟨StableHlo.devRef_mem_tcRefs main_arg6, by decide⟩)).trans (Gen.V4_main_arg6 m (outs m) c),
      (h (Proc.devRef .tc main_arg7) (Finset.mem_filter.mpr ⟨StableHlo.devRef_mem_tcRefs main_arg7, by decide⟩)).trans (Gen.V4_main_arg7 m (outs m) c),
      (h (Proc.devRef .tc main_arg8) (Finset.mem_filter.mpr ⟨StableHlo.devRef_mem_tcRefs main_arg8, by decide⟩)).trans (Gen.V4_main_arg8 m (outs m) c)⟩
  · iexact HSI

/-- The frame: the same run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

end Cert.Kernel.Hand

end
-- ==== Proof.KI.Kern0.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body: one linear layer and a rectifier on a block of rows

The body reads a block of 1024 rows, one relation's weight matrix and its bias row, and stores the
block's rows times the transposed weights, plus the bias, clipped below at zero, over the whole
output block. -/

/-- The body on whole staging buffers: the three inputs are handed back as they were, the output buffer
    ends at the stored value, a function of the three inputs only. -/
theorem sound_kernel0 (c : Dev nD) (E : Set ℕ) (i : grid0.Coords)
    (arg2 : Memref sig .tc .vmem S1x1024x512 .f32) (harg2 : arg2.IsWhole) (arg3 : Memref sig .tc .vmem S1x512x512 .f32) (harg3 : arg3.IsWhole)
    (arg4 : Memref sig .tc .vmem S1x1x512 .f32) (harg4 : arg4.IsWhole) (arg5 : Memref sig .tc .vmem S1x1024x512 .bf16) (harg5 : arg5.IsWhole)
    (x : Vec F S1x1024x512 .f32) (w : Vec F S1x512x512 .f32) (b : Vec F S1x1x512 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz3 : (![0, 0, 0] : Fin 3 → Nat) = fun _ => 0 := by funext a; fin_cases a <;> rfl
  rw [View.read_writes_eq_canon _ _ _ (View.cover_of_tiled _ S1x1024x512.size (by rfl))]
  rw [View.canon_unit_zero hz3]
  simp only [View.readAt_eq_ld, View.ld_unit_zero (S := S1x1024x512) hz3, View.ld_unit_zero (S := S1x512x512) hz3,
    View.ld_unit_zero (S := S1x1x512) hz3]

end Cert.KernelIdeal.Hand

end
-- ==== Proof.KI.Region0.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Kern0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data: twelve row blocks, each one linear layer and a rectifier

The region's arrays are what the core holds when the region is entered (`V`). At point `t` the three
input windows hold their blocks of those arrays and the body leaves them in place; the output window's
buffer ends at the body's value of the three blocks and is written back at every point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the body's triple applies, the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Kern1.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body: a block product accumulated over four column blocks, then a linear layer

At a point with column-block number `k` (the grid's last coordinate) the body first clears its
accumulator if `k = 0`, adds the product of the adjacency block with the feature block to it, and, if
`k = 3`, stores the accumulator times the transposed weights, plus the bias, clipped below at zero,
over the whole output block; at the other points the output buffer is not touched. -/

/-- The accumulator after the body at a point, from what it held before. -/
def acc1_step (i : grid1.Coords) (a : Vec F S1024x1024 .f32) (h : Vec F S1x1024x512 .bf16) (s : Vec F S1024x512 .f32) : Vec F S1024x512 .f32 :=
  k1_pay2 a h (if (i 2).val = 0 then k1_pay1 else s)

/-- The output buffer after the body at a point, from what it held before. -/
def out1_step (i : grid1.Coords) (a : Vec F S1024x1024 .f32) (h : Vec F S1x1024x512 .bf16) (w : Vec F S1x512x512 .f32) (b : Vec F S1x1x512 .f32)
    (o : Vec F S1x1024x512 .bf16) (s : Vec F S1024x512 .f32) : Vec F S1x1024x512 .bf16 :=
  if (i 2).val = 3 then k1_pay3 (acc1_step i a h s) w b else o

/-! ## The two conditions, the whole-buffer stores, and the three cases of the column-block number -/

/-- The first condition (the column-block number is zero), as a fact about the coordinate. -/
theorem cond_first_iff1 (i : grid1.Coords) :
    (Scalar.cmpi .ne (Scalar.extui (Scalar.cmpi .eq (BitVec.ofNat 32 (i 2).val) 0#32)) 0#32 = 1#1) ↔ (i 2).val = 0 := by
  have hlt : (i 2).val < 4 := (i 2).isLt
  obtain h | h | h | h : (i 2).val = 0 ∨ (i 2).val = 1 ∨ (i 2).val = 2 ∨ (i 2).val = 3 := by omega
  all_goals (rw [h]; decide)

/-- The second condition (the column-block number is three), as a fact about the coordinate. -/
theorem cond_last_iff1 (i : grid1.Coords) : (k1_cond2 i = 1#1) ↔ (i 2).val = 3 := by
  have hlt : (i 2).val < 4 := (i 2).isLt
  unfold k1_cond2
  obtain h | h | h | h : (i 2).val = 0 ∨ (i 2).val = 1 ∨ (i 2).val = 2 ∨ (i 2).val = 3 := by omega
  all_goals (rw [h]; decide)

/-- The zero offsets of a rank-two and of a rank-three buffer, as constant functions. -/
theorem off2_zero1 : (![0, 0] : Fin 2 → ℕ) = fun _ => 0 := by funext a; fin_cases a <;> rfl
theorem off3_zero1 : (![0, 0, 0] : Fin 3 → ℕ) = fun _ => 0 := by funext a; fin_cases a <;> rfl

/-- The whole-buffer rectangle of the accumulator and of the output buffer. -/
abbrev racc1 : Rect S1024x512 := Rect.unit (s := S1024x512) ![0, 0] S1024x512.size inb_S1024x512_S1024x512_0_0
abbrev rout1 : Rect S1x1024x512 := Rect.unit (s := S1x1024x512) ![0, 0, 0] S1x1024x512.size inb_S1x1024x512_S1x1024x512_0_0_0

/-- A store over the whole accumulator, made last, covers it whatever was stored before. -/
theorem cover_acc1 (p : Vec F S1024x512 .f32) (L : List (View.Piece (Elt F) S1024x512 .f32)) (y : S1024x512.Idx) :
    ∃ pc ∈ ((⟨racc1, p⟩ : View.Piece (Elt F) S1024x512 .f32) :: L), y ∈ pc.1.set :=
  ⟨_, List.mem_cons.2 (Or.inl rfl), View.mem_set_unit_zero (S := S1024x512) off2_zero1 inb_S1024x512_S1024x512_0_0 y⟩

/-- After a store over the whole accumulator, made last, the accumulator holds what that store wrote. -/
theorem acc_store_read1 (v : View sig .tc .vmem S1024x512 .f32) (f : v.ty.Contents (Elt F)) (p : Vec F S1024x512 .f32)
    (L : List (View.Piece (Elt F) S1024x512 .f32)) :
    View.read (Elt F) v (v.writes (Elt F) f ((⟨racc1, p⟩ : View.Piece (Elt F) S1024x512 .f32) :: L)) = p := by
  rw [View.read_writes_eq_canon _ _ _ (cover_acc1 p L)]
  exact View.canon_cons_unit_zero (S := S1024x512) off2_zero1 inb_S1024x512_S1024x512_0_0 p L

/-- One store over the whole output buffer covers it. -/
theorem cover_out1 (p : Vec F S1x1024x512 .bf16) (y : S1x1024x512.Idx) :
    ∃ pc ∈ ([⟨rout1, p⟩] : List (View.Piece (Elt F) S1x1024x512 .bf16)), y ∈ pc.1.set :=
  ⟨_, List.mem_singleton_self _, View.mem_set_unit_zero (S := S1x1024x512) off3_zero1 inb_S1x1024x512_S1x1024x512_0_0_0 y⟩

/-- After one store over the whole output buffer it holds what was stored. -/
theorem out_store_read1 (v : View sig .tc .vmem S1x1024x512 .bf16) (f : v.ty.Contents (Elt F)) (p : Vec F S1x1024x512 .bf16) :
    View.read (Elt F) v (v.writes (Elt F) f [⟨rout1, p⟩]) = p := by
  rw [View.read_writes_eq_canon _ _ _ (cover_out1 p)]
  exact View.canon_unit_zero (S := S1x1024x512) off3_zero1 inb_S1x1024x512_S1x1024x512_0_0_0 p

set_option maxHeartbeats 1000000 in
/-- At a point whose column-block number is zero the body clears the accumulator, then accumulates. -/
theorem sound_first1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) (h0 : (i 2).val = 0) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  simp only [cc1__spmm_sage_kernel_eq_skeleton]; unfold cc1__spmm_sage_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  have h3 : (i 2).val ≠ 3 := by omega
  have hc1 := (cond_first_iff1 i).2 h0
  have hc2 := (cond_last_iff1 i).not.2 h3
  simp only [dif_pos hc1, dif_neg hc2]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr
    · ipureintro; unfold out1_step; rw [if_neg h3]
    iexact H7
  iexists _; isplitr
  swap; · iexact H8
  ipureintro
  sl_unfold_words
  refine (acc_store_read1 _ _ _ _).trans ?_
  simp only [View.readAt_eq_ld, View.ld_unit_zero (S := S1024x1024) off2_zero1, View.ld_unit_zero (S := S1x1024x512) off3_zero1,
    View.ld_unit_zero (S := S1024x512) off2_zero1, View.ld_unit_zero (S := S1x512x512) off3_zero1, View.ld_unit_zero (S := S1x1x512) off3_zero1,
    View.readCov_unit_zero (S := S1024x512) _ off2_zero1, acc1_step, if_pos h0]

set_option maxHeartbeats 1000000 in
/-- At a point whose column-block number is neither zero nor three the body only accumulates. -/
theorem sound_mid1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) (h0 : (i 2).val ≠ 0) (h3 : (i 2).val ≠ 3) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  simp only [cc1__spmm_sage_kernel_eq_skeleton]; unfold cc1__spmm_sage_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  have hc1 := (cond_first_iff1 i).not.2 h0
  have hc2 := (cond_last_iff1 i).not.2 h3
  simp only [dif_neg hc1, dif_neg hc2]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr
    · ipureintro; unfold out1_step; rw [if_neg h3]
    iexact H7
  iexists _; isplitr
  swap; · iexact H8
  ipureintro
  refine (acc_store_read1 _ _ _ _).trans ?_
  simp only [View.readAt_eq_ld, View.ld_unit_zero (S := S1024x1024) off2_zero1, View.ld_unit_zero (S := S1x1024x512) off3_zero1,
    View.ld_unit_zero (S := S1024x512) off2_zero1, acc1_step, if_neg h0]

set_option maxHeartbeats 1000000 in
/-- At a point whose column-block number is three the body accumulates, then stores the linear layer of the
    accumulator over the whole output buffer. -/
theorem sound_last1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) (h3 : (i 2).val = 3) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  simp only [cc1__spmm_sage_kernel_eq_skeleton]; unfold cc1__spmm_sage_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  have h0 : (i 2).val ≠ 0 := by omega
  have hc1 := (cond_first_iff1 i).not.2 h0
  have hc2 := (cond_last_iff1 i).2 h3
  simp only [dif_neg hc1, dif_pos hc2]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (out_store_read1 _ _ _).trans ?_
    simp only [View.readAt_eq_ld, View.ld_unit_zero (S := S1024x1024) off2_zero1, View.ld_unit_zero (S := S1x1024x512) off3_zero1,
    View.ld_unit_zero (S := S1024x512) off2_zero1, View.ld_unit_zero (S := S1x512x512) off3_zero1, View.ld_unit_zero (S := S1x1x512) off3_zero1,
    View.readCov_unit_zero (S := S1024x512) _ off2_zero1, out1_step, acc1_step, if_pos h3, if_neg h0]
  iexists _; isplitr
  swap; · iexact H8
  ipureintro
  sl_unfold_words
  refine (acc_store_read1 _ _ _ _).trans ?_
  simp only [View.readAt_eq_ld, View.ld_unit_zero (S := S1024x1024) off2_zero1, View.ld_unit_zero (S := S1x1024x512) off3_zero1,
    View.ld_unit_zero (S := S1024x512) off2_zero1, View.ld_unit_zero (S := S1x512x512) off3_zero1, View.ld_unit_zero (S := S1x1x512) off3_zero1,
    View.readCov_unit_zero (S := S1024x512) _ off2_zero1, acc1_step, if_neg h0]

/-- The body on whole buffers: the four inputs are handed back as they were, the accumulator and the
    output buffer end at `acc1_step` and `out1_step` of what the six buffers held. -/
theorem sound_kernel1 (c : Dev nD) (E : Set ℕ) (i : grid1.Coords)
    (arg3 : Memref sig .tc .vmem S1024x1024 .f32) (harg3 : arg3.IsWhole) (arg4 : Memref sig .tc .vmem S1x1024x512 .bf16) (harg4 : arg4.IsWhole)
    (arg5 : Memref sig .tc .vmem S1x512x512 .f32) (harg5 : arg5.IsWhole) (arg6 : Memref sig .tc .vmem S1x1x512 .f32) (harg6 : arg6.IsWhole)
    (arg7 : Memref sig .tc .vmem S1x1024x512 .bf16) (harg7 : arg7.IsWhole) (arg8 : Memref sig .tc .vmem S1024x512 .f32) (harg8 : arg8.IsWhole)
    (a : Vec F S1024x1024 .f32) (h : Vec F S1x1024x512 .bf16) (w : Vec F S1x512x512 .f32) (b : Vec F S1x1x512 .f32)
    (o : Vec F S1x1024x512 .bf16) (s : Vec F S1024x512 .f32) (K : PUnit → sProp 𝕄) :
    iprop(owns (c : Thread nD τ) arg3 fullShare a ∗ owns (c : Thread nD τ) arg4 fullShare h ∗ owns (c : Thread nD τ) arg5 fullShare w
        ∗ owns (c : Thread nD τ) arg6 fullShare b ∗ owns (c : Thread nD τ) arg7 fullShare o ∗ owns (c : Thread nD τ) arg8 fullShare s
        ∗ (iprop(owns (c : Thread nD τ) arg3 fullShare a ∗ owns (c : Thread nD τ) arg4 fullShare h ∗ owns (c : Thread nD τ) arg5 fullShare w
            ∗ owns (c : Thread nD τ) arg6 fullShare b ∗ owns (c : Thread nD τ) arg7 fullShare (out1_step i a h w b o s)
            ∗ owns (c : Thread nD τ) arg8 fullShare (acc1_step i a h s)) -∗ K ⟨⟩))
      ⊢ wp frame (wpE (defs₀ (F := F)) Variants.none c none) E
          (cc1__spmm_sage_kernel i arg3 harg3 arg4 harg4 arg5 harg5 arg6 harg6 arg7 harg7 arg8 harg8) K := by
  by_cases h0 : (i 2).val = 0
  · exact sound_first1 c E i arg3 harg3 arg4 harg4 arg5 harg5 arg6 harg6 arg7 harg7 arg8 harg8 a h w b o s K h0
  by_cases h3 : (i 2).val = 3
  · exact sound_last1 c E i arg3 harg3 arg4 harg4 arg5 harg5 arg6 harg6 arg7 harg7 arg8 harg8 a h w b o s K h3
  exact sound_mid1 c E i arg3 harg3 arg4 harg4 arg5 harg5 arg6 harg6 arg7 harg7 arg8 harg8 a h w b o s K h0 h3

end Cert.KernelIdeal.Hand

end
-- ==== Proof.KI.Region1.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Kern1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's proof data: forty-eight points, an accumulator carried over four of them

The grid is (relation, row block, column block), the column block innermost: point `t` has column-block
number `t % 4`. The four input windows hold their blocks of the arrays the region finds (`V`) and are
left in place. The scratch accumulator after `n` points is `acc1 n`: each point adds its block product to
what the point before left, a point with column block 0 starting from the cleared accumulator. The output
window is stored, and written back, only at the points with column block 3, where it holds the last layer
of the accumulated product; elsewhere its buffer is handed back untouched. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The accumulator after `n` points (past the grid's end: unchanged). -/
def acc1 (c : Dev nD) : ℕ → Vec F S1024x512 .f32
  | 0 => k1_pay1
  | n + 1 => if h : n < cfg1.N then acc1_step (grid1.coords ⟨n, h⟩) (iblk1 V c 0 ⟨n, h⟩) (iblk1 V c 1 ⟨n, h⟩) (acc1 c n) else acc1 c n

/-- The region's invariant before point `t`: the accumulator whole, at `acc1 t` unless `t` is a multiple of
    four (there the next point clears it, and nothing is said); every other scoped buffer that is no staging
    buffer of this pipeline, at some contents; the generator register at some state. -/
def Φ1 (c : Dev nD) (t : Fin (cfg1.N + 1)) : sProp 𝕄 :=
  iprop((∃ s : Vec F S1024x512 .f32, ⌜t.val % 4 ≠ 0 → s = acc1 V c t.val⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0]
    ∗ ∃ r, prngReg c r)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c (t.val + 1)) (iblk1 V c 2 t) (iblk1 V c 3 t)
  Φ t := Φ1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c (t.val + 1)) (iblk1 V c 2 t) (iblk1 V c 3 t) := by dsimp only [dat1]
theorem Φ_eq1 (c : Dev nD) (t : Fin (cfg1.N + 1)) : (dat1 V c).Φ t = Φ1 V c t := by dsimp only [dat1]

/-- The scoped rest of the second pipeline, split at its accumulator: the accumulator's buffer whole at some
    contents, and every other scoped buffer that is no staging buffer of the pipeline, unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The invariant before the first point, from the scoped rest and the generator register. -/
theorem hin1 (c : Dev nD) : Pipeline.ΦA (U := UR sig nD τ) (Val := Elt F) spec1 c ⊢ (dat1 V c).Φ 0 := by
  rw [Φ_eq1]
  unfold Pipeline.ΦA Φ1
  rw [scopedRest1_split]
  iintro ⟨⟨⟨%f, Hf⟩, Hrest⟩, Hr⟩
  isplitl [Hf]
  · iexists f
    isplitr
    · ipureintro; intro h; exact absurd rfl h
    · rw [owns_whole]; iexact Hf
  isplitl [Hrest]
  · iexact Hrest
  iexact Hr

/-- The invariant after the last point gives them back. -/
theorem hout1 (c : Dev nD) : (dat1 V c).Φ (Fin.last cfg1.N) ⊢ Pipeline.ΦA (U := UR sig nD τ) (Val := Elt F) spec1 c := by
  rw [Φ_eq1]
  unfold Pipeline.ΦA Φ1
  rw [scopedRest1_split]
  iintro ⟨⟨%s, -, Hs⟩, Hrest, Hr⟩
  isplitr [Hr]
  · isplitl [Hs]
    · ihave Hs' := (Entails.of_eq (owns_whole (c : Thread nD τ) cc1_scratch0 fullShare s)) $$ Hs
      iexists s
      iexact Hs'
    · iexact Hrest
  iexact Hr

/-- The grid's last coordinate of point `t` is `t % 4`. -/
theorem coord_last1 (t : Fin cfg1.N) : ((grid1.coords t) 2).val = t.val % 4 :=
  (by decide +kernel : ∀ t : Fin grid1.N, ((grid1.coords t) 2).val = t.val % 4) t

/-- The body's store condition holds exactly at the points with column block 3. -/
theorem cond1_point (t : Fin cfg1.N) : k1_cond2 (grid1.coords t) = 1#1 ↔ t.val % 4 = 3 :=
  (by decide +kernel : ∀ t : Fin grid1.N, (k1_cond2 (grid1.coords t) = 1#1 ↔ t.val % 4 = 3)) t

/-- The output window is idle exactly at the other points. -/
theorem idle1_4 (t : Fin cfg1.N) : cfg1.idle 4 (cfg1.grid.coords t) = true ↔ t.val % 4 ≠ 3 :=
  (by decide +kernel : ∀ t : Fin grid1.N, (idle1 4 (grid1.coords t) = true ↔ t.val % 4 ≠ 3)) t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- One point's step of the accumulator: from what the invariant says the accumulator holds before point `t`
    (anything, if `t` has column block 0: the body clears it), the body leaves `acc1 (t + 1)`. -/
theorem acc1_succ (c : Dev nD) (t : Fin cfg1.N) (s : Vec F S1024x512 .f32) (hs : t.val % 4 ≠ 0 → s = acc1 V c t.val) :
    acc1_step (grid1.coords t) (iblk1 V c 0 t) (iblk1 V c 1 t) s = acc1 V c (t.val + 1) := by
  rw [acc1, dif_pos t.isLt]
  by_cases h0 : t.val % 4 = 0
  · unfold acc1_step
    rw [if_pos ((coord_last1 t).trans h0), if_pos ((coord_last1 ⟨t.val, t.isLt⟩).trans h0)]
  · rw [hs h0]

/-- At a point with column block 3 the output window is stored: the body leaves it at `after 4 t`. -/
theorem leaves1_4_last (c : Dev nD) (t : Fin cfg1.N) (h : t.val % 4 = 3) :
    (dat1 V c).leavesExact 4 t = owns (c : Thread nD τ) (st1_4 t) fullShare ((dat1 V c).after 4 t) := by
  have hi : cfg1.idle 4 (cfg1.grid.coords t) = false := by
    cases hb : cfg1.idle 4 (cfg1.grid.coords t) with
    | false => rfl
    | true => exact absurd h ((idle1_4 t).mp hb)
  unfold Dat.leavesExact; rw [hi]

/-- At any other point it is idle and not written back: the body leaves it as it found it. -/
theorem leaves1_4_idle (c : Dev nD) (t : Fin cfg1.N) (h : t.val % 4 ≠ 3) :
    (dat1 V c).leavesExact 4 t = iprop(∃ d, owns (c : Thread nD τ) (st1_4 t) fullShare ((dat1 V c).before 4 t d)) := by
  refine (dat1 V c).leavesExact_idle 4 t ((idle1_4 t).mpr h) ?_
  cases hb : (cfg1.win 4).flush t with
  | false => rfl
  | true => exact absurd ((flush1_4 t).mp hb) h

/-- The output buffer after the body at point `t`, from contents `before 4 t d` and an accumulator as the
    invariant describes it, is what the obligation asks of the output window there. -/
theorem out1_leaves (c : Dev nD) (t : Fin cfg1.N) (d) (s : Vec F S1024x512 .f32) (hs : t.val % 4 ≠ 0 → s = acc1 V c t.val) :
    owns (c : Thread nD τ) (st1_4 t) fullShare
        (out1_step (grid1.coords t) (iblk1 V c 0 t) (iblk1 V c 1 t) (iblk1 V c 2 t) (iblk1 V c 3 t) ((dat1 V c).before 4 t d) s)
      ⊢ (dat1 V c).leavesExact 4 t := by
  by_cases h3 : t.val % 4 = 3
  · rw [leaves1_4_last V c t h3, after1_4, ← acc1_succ V c t s hs]
    unfold out1_step; rw [if_pos ((coord_last1 t).trans h3)]
  · rw [leaves1_4_idle V c t h3]
    unfold out1_step; rw [if_neg (fun h => h3 ((coord_last1 t).symm.trans h))]
    iintro H; iexists d; iexact H

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

/-- The body at any point: the inputs' buffers hold their blocks and the accumulator is as the invariant says,
    the body's triple applies, the accumulator ends one step on, the output window as the obligation asks; the
    other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Φ_eq1, Φ_eq1, after1_0, after1_1, after1_2, after1_3]
  unfold Φ1
  iintro ⟨⟨⟨%s, %hs, Hs⟩, Hrest, Hr⟩, Ho, ⟨%d0, H0⟩, ⟨%d1, H1⟩, ⟨%d2, H2⟩, ⟨%d3, H3⟩, ⟨%d4, H4⟩⟩
  iapply (sound_kernel1 c Set.univ _ _ _ _ _ _ _ _ _ _ _ _ _ (iblk1 V c 0 t) (iblk1 V c 1 t) (iblk1 V c 2 t) (iblk1 V c 3 t)
    ((dat1 V c).before 4 t d4) s _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hrest Hr]
  · isplitl [Hs]
    · iexists (acc1_step (grid1.coords t) (iblk1 V c 0 t) (iblk1 V c 1 t) s)
      isplitr
      · ipureintro; exact fun _ => acc1_succ V c t s hs
      · iexact Hs
    isplitl [Hrest]; · iexact Hrest
    iexact Hr
  isplitl [Ho]; · iexact Ho
  isplitl [H0]; · iexact H0
  isplitl [H1]; · iexact H1
  isplitl [H2]; · iexact H2
  isplitl [H3]; · iexact H3
  ihave H4' := (out1_leaves V c t d4 s hs) $$ H4
  iexact H4'

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Kern2.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel's body: a product accumulated over the three relations, then a row-wise log-softmax

At a point with relation number `r` (the grid's last coordinate) the body first clears its accumulator if
`r = 0`, adds the product of the feature block with the transposed slice of the last layer's weights, and,
if `r = 2`, stores over the whole output block the accumulator plus the bias row, minus its row maximum,
minus the logarithm of the row sum of the exponentials; at the other points the output buffer is not touched. -/

/-- The accumulator after the body at a point, from what it held before. -/
def acc2_step (i : grid2.Coords) (h : Vec F S1x1024x512 .bf16) (w : Vec F S1x32x512 .f32) (s : Vec F S1024x32 .f32) : Vec F S1024x32 .f32 :=
  k2_pay2 h w (if (i 1).val = 0 then k2_pay1 else s)

/-- The output buffer after the body at a point, from what it held before. -/
def out2_step (i : grid2.Coords) (h : Vec F S1x1024x512 .bf16) (w : Vec F S1x32x512 .f32) (b : Vec F S1x32 .f32)
    (o : Vec F S1024x32 .f32) (s : Vec F S1024x32 .f32) : Vec F S1024x32 .f32 :=
  if (i 1).val = 2 then k2_pay3 (acc2_step i h w s) b else o

/-! ## The two branch conditions, read off the relation number -/

/-- The clearing branch is taken exactly at relation 0. -/
theorem cond1_iff2 (i : grid2.Coords) :
    (Scalar.cmpi .ne (Scalar.extui (Scalar.cmpi .eq (BitVec.ofNat 32 (i 1).val) 0#32)) 0#32 = 1#1) ↔ (i 1).val = 0 :=
  (by decide : ∀ r : Fin 3, (Scalar.cmpi .ne (Scalar.extui (Scalar.cmpi .eq (BitVec.ofNat 32 r.val) 0#32)) 0#32 = 1#1) ↔ r.val = 0) (i 1)

/-- The output branch is taken exactly at relation 2. -/
theorem cond2_iff2 (i : grid2.Coords) : k2_cond2 i = 1#1 ↔ (i 1).val = 2 := by
  unfold k2_cond2
  exact (by decide : ∀ r : Fin 3, (Scalar.cmpi .ne (Scalar.extui (Scalar.cmpi .eq (BitVec.ofNat 32 r.val) 2#32)) 0#32 = 1#1) ↔ r.val = 2) (i 1)

/-! ## Whole-buffer accesses

Every access of the body is through the rectangle of the buffer's full size at offset zero: a load through it reads the
buffer's contents, and a store through it, being the last, leaves its payload whatever was stored before. -/

/-- The offset vectors of the body's accesses are zero. -/
theorem off2_zero2 : (![0, 0] : Fin 2 → ℕ) = fun _ => 0 := by funext a; fin_cases a <;> rfl
theorem off3_zero2 : (![0, 0, 0] : Fin 3 → ℕ) = fun _ => 0 := by funext a; fin_cases a <;> rfl

/-- A last store over the whole of a buffer of the accumulator's shape covers it, whatever was stored before. -/
theorem cover_acc2 (p : Vec F S1024x32 .f32) (L : List (View.Piece (Elt F) S1024x32 .f32)) (y : S1024x32.Idx) :
    ∃ pc ∈ ((⟨Rect.unit (s := S1024x32) ![0, 0] S1024x32.size inb_S1024x32_S1024x32_0_0, p⟩ : View.Piece (Elt F) S1024x32 .f32) :: L), y ∈ pc.1.set :=
  ⟨_, List.mem_cons_self, View.mem_set_unit_zero off2_zero2 inb_S1024x32_S1024x32_0_0 y⟩

/-! ## The body, relation by relation -/

set_option maxHeartbeats 1000000 in
/-- At relation 0 the accumulator is cleared and then the product is added to the cleared value (the load between the
    two stores reads back the zeros just stored); the output buffer is not touched. -/
theorem sound_first2 (c : Dev nD) (E : Set ℕ) (i : grid2.Coords) (hr : (i 1).val = 0)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (o)
            ∗ owns (c : Thread nD τ) arg6 fullShare (k2_pay2 h w k2_pay1)) -∗ K ⟨⟩))
      ⊢ wp frame (wpE (defs₀ (F := F)) Variants.none c none) E
          (cc2__final_kernel i arg2 harg2 arg3 harg3 arg4 harg4 arg5 harg5 arg6 harg6) K := by
  have hc1 : Scalar.cmpi .ne (Scalar.extui (Scalar.cmpi .eq (BitVec.ofNat 32 (i 1).val) 0#32)) 0#32 = 1#1 := (cond1_iff2 i).mpr hr
  have hc2 : ¬ (k2_cond2 i = 1#1) := fun hc => by have := (cond2_iff2 i).mp hc; omega
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover_acc2 _ _), View.canon_cons_unit_zero off2_zero2]
  simp only [View.readAt_eq_ld, View.ld_unit_zero (S := S1x1024x512) off3_zero2, View.ld_unit_zero (S := S1x32x512) off3_zero2,
    View.readCov_unit_zero (S := S1024x32) _ off2_zero2]

set_option maxHeartbeats 1000000 in
/-- At relation 1 the product is added to what the accumulator held; the output buffer is not touched. -/
theorem sound_mid2 (c : Dev nD) (E : Set ℕ) (i : grid2.Coords) (hr : (i 1).val = 1)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (o)
            ∗ owns (c : Thread nD τ) arg6 fullShare (k2_pay2 h w s)) -∗ K ⟨⟩))
      ⊢ wp frame (wpE (defs₀ (F := F)) Variants.none c none) E
          (cc2__final_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun hc => by have := (cond1_iff2 i).mp hc; omega
  have hc2 : ¬ (k2_cond2 i = 1#1) := fun hc => by have := (cond2_iff2 i).mp hc; omega
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_acc2 _ _), View.canon_cons_unit_zero off2_zero2]
  simp only [View.readAt_eq_ld, View.ld_unit_zero (S := S1x1024x512) off3_zero2, View.ld_unit_zero (S := S1x32x512) off3_zero2,
    View.ld_unit_zero (S := S1024x32) off2_zero2]

set_option maxHeartbeats 1000000 in
/-- At relation 2 the product is added to what the accumulator held, and the output buffer is stored over whole with the
    row-wise log-softmax of the new accumulator (read back after its store) plus the bias row. -/
theorem sound_last2 (c : Dev nD) (E : Set ℕ) (i : grid2.Coords) (hr : (i 1).val = 2)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (k2_pay3 (k2_pay2 h w s) b)
            ∗ owns (c : Thread nD τ) arg6 fullShare (k2_pay2 h w s)) -∗ K ⟨⟩))
      ⊢ wp frame (wpE (defs₀ (F := F)) Variants.none c none) E
          (cc2__final_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun hc => by have := (cond1_iff2 i).mp hc; omega
  have hc2 : k2_cond2 i = 1#1 := (cond2_iff2 i).mpr hr
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_acc2 _ _), View.canon_cons_unit_zero off2_zero2]
    simp only [View.readAt_eq_ld, View.ld_unit_zero (S := S1x1024x512) off3_zero2, View.ld_unit_zero (S := S1x32x512) off3_zero2,
      View.ld_unit_zero (S := S1024x32) off2_zero2, View.ld_unit_zero (S := S1x32) off2_zero2,
      View.readCov_unit_zero (S := S1024x32) _ off2_zero2]
  iexists _; isplitr
  swap; · iexact H4
  ipureintro
  sl_unfold_words
  rw [View.read_writes_eq_canon _ _ _ (cover_acc2 _ _), View.canon_cons_unit_zero off2_zero2]
  simp only [View.readAt_eq_ld, View.ld_unit_zero (S := S1x1024x512) off3_zero2, View.ld_unit_zero (S := S1x32x512) off3_zero2,
    View.ld_unit_zero (S := S1024x32) off2_zero2]

/-! ## The body at any point -/

/-- The body on whole buffers: the three inputs are handed back as they were, the accumulator and the
    output buffer end at `acc2_step` and `out2_step` of what the five buffers held. -/
theorem sound_kernel2 (c : Dev nD) (E : Set ℕ) (i : grid2.Coords)
    (arg2 : Memref sig .tc .vmem S1x1024x512 .bf16) (harg2 : arg2.IsWhole) (arg3 : Memref sig .tc .vmem S1x32x512 .f32) (harg3 : arg3.IsWhole)
    (arg4 : Memref sig .tc .vmem S1x32 .f32) (harg4 : arg4.IsWhole) (arg5 : Memref sig .tc .vmem S1024x32 .f32) (harg5 : arg5.IsWhole)
    (arg6 : Memref sig .tc .vmem S1024x32 .f32) (harg6 : arg6.IsWhole)
    (h : Vec F S1x1024x512 .bf16) (w : Vec F S1x32x512 .f32) (b : Vec F S1x32 .f32)
    (o : Vec F S1024x32 .f32) (s : Vec F S1024x32 .f32) (K : PUnit → sProp 𝕄) :
    iprop(owns (c : Thread nD τ) arg2 fullShare h ∗ owns (c : Thread nD τ) arg3 fullShare w ∗ owns (c : Thread nD τ) arg4 fullShare b
        ∗ owns (c : Thread nD τ) arg5 fullShare o ∗ owns (c : Thread nD τ) arg6 fullShare s
        ∗ (iprop(owns (c : Thread nD τ) arg2 fullShare h ∗ owns (c : Thread nD τ) arg3 fullShare w ∗ owns (c : Thread nD τ) arg4 fullShare b
            ∗ owns (c : Thread nD τ) arg5 fullShare (out2_step i h w b o s)
            ∗ owns (c : Thread nD τ) arg6 fullShare (acc2_step i h w s)) -∗ K ⟨⟩))
      ⊢ wp frame (wpE (defs₀ (F := F)) Variants.none c none) E
          (cc2__final_kernel i arg2 harg2 arg3 harg3 arg4 harg4 arg5 harg5 arg6 harg6) K := by
  have hlt : (i 1).val < 3 := (i 1).isLt
  rcases (by omega : (i 1).val = 0 ∨ (i 1).val = 1 ∨ (i 1).val = 2) with hr | hr | hr
  · have eo : out2_step i h w b o s = o := by unfold out2_step; rw [if_neg (by omega)]
    have ea : acc2_step i h w s = k2_pay2 h w k2_pay1 := by unfold acc2_step; rw [if_pos hr]
    rw [eo, ea]
    exact sound_first2 c E i hr arg2 harg2 arg3 harg3 arg4 harg4 arg5 harg5 arg6 harg6 h w b o s K
  · have eo : out2_step i h w b o s = o := by unfold out2_step; rw [if_neg (by omega)]
    have ea : acc2_step i h w s = k2_pay2 h w s := by unfold acc2_step; rw [if_neg (by omega)]
    rw [eo, ea]
    exact sound_mid2 c E i hr arg2 harg2 arg3 harg3 arg4 harg4 arg5 harg5 arg6 harg6 h w b o s K
  · have eo : out2_step i h w b o s = k2_pay3 (acc2_step i h w s) b := by unfold out2_step; rw [if_pos hr]
    have ea : acc2_step i h w s = k2_pay2 h w s := by unfold acc2_step; rw [if_neg (by omega)]
    rw [eo, ea]
    exact sound_last2 c E i hr arg2 harg2 arg3 harg3 arg4 harg4 arg5 harg5 arg6 harg6 h w b o s K

end Cert.KernelIdeal.Hand

end
-- ==== Proof.KI.Region2.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Kern2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third region's proof data: twelve points, an accumulator carried over three of them

The grid is (row block, relation), the relation innermost: point `t` has relation number `t % 3`. The three
input windows hold their blocks of the arrays the region finds (`V`) and are left in place. The scratch
accumulator after `n` points is `acc2 n`: each point adds its block product to what the point before left,
a point with relation 0 starting from the cleared accumulator. The output window is stored, and written
back, only at the points with relation 2, where it holds the row-wise log-softmax of the accumulated
product plus the bias; elsewhere its buffer is handed back untouched. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The accumulator after `n` points (past the grid's end: unchanged). -/
def acc2 (c : Dev nD) : ℕ → Vec F S1024x32 .f32
  | 0 => k2_pay1
  | n + 1 => if h : n < cfg2.N then acc2_step (grid2.coords ⟨n, h⟩) (iblk2 V c 0 ⟨n, h⟩) (iblk2 V c 1 ⟨n, h⟩) (acc2 c n) else acc2 c n

/-- The region's invariant before point `t`: the accumulator whole, at `acc2 t` unless `t` is a multiple of
    three (there the next point clears it, and nothing is said); every other scoped buffer that is no staging
    buffer of this pipeline, at some contents; the generator register at some state. -/
def Φ2 (c : Dev nD) (t : Fin (cfg2.N + 1)) : sProp 𝕄 :=
  iprop((∃ s : Vec F S1024x32 .f32, ⌜t.val % 3 ≠ 0 → s = acc2 V c t.val⌝ ∗ owns (c : Thread nD τ) (Memref.whole cc2_scratch0) fullShare s)
    ∗ Pipeline.scopedRestBut (Ix := Unit) (Name := ℕ) (U := UR sig nD τ) (Lvl := ℕ) (Val := Elt F) spec2 c [cc2_scratch0]
    ∗ ∃ r, prngReg c r)

/-- The proof data of the third pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c (t.val + 1)) (iblk2 V c 2 t)
  Φ t := Φ2 V c t
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c (t.val + 1)) (iblk2 V c 2 t) := by dsimp only [dat2]
theorem Φ_eq2 (c : Dev nD) (t : Fin (cfg2.N + 1)) : (dat2 V c).Φ t = Φ2 V c t := by dsimp only [dat2]

/-- The scoped rest split at the accumulator: its buffer whole at some contents, the remainder unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The invariant before the first point, from the scoped rest and the generator register. -/
theorem hin2 (c : Dev nD) : Pipeline.ΦA (U := UR sig nD τ) (Val := Elt F) spec2 c ⊢ (dat2 V c).Φ 0 := by
  rw [Φ_eq2]
  unfold Pipeline.ΦA Φ2
  rw [scopedRest2_split]
  simp only [owns_whole]
  iintro ⟨⟨⟨%f, Hf⟩, Hrest⟩, Hr⟩
  isplitl [Hf]
  · iexists f; isplitr
    · ipureintro; intro h; exact absurd rfl h
    iexact Hf
  isplitl [Hrest]; · iexact Hrest
  iexact Hr

/-- The invariant after the last point gives them back. -/
theorem hout2 (c : Dev nD) : (dat2 V c).Φ (Fin.last cfg2.N) ⊢ Pipeline.ΦA (U := UR sig nD τ) (Val := Elt F) spec2 c := by
  rw [Φ_eq2]
  unfold Pipeline.ΦA Φ2
  rw [scopedRest2_split]
  simp only [owns_whole]
  iintro ⟨⟨%s, -, Hs⟩, Hrest, Hr⟩
  isplitr [Hr]
  · isplitl [Hs]
    · iexists s; iexact Hs
    iexact Hrest
  iexact Hr

/-! ## The point's relation number, and what it decides -/

/-- The grid's last coordinate of point `t` is `t % 3`. -/
theorem coord_last2 (t : Fin cfg2.N) : ((grid2.coords t) 1).val = t.val % 3 :=
  (by decide +kernel : ∀ t : Fin grid2.N, ((grid2.coords t) 1).val = t.val % 3) t

/-- The output branch is taken exactly at the points with relation 2. -/
theorem cond2_point (t : Fin cfg2.N) : k2_cond2 (grid2.coords t) = 1#1 ↔ t.val % 3 = 2 :=
  (by decide +kernel : ∀ t : Fin grid2.N, k2_cond2 (grid2.coords t) = 1#1 ↔ t.val % 3 = 2) t

/-- The output window is idle exactly at the other points. -/
theorem idle2_3 (t : Fin cfg2.N) : cfg2.idle 3 (cfg2.grid.coords t) = true ↔ t.val % 3 ≠ 2 := by
  show (!(k2_cond2 (grid2.coords t) == 1#1)) = true ↔ _
  rw [Bool.not_eq_true', beq_eq_false_iff_ne, Ne, cond2_point]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- One more point of the accumulator. -/
theorem acc2_succ (c : Dev nD) (t : Fin cfg2.N) :
    acc2 V c (t.val + 1) = acc2_step (grid2.coords t) (iblk2 V c 0 t) (iblk2 V c 1 t) (acc2 V c t.val) := by
  rw [acc2, dif_pos t.isLt]

/-- The body's accumulator at point `t`, from contents that are `acc2 t` unless the point clears them. -/
theorem acc2_step_eq (c : Dev nD) (t : Fin cfg2.N) (s : Vec F S1024x32 .f32) (hs : t.val % 3 ≠ 0 → s = acc2 V c t.val) :
    acc2_step (grid2.coords t) (iblk2 V c 0 t) (iblk2 V c 1 t) s = acc2 V c (t.val + 1) := by
  rw [acc2_succ]
  by_cases h0 : t.val % 3 = 0
  · have hc : ((grid2.coords t) 1).val = 0 := by rw [coord_last2]; exact h0
    unfold acc2_step; rw [if_pos hc, if_pos hc]
  · rw [hs h0]

/-- The output window's post at a point with relation 2: live, and written back. -/
theorem leaves2_3_last (c : Dev nD) (t : Fin cfg2.N) (h : t.val % 3 = 2) :
    (dat2 V c).leavesExact 3 t = owns (c : Thread nD τ) (st2_3 t) fullShare ((dat2 V c).after 3 t) := by
  have hi : cfg2.idle 3 (cfg2.grid.coords t) = false :=
    Bool.eq_false_iff.mpr fun hi => (idle2_3 t).mp hi h
  unfold Dat.leavesExact; rw [hi]

/-- The output window's post at any other point: idle, not written back. -/
theorem leaves2_3_idle (c : Dev nD) (t : Fin cfg2.N) (h : t.val % 3 ≠ 2) :
    (dat2 V c).leavesExact 3 t = iprop(∃ d, owns (c : Thread nD τ) (st2_3 t) fullShare ((dat2 V c).before 3 t d)) :=
  (dat2 V c).leavesExact_idle 3 t ((idle2_3 t).mpr h) (Bool.eq_false_iff.mpr fun hf => h ((flush2_3 t).mp hf))

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

/-- The body at any point: the inputs' buffers hold their blocks and the accumulator is where the invariant
    puts it, the body's triple applies; the accumulator ends one point further, the output buffer at the
    log-softmax where the relation is 2 and untouched elsewhere; what the core owes passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, Φ_eq2, Φ_eq2]
  unfold Φ2
  by_cases h2 : t.val % 3 = 2
  · rw [leaves2_3_last V c t h2, after2_3]
    iintro ⟨⟨⟨%s, %hs, Hs⟩, Hrest, Hr⟩, Ho, ⟨%d0, H0⟩, ⟨%d1, H1⟩, ⟨%d2, H2⟩, ⟨%d3, H3⟩⟩
    have hacc : acc2_step (grid2.coords t) (iblk2 V c 0 t) (iblk2 V c 1 t) s = acc2 V c (t.val + 1) := acc2_step_eq V c t s hs
    have hout : out2_step (grid2.coords t) (iblk2 V c 0 t) (iblk2 V c 1 t) (iblk2 V c 2 t) ((dat2 V c).before 3 t d3) s
        = k2_pay3 (acc2 V c (t.val + 1)) (iblk2 V c 2 t) := by
      unfold out2_step; rw [if_pos (by rw [coord_last2]; exact h2), hacc]
    iapply (sound_kernel2 c Set.univ _ _ _ _ _ _ _ _ _ _ _ (iblk2 V c 0 t) (iblk2 V c 1 t) (iblk2 V c 2 t) ((dat2 V c).before 3 t d3) s _)
    rw [hacc, hout]
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hrest Hr]
    · isplitl [Hs]
      · iexists _; isplitr
        · ipureintro; intro _; rfl
        iexact Hs
      isplitl [Hrest]; · iexact Hrest
      iexact Hr
    isplitl [Ho]; · iexact Ho
    isplitl [H0]; · iexact H0
    isplitl [H1]; · iexact H1
    isplitl [H2]; · iexact H2
    iexact H3
  · rw [leaves2_3_idle V c t h2]
    iintro ⟨⟨⟨%s, %hs, Hs⟩, Hrest, Hr⟩, Ho, ⟨%d0, H0⟩, ⟨%d1, H1⟩, ⟨%d2, H2⟩, ⟨%d3, H3⟩⟩
    have hacc : acc2_step (grid2.coords t) (iblk2 V c 0 t) (iblk2 V c 1 t) s = acc2 V c (t.val + 1) := acc2_step_eq V c t s hs
    have hout : out2_step (grid2.coords t) (iblk2 V c 0 t) (iblk2 V c 1 t) (iblk2 V c 2 t) ((dat2 V c).before 3 t d3) s
        = (dat2 V c).before 3 t d3 := by
      unfold out2_step; rw [if_neg (by rw [coord_last2]; exact h2)]
    iapply (sound_kernel2 c Set.univ _ _ _ _ _ _ _ _ _ _ _ (iblk2 V c 0 t) (iblk2 V c 1 t) (iblk2 V c 2 t) ((dat2 V c).before 3 t d3) s _)
    rw [hacc, hout]
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hrest Hr]
    · isplitl [Hs]
      · iexists _; isplitr
        · ipureintro; intro _; rfl
        iexact Hs
      isplitl [Hrest]; · iexact Hrest
      iexact Hr
    isplitl [Ho]; · iexact Ho
    isplitl [H0]; · iexact H0
    isplitl [H1]; · iexact H1
    isplitl [H2]; · iexact H2
    iexists d3; iexact H3

/-- The library's body obligation, at every point. -/
theorem body_obligation2 (c : Dev nD) : BodyObligation (dat2 (F := F) V c) (defs₀ (F := F)) Variants.none () Set.univ := by
  refine fun t => ?_
  rw [bigSep_W2, bigSep_W2]
  exact sound_body2 V c t

end Cert.KernelIdeal.Hand

end
-- ==== Proof.KI.Run.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.Gen.KernelIdeal.Regions
import proofs.«170717_j11553462026818_1_alg».proof.Proof.KI.Region0
import proofs.«170717_j11553462026818_1_alg».proof.Proof.KI.Region1
import proofs.«170717_j11553462026818_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The whole program's run: six host reshapes, then the three regions one after the other

Between two items of @main core `c` holds every unscoped buffer at a known valuation: the launch memory, then the
host operations' results, then, after each region, that region's output array at what its write-backs leave
(`x6`, `x7`, `x8`: the first layer's features, the second layer's, the result). Each region is entered at the
valuation before it, with its proof data's arrays read off that valuation, and left at the one after it. -/

variable (m : (ℓ : Loc nD τ sig) → Buf (Elt F) ℓ)

/-- Core `c`'s buffers when the first region is entered. -/
abbrev U1 : (c : Dev nD) → (b : Ref sig .tc) → Buf (Elt F) ((c : Thread nD τ).loc b) := fun c b => Gen.V1 m c b
/-- What the first region leaves in its output array: the first layer's features. -/
def x6 (c : Dev nD) : Buf (Elt F) ((c : Thread nD τ).loc main_v6) := (dat0 (U1 m) c).arrAt 3 cfg0.N
/-- Core `c`'s buffers when the second region is entered. -/
abbrev U2 : (c : Dev nD) → (b : Ref sig .tc) → Buf (Elt F) ((c : Thread nD τ).loc b) :=
  fun c b => Function.update (Gen.V1 m c) main_v6 (x6 m c) b
/-- What the second region leaves in its output array: the second layer's features. -/
def x7 (c : Dev nD) : Buf (Elt F) ((c : Thread nD τ).loc main_v7) := (dat1 (U2 m) c).arrAt 4 cfg1.N
/-- Core `c`'s buffers when the third region is entered. -/
abbrev U3 : (c : Dev nD) → (b : Ref sig .tc) → Buf (Elt F) ((c : Thread nD τ).loc b) :=
  fun c b => Function.update (Function.update (Gen.V1 m c) main_v6 (x6 m c)) main_v7 (x7 m c) b
/-- What the third region leaves in its output array: the result. -/
def x8 (c : Dev nD) : Buf (Elt F) ((c : Thread nD τ).loc main_v8) := (dat2 (U3 m) c).arrAt 3 cfg2.N

/-- What the regions leave, as the family the boundary valuations read. -/
def outs : Gen.Outs (F := F) := fun _ r c =>
  if h6 : r = main_v6 then h6 ▸ x6 m c
  else if h7 : r = main_v7 then h7 ▸ x7 m c
  else if h8 : r = main_v8 then h8 ▸ x8 m c
  else m ((c : Thread nD τ).loc r)

theorem outs_v6 (J : ℕ) (c : Dev nD) : outs m J main_v6 c = x6 m c := by unfold outs; rw [dif_pos rfl]
theorem outs_v7 (J : ℕ) (c : Dev nD) : outs m J main_v7 c = x7 m c := by
  unfold outs; rw [dif_neg (by decide), dif_pos rfl]
theorem outs_v8 (J : ℕ) (c : Dev nD) : outs m J main_v8 c = x8 m c := by
  unfold outs; rw [dif_neg (by decide), dif_neg (by decide), dif_pos rfl]

/-- The valuations between the items are the boundary arrays above. -/
theorem V2_eq (c : Dev nD) : Gen.V2 m (outs m) c = Function.update (Gen.V1 m c) main_v6 (x6 m c) := by
  show Function.update (Gen.V1 m c) main_v6 (outs m 2 main_v6 c) = _; rw [outs_v6]
theorem V3_eq (c : Dev nD) : Gen.V3 m (outs m) c
    = Function.update (Function.update (Gen.V1 m c) main_v6 (x6 m c)) main_v7 (x7 m c) := by
  show Function.update (Gen.V2 m (outs m) c) main_v7 (outs m 3 main_v7 c) = _; rw [outs_v7, V2_eq]
theorem V4_v8 (c : Dev nD) : Gen.V4 m (outs m) c main_v8 = x8 m c := by
  show Function.update (Gen.V3 m (outs m) c) main_v8 (outs m 4 main_v8 c) main_v8 = _
  rw [Function.update_self, outs_v8]

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## Each region's arrays at its exit are the next valuation's -/

theorem V2_of_ne (c : Dev nD) (r : Ref sig .tc) (h : r ≠ main_v6) : Gen.V2 m (outs m) c r = U1 m c r := by
  rw [V2_eq]; exact Function.update_of_ne (StableHlo.devRef_ne_of_ne h) _ _
theorem V3_of_ne (c : Dev nD) (r : Ref sig .tc) (h : r ≠ main_v7) : Gen.V3 m (outs m) c r = U2 m c r := by
  rw [V3_eq]; exact Function.update_of_ne (StableHlo.devRef_ne_of_ne h) _ _
theorem V4_of_ne (c : Dev nD) (r : Ref sig .tc) (h : r ≠ main_v8) : Gen.V4 m (outs m) c r = U3 m c r := by
  show Function.update (Gen.V3 m (outs m) c) main_v8 (outs m 4 main_v8 c) r = _
  rw [Function.update_of_ne (StableHlo.devRef_ne_of_ne h), V3_eq]
theorem V2_out (c : Dev nD) : Gen.V2 m (outs m) c main_v6 = x6 m c := by rw [V2_eq]; exact Function.update_self _ _ _
theorem V3_out (c : Dev nD) : Gen.V3 m (outs m) c main_v7 = x7 m c := by rw [V3_eq]; exact Function.update_self _ _ _
theorem V4_out (c : Dev nD) : Gen.V4 m (outs m) c main_v8 = x8 m c := V4_v8 m c

theorem hF0 (c : Dev nD) (w : Fin cfg0.W) : (pdats m 0 c).arrAt w cfg0.N = Gen.V2 m (outs m) c (Pipeline.arrRef spec0 w) := by
  show (dat0 (U1 m) c).arrAt w cfg0.N = _
  match w with
  | ⟨0, _⟩ => exact ((dat0 (U1 m) c).arrAt_in 0 rfl _).trans ((A_eq0 (U1 m) c 0).trans (V2_of_ne m c main_v0 (by decide)).symm)
  | ⟨1, _⟩ => exact ((dat0 (U1 m) c).arrAt_in 1 rfl _).trans ((A_eq0 (U1 m) c 1).trans (V2_of_ne m c main_arg3 (by decide)).symm)
  | ⟨2, _⟩ => exact ((dat0 (U1 m) c).arrAt_in 2 rfl _).trans ((A_eq0 (U1 m) c 2).trans (V2_of_ne m c main_v1 (by decide)).symm)
  | ⟨3, _⟩ => exact (V2_out m c).symm
theorem hrest0 (c : Dev nD) : ∀ b, b ∉ Finset.univ.image (Pipeline.arrRef spec0) → Gen.V2 m (outs m) c b = U1 m c b :=
  fun b hb => V2_of_ne m c b fun h => hb (Finset.mem_image.mpr ⟨3, Finset.mem_univ _, h.symm⟩)
theorem hF1 (c : Dev nD) (w : Fin cfg1.W) : (pdats m 1 c).arrAt w cfg1.N = Gen.V3 m (outs m) c (Pipeline.arrRef spec1 w) := by
  show (dat1 (U2 m) c).arrAt w cfg1.N = _
  match w with
  | ⟨0, _⟩ => exact ((dat1 (U2 m) c).arrAt_in 0 rfl _).trans ((A_eq1 (U2 m) c 0).trans (V3_of_ne m c main_arg1 (by decide)).symm)
  | ⟨1, _⟩ => exact ((dat1 (U2 m) c).arrAt_in 1 rfl _).trans ((A_eq1 (U2 m) c 1).trans (V3_of_ne m c main_v6 (by decide)).symm)
  | ⟨2, _⟩ => exact ((dat1 (U2 m) c).arrAt_in 2 rfl _).trans ((A_eq1 (U2 m) c 2).trans (V3_of_ne m c main_arg5 (by decide)).symm)
  | ⟨3, _⟩ => exact ((dat1 (U2 m) c).arrAt_in 3 rfl _).trans ((A_eq1 (U2 m) c 3).trans (V3_of_ne m c main_v2 (by decide)).symm)
  | ⟨4, _⟩ => exact (V3_out m c).symm
theorem hrest1 (c : Dev nD) : ∀ b, b ∉ Finset.univ.image (Pipeline.arrRef spec1) → Gen.V3 m (outs m) c b = U2 m c b :=
  fun b hb => V3_of_ne m c b fun h => hb (Finset.mem_image.mpr ⟨4, Finset.mem_univ _, h.symm⟩)
theorem hF2 (c : Dev nD) (w : Fin cfg2.W) : (pdats m 2 c).arrAt w cfg2.N = Gen.V4 m (outs m) c (Pipeline.arrRef spec2 w) := by
  show (dat2 (U3 m) c).arrAt w cfg2.N = _
  match w with
  | ⟨0, _⟩ => exact ((dat2 (U3 m) c).arrAt_in 0 rfl _).trans ((A_eq2 (U3 m) c 0).trans (V4_of_ne m c main_v7 (by decide)).symm)
  | ⟨1, _⟩ => exact ((dat2 (U3 m) c).arrAt_in 1 rfl _).trans ((A_eq2 (U3 m) c 1).trans (V4_of_ne m c main_v4 (by decide)).symm)
  | ⟨2, _⟩ => exact ((dat2 (U3 m) c).arrAt_in 2 rfl _).trans ((A_eq2 (U3 m) c 2).trans (V4_of_ne m c main_v5 (by decide)).symm)
  | ⟨3, _⟩ => exact (V4_out m c).symm
theorem hrest2 (c : Dev nD) : ∀ b, b ∉ Finset.univ.image (Pipeline.arrRef spec2) → Gen.V4 m (outs m) c b = U3 m c b :=
  fun b hb => V4_of_ne m c b fun h => hb (Finset.mem_image.mpr ⟨3, Finset.mem_univ _, h.symm⟩)

/-- The rest that rides along ends owing nothing. -/
theorem hE3 (c : Dev nD) : (E (F := F) 3 c) ⊢ (iprop(∃ W, owes (c : Thread nD τ) (0 : CellTallies nD τ sig Unit) W) : sProp 𝕄) := by
  iintro ⟨-, H⟩; iexact H

/-! ## The regions as segments -/

-- a library lemma stated over the pinned configuration unifies with the printed one only when unification may
-- unfold plain definitions in a metavariable's type
set_option backward.isDefEq.respectTransparency.types false in
/-- Region 0 over the thread state: entered from every unscoped buffer at the contents before it, left at those
    after it. Its arrays are split out of the unscoped buffers and put back at what the write-backs leave; the
    generator register goes into the region's invariant and comes back; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the contents before it, left at those
    after it. Its arrays are split out of the unscoped buffers and put back at what the write-backs leave; the
    generator register goes into the region's invariant and comes back; nothing is owed; the kernel has no
    semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none, V2_eq]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m) c)
    unfold Pipeline.ΦA
    iintro ⟨Hp, -, Hr⟩
    isplitl [Hr]; · iexact Hr
    iexact Hp
  hout c := by
    rw [Pipeline.ownSems0_none]
    refine BIBase.Entails.trans (hout1 (U2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at the contents before it, left at those
    after it. Its arrays are split out of the unscoped buffers and put back at what the write-backs leave; the
    generator register goes into the region's invariant and comes back; nothing is owed; the kernel has no
    semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none, V3_eq]
    have hsplit := Pipeline.arrays_of_unscopedBufs (p := 2) (pcfgs (F := F)) Gen.adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U3 m) c)
    unfold Pipeline.ΦA
    iintro ⟨Hp, -, Hr⟩
    isplitl [Hr]; · iexact Hr
    iexact Hp
  hout c := by
    rw [Pipeline.ownSems0_none]
    refine BIBase.Entails.trans (hout2 (U3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U3 m c) (fun b => Gen.V4 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters every weakly fair execution of @main terminates, nothing faulting; the result
    array ends at what the third region leaves and every argument array as launched. -/
theorem run_named (ρ : Dev nD → PrngReg) :
    θ_run defs (onTc (τ := τ) (main (F := F))) ⟨m, fun _ => 0, ρ⟩ (fun r => ∀ c : Dev nD,
      r.2.mem ((c.tc : Thread nD τ).loc main_v8) = x8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) Gen.adm (pdats m) () cellOf_inj emb₁ defs₀ 𝒱₀ L lv m ρ main
    (Gen.segs m 𝒱₀ L lv E () (pdats m) (reg0 m) (reg1 m) (reg2 m))
    (fun c Q => by
      rewrite [main_chain c, Seg.run_eq_chain,
        show (Gen.segs m 𝒱₀ L lv E () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, .rfl, .rfl, sep_mono .rfl (hE3 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v8) = x8 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  -- the end: the result's and each argument's buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨(h (Proc.devRef .tc main_v8) (Finset.mem_filter.mpr ⟨StableHlo.devRef_mem_tcRefs main_v8, by decide⟩)).trans (V4_v8 m c),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c),
      (h (Proc.devRef .tc main_arg4) (Finset.mem_filter.mpr ⟨StableHlo.devRef_mem_tcRefs main_arg4, by decide⟩)).trans (Gen.V4_main_arg4 m (outs m) c),
      (h (Proc.devRef .tc main_arg5) (Finset.mem_filter.mpr ⟨StableHlo.devRef_mem_tcRefs main_arg5, by decide⟩)).trans (Gen.V4_main_arg5 m (outs m) c),
      (h (Proc.devRef .tc main_arg6) (Finset.mem_filter.mpr ⟨StableHlo.devRef_mem_tcRefs main_arg6, by decide⟩)).trans (Gen.V4_main_arg6 m (outs m) c),
      (h (Proc.devRef .tc main_arg7) (Finset.mem_filter.mpr ⟨StableHlo.devRef_mem_tcRefs main_arg7, by decide⟩)).trans (Gen.V4_main_arg7 m (outs m) c),
      (h (Proc.devRef .tc main_arg8) (Finset.mem_filter.mpr ⟨StableHlo.devRef_mem_tcRefs main_arg8, by decide⟩)).trans (Gen.V4_main_arg8 m (outs m) c)⟩
  · iexact HSI

/-- The frame: the same run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

end Cert.KernelIdeal.Hand

end
-- ==== Proof.Spec.lean ====
import Idealize.ShloMosaic.PureOps.Ideal
import Idealize.ShloMosaic.Lib.ValueIdx

/-! # What both programs compute, index by index, on the extended reals

Three node types of 4096 nodes each; relation `t` sends messages from the nodes of type `t` to the nodes of
the first type. With `x` the node features (12288 × 512, the types in contiguous blocks of rows) and `adj` the
dense adjacency (12288 × 12288):

* first layer, per relation: `h t n g = max (∑ f, x (t·4096 + n, f) · Wc (t, g, f) + bc (t, g)) 0`;
* messages: `m t i g = ∑ j, adj (i, t·4096 + j) · h t j g`, rows `i` among the first 4096;
* second layer: `h' t n g = max (∑ f, m t n f · Ws (t, g, f) + bs (t, g)) 0`;
* last layer on the three relations' features side by side: `l n c = ∑ t, ∑ f, h' t n f · Wl (c, t·512 + f) + bl c`;
* row-wise log-softmax: `l n c - M n - log (∑ c', exp (l n c' - M n))` with `M n` the row's maximum.

Every operation is the exact one on `EReal`; nothing here needs the entries to be finite. -/

noncomputable section

namespace Cert.Spec

open Idealize.ShloMosaic Idealize.ShloMosaic.ValueIdx

/-- Node `n` of type `t` as a row (or column) of the whole arrays. -/
def nodeOf (t : Fin 3) (n : Fin 4096) : Fin 12288 := ⟨t.val * 4096 + n.val, by have := t.isLt; have := n.isLt; omega⟩

/-- A node of the first type as a row of the whole adjacency. -/
def rowIn (i : Fin 4096) : Fin 12288 := ⟨i.val, by have := i.isLt; omega⟩

/-- Feature `f` of relation `t` among the 1536 concatenated features. -/
def featOf (t : Fin 3) (f : Fin 512) : Fin 1536 := ⟨t.val * 512 + f.val, by have := t.isLt; have := f.isLt; omega⟩

/-- The first layer: per relation, a linear layer and a rectifier. -/
def h1arr (x : (⟨2, ![12288, 512]⟩ : Shape).Idx → EReal) (wc : (⟨3, ![3, 512, 512]⟩ : Shape).Idx → EReal)
    (bc : (⟨2, ![3, 512]⟩ : Shape).Idx → EReal) : (⟨3, ![3, 4096, 512]⟩ : Shape).Idx → EReal :=
  fun j => max ((∑ f : Fin 512, x (ix2 (nodeOf (j 0) (j 1)) f) * wc (ix3 (j 0) (j 2) f)) + bc (ix2 (j 0) (j 2))) 0

/-- The messages relation `t` brings to node `i` of the first type, from first-layer features `h`. -/
def msg (adj : (⟨2, ![12288, 12288]⟩ : Shape).Idx → EReal) (h : (⟨3, ![3, 4096, 512]⟩ : Shape).Idx → EReal)
    (t : Fin 3) (i : Fin 4096) (g : Fin 512) : EReal :=
  ∑ j : Fin 4096, adj (ix2 (rowIn i) (nodeOf t j)) * h (ix3 t j g)

/-- Message passing and the second layer, from first-layer features `h`. -/
def h2arr (adj : (⟨2, ![12288, 12288]⟩ : Shape).Idx → EReal) (h : (⟨3, ![3, 4096, 512]⟩ : Shape).Idx → EReal)
    (ws : (⟨3, ![3, 512, 512]⟩ : Shape).Idx → EReal) (bs : (⟨2, ![3, 512]⟩ : Shape).Idx → EReal) :
    (⟨3, ![3, 4096, 512]⟩ : Shape).Idx → EReal :=
  fun j => max ((∑ f : Fin 512, msg adj h (j 0) (j 1) f * ws (ix3 (j 0) (j 2) f)) + bs (ix2 (j 0) (j 2))) 0

/-- The last layer's value for node `n` and class `c`, from second-layer features `h`. -/
def logit (h : (⟨3, ![3, 4096, 512]⟩ : Shape).Idx → EReal) (wl : (⟨2, ![32, 1536]⟩ : Shape).Idx → EReal)
    (bl : (⟨1, ![32]⟩ : Shape).Idx → EReal) (n : Fin 4096) (c : Fin 32) : EReal :=
  (∑ t : Fin 3, ∑ f : Fin 512, h (ix3 t n f) * wl (ix2 c (featOf t f))) + bl (ix1 c)

/-- The maximum of a row of 32 values (`⊥` the neutral element). -/
def rowMax (l : Fin 32 → EReal) : EReal := (Finset.univ : Finset (Fin 32)).fold max ⊥ l

/-- The log-softmax of a row of 32 values, at class `c`. -/
def logSoftmax (l : Fin 32 → EReal) (c : Fin 32) : EReal :=
  (l c - rowMax l) - Ideal.log (∑ c' : Fin 32, Ideal.exp (l c' - rowMax l))

/-- The last layer and the log-softmax, from second-layer features `h`. -/
def outArr (h : (⟨3, ![3, 4096, 512]⟩ : Shape).Idx → EReal) (wl : (⟨2, ![32, 1536]⟩ : Shape).Idx → EReal)
    (bl : (⟨1, ![32]⟩ : Shape).Idx → EReal) : (⟨2, ![4096, 32]⟩ : Shape).Idx → EReal :=
  fun j => logSoftmax (logit h wl bl (j 0)) (j 1)

/-- The whole network. -/
def out (x : (⟨2, ![12288, 512]⟩ : Shape).Idx → EReal) (adj : (⟨2, ![12288, 12288]⟩ : Shape).Idx → EReal)
    (wc : (⟨3, ![3, 512, 512]⟩ : Shape).Idx → EReal) (bc : (⟨2, ![3, 512]⟩ : Shape).Idx → EReal)
    (ws : (⟨3, ![3, 512, 512]⟩ : Shape).Idx → EReal) (bs : (⟨2, ![3, 512]⟩ : Shape).Idx → EReal)
    (wl : (⟨2, ![32, 1536]⟩ : Shape).Idx → EReal) (bl : (⟨1, ![32]⟩ : Shape).Idx → EReal) :
    (⟨2, ![4096, 32]⟩ : Shape).Idx → EReal :=
  outArr (h2arr adj (h1arr x wc bc) ws bs) wl bl

end Cert.Spec

end
-- ==== Proof.SpecBlocks.lean ====
import proofs.«170717_j11553462026818_1_alg».proof.Proof.Spec

/-! # The three layers as the regions read them

The kernels do not read the raw arguments but re-laid copies: the node features as 3 × 4096 × 512, each bias as
3 × 1 × 512, the last layer's weights as 3 × 32 × 512 (relation, class, feature), its bias as 1 × 32. These are the
specification's layers over those copies; `Cert.Spec.h1arr`, `h2arr` and `outArr` are the same functions of the raw
arguments once each copy is read at an index. -/

noncomputable section

namespace Cert.Spec

open Idealize.ShloMosaic Idealize.ShloMosaic.ValueIdx

/-- The first layer over the re-laid features and bias. -/
def h1blocks (xs : (⟨3, ![3, 4096, 512]⟩ : Shape).Idx → EReal) (wc : (⟨3, ![3, 512, 512]⟩ : Shape).Idx → EReal)
    (b1 : (⟨3, ![3, 1, 512]⟩ : Shape).Idx → EReal) : (⟨3, ![3, 4096, 512]⟩ : Shape).Idx → EReal :=
  fun j => max ((∑ f : Fin 512, xs (ix3 (j 0) (j 1) f) * wc (ix3 (j 0) (j 2) f)) + b1 (ix3 (j 0) 0 (j 2))) 0

/-- Message passing and the second layer over the re-laid bias. -/
def h2blocks (adj : (⟨2, ![12288, 12288]⟩ : Shape).Idx → EReal) (h : (⟨3, ![3, 4096, 512]⟩ : Shape).Idx → EReal)
    (ws : (⟨3, ![3, 512, 512]⟩ : Shape).Idx → EReal) (b2 : (⟨3, ![3, 1, 512]⟩ : Shape).Idx → EReal) :
    (⟨3, ![3, 4096, 512]⟩ : Shape).Idx → EReal :=
  fun j => max ((∑ f : Fin 512, msg adj h (j 0) (j 1) f * ws (ix3 (j 0) (j 2) f)) + b2 (ix3 (j 0) 0 (j 2))) 0

/-- The last layer and the log-softmax over the re-laid weights and bias. -/
def outBlocks (h : (⟨3, ![3, 4096, 512]⟩ : Shape).Idx → EReal) (wl3 : (⟨3, ![3, 32, 512]⟩ : Shape).Idx → EReal)
    (b5 : (⟨2, ![1, 32]⟩ : Shape).Idx → EReal) : (⟨2, ![4096, 32]⟩ : Shape).Idx → EReal :=
  fun j => logSoftmax (fun c => (∑ t : Fin 3, ∑ f : Fin 512, h (ix3 t (j 0) f) * wl3 (ix3 t c f)) + b5 (ix2 0 c)) (j 1)

end Cert.Spec

end
-- ==== Proof.SpecApply.lean ====
import proofs.«170717_j11553462026818_1_alg».proof.Proof.SpecBlocks

/-! # The layers read at an index with explicit coordinates

Each layer at the index `(t, n, g)` (or `(n, c)`), with every coordinate a variable of its literal range. -/

noncomputable section

namespace Cert.Spec

open Idealize.ShloMosaic Idealize.ShloMosaic.ValueIdx

theorem h1arr_apply (x : (⟨2, ![12288, 512]⟩ : Shape).Idx → EReal) (wc : (⟨3, ![3, 512, 512]⟩ : Shape).Idx → EReal)
    (bc : (⟨2, ![3, 512]⟩ : Shape).Idx → EReal) (t : Fin 3) (n : Fin 4096) (g : Fin 512) :
    h1arr x wc bc (ix3 t n g) = max ((∑ f : Fin 512, x (ix2 (nodeOf t n) f) * wc (ix3 t g f)) + bc (ix2 t g)) 0 := rfl

theorem h1blocks_apply (xs : (⟨3, ![3, 4096, 512]⟩ : Shape).Idx → EReal) (wc : (⟨3, ![3, 512, 512]⟩ : Shape).Idx → EReal)
    (b1 : (⟨3, ![3, 1, 512]⟩ : Shape).Idx → EReal) (t : Fin 3) (n : Fin 4096) (g : Fin 512) :
    h1blocks xs wc b1 (ix3 t n g) = max ((∑ f : Fin 512, xs (ix3 t n f) * wc (ix3 t g f)) + b1 (ix3 t 0 g)) 0 := rfl

theorem h2arr_apply (adj : (⟨2, ![12288, 12288]⟩ : Shape).Idx → EReal) (h : (⟨3, ![3, 4096, 512]⟩ : Shape).Idx → EReal)
    (ws : (⟨3, ![3, 512, 512]⟩ : Shape).Idx → EReal) (bs : (⟨2, ![3, 512]⟩ : Shape).Idx → EReal) (t : Fin 3) (n : Fin 4096) (g : Fin 512) :
    h2arr adj h ws bs (ix3 t n g) = max ((∑ f : Fin 512, msg adj h t n f * ws (ix3 t g f)) + bs (ix2 t g)) 0 := rfl

theorem h2blocks_apply (adj : (⟨2, ![12288, 12288]⟩ : Shape).Idx → EReal) (h : (⟨3, ![3, 4096, 512]⟩ : Shape).Idx → EReal)
    (ws : (⟨3, ![3, 512, 512]⟩ : Shape).Idx → EReal) (b2 : (⟨3, ![3, 1, 512]⟩ : Shape).Idx → EReal) (t : Fin 3) (n : Fin 4096) (g : Fin 512) :
    h2blocks adj h ws b2 (ix3 t n g) = max ((∑ f : Fin 512, msg adj h t n f * ws (ix3 t g f)) + b2 (ix3 t 0 g)) 0 := rfl

theorem outArr_apply (h : (⟨3, ![3, 4096, 512]⟩ : Shape).Idx → EReal) (wl : (⟨2, ![32, 1536]⟩ : Shape).Idx → EReal)
    (bl : (⟨1, ![32]⟩ : Shape).Idx → EReal) (n : Fin 4096) (cl : Fin 32) :
    outArr h wl bl (ix2 n cl)
      = logSoftmax (fun c' => (∑ t : Fin 3, ∑ f : Fin 512, h (ix3 t n f) * wl (ix2 c' (featOf t f))) + bl (ix1 c')) cl := rfl

theorem outBlocks_apply (h : (⟨3, ![3, 4096, 512]⟩ : Shape).Idx → EReal) (wl3 : (⟨3, ![3, 32, 512]⟩ : Shape).Idx → EReal)
    (b5 : (⟨2, ![1, 32]⟩ : Shape).Idx → EReal) (n : Fin 4096) (cl : Fin 32) :
    outBlocks h wl3 b5 (ix2 n cl)
      = logSoftmax (fun c' => (∑ t : Fin 3, ∑ f : Fin 512, h (ix3 t n f) * wl3 (ix3 t c' f)) + b5 (ix2 0 c')) cl := rfl

end Cert.Spec

end
-- ==== Proof.KI.Value0Pay.lean ====
import proofs.«170717_j11553462026818_1_alg».proof.Proof.Gen.KernelIdeal.Skeleton
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! # The first region's body at one element, on the extended reals

Row `p` of the feature block against row `q` of the weight block, plus the bias at `q`, rectified. -/

/-- The row operand of the product at contraction coordinate `k`: axis 0 is the output's row. -/
theorem v0_lhs_0 (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- Its axis 1 is the contraction coordinate. -/
theorem v0_lhs_1 (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
/-- The column operand: axis 0 is the contraction coordinate, -/
theorem v0_rhs_0 (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
/-- axis 1 the output's column. -/
theorem v0_rhs_1 (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A 1024 × 512 by 512 × 512 product into the zero accumulator, at `(p, q)`: row `p` against column `q`. -/
theorem v0_matmul_apply (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = ∑ k : Fin 512, a (ix2 p k) * b (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun d => Fin.ext (by
    match d with
    | ⟨0, _⟩ => exact v0_lhs_0 _ _
    | ⟨1, _⟩ => exact (v0_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun d => Fin.ext (by
    match d with
    | ⟨0, _⟩ => exact (v0_rhs_0 _ _).trans hk
    | ⟨1, _⟩ => exact v0_rhs_1 _ _)
  rw [el, er]

/-- The body's stored value at `(u, p, q)`: row `p` of the feature block against row `q` of the weight block, plus the bias
    at `q`, rectified. -/
theorem v0_pay_apply (x : Vec Ideal S1x1024x512 .f32) (w : Vec Ideal S1x512x512 .f32) (b : Vec Ideal S1x1x512 .f32)
    (u : Fin 1) (p : Fin 1024) (q : Fin 512) :
    k0_pay1 x w b (ix3 u p q)
      = max ((∑ k : Fin 512, x (ix3 (0 : Fin 1) p k) * w (ix3 (0 : Fin 1) q k)) + b (ix3 (0 : Fin 1) (0 : Fin 1) q)) 0 := by
  unfold k0_pay1
  dsimp only
  refine (shapeCast_ab_1ab_apply _ shapeCasts_S1024x512_S1x1024x512 u p q).trans ?_
  rw [truncf_apply, maximumf_apply, addf_apply, broadcast_apply, v0_matmul_apply]
  rw [broadcastTo_apply _ broadcasts_S1x512_S1024x512 (ix2 p q) (ix2 (0 : Fin 1) q) (fun a => match a with
      | ⟨0, _⟩ => rfl
      | ⟨1, _⟩ => rfl)]
  rw [shapeCast_1ab_ab_apply]
  show max _ (Ideal.ofBits .f32 0x00000000#32) = _
  rw [Ideal.ofBits_zero_f32]
  refine congrArg (fun s => max (s + b (ix3 (0 : Fin 1) (0 : Fin 1) q)) 0) (Finset.sum_congr rfl fun k _ => ?_)
  rw [truncf_apply, shapeCast_1ab_ab_apply, transpose_ix2_apply, truncf_apply, shapeCast_1ab_ab_apply]

end Cert.KernelIdeal.Hand

end
-- ==== Proof.KI.Value0.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Region0
import proofs.«170717_j11553462026818_1_alg».proof.Proof.SpecBlocks
import proofs.«170717_j11553462026818_1_alg».proof.Proof.SpecApply
import proofs.«170717_j11553462026818_1_alg».proof.Proof.KI.Value0Pay
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # What the first region leaves in its output array, on the extended reals

Block `t` of the output is the body's value of the three input blocks at `t`; the twelve blocks tile the array, so the
array after the region is ONE function of the arrays the region found: the first layer. -/

section Blocks

variable (V : (c : Dev nD) → (b : Ref sig .tc) → Buf (Elt Ideal) ((c : Thread nD τ).loc b))

/-- The four windows' block indices over the grid: the feature block moves with the output block, the weight and bias blocks
    follow its relation only, and no window moves along the last axis. -/
theorem v0_idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 3 ∧ win0_3.index t (1 : Fin 3) < 4 :=
  (by decide +kernel : ∀ t : Fin grid0.N, _)

/-- Every one of the output's twelve blocks is some point's. -/
theorem v0_idx_onto : ∀ (r : Fin 3) (i : Fin 4), ∃ t : Fin cfg0.N, win0_3.index t = ![r.val, i.val, 0] :=
  (by decide +kernel : ∀ (r : Fin 3) (i : Fin 4), ∃ t : Fin grid0.N, win0_3.index t = ![r.val, i.val, 0])

/-- An element of the feature block at point `t` is the feature array's element under it. -/
theorem v0_blk0_apply (c : Dev nD) (t : Fin cfg0.N) (u : Fin 1) (p : Fin 1024) (f : Fin 512) (r : Fin 3) (n : Fin 4096)
    (hr : r.val = win0_3.index t (0 : Fin 3)) (hn : n.val = win0_3.index t (1 : Fin 3) * 1024 + p.val) :
    (iblk0 (F := Ideal) V c 0 t : Vec Ideal S1x1024x512 .f32) (ix3 u p f) = (V c main_v0 : S3x4096x512.Idx → EReal) (ix3 r n f) := by
  obtain ⟨e0, e1, e2, -⟩ := v0_idx_facts t
  have hu : u.val = 0 := by omega
  unfold iblk0
  rw [View.read_apply]
  show V c main_v0 _ = V c main_v0 _
  congr 1
  funext a
  apply Fin.ext
  match a with
  | ⟨0, _⟩ => show win0_0.index t (0 : Fin 3) * 1 + 1 * u.val = r.val; omega
  | ⟨1, _⟩ => show win0_0.index t (1 : Fin 3) * 1024 + 1 * p.val = n.val; omega
  | ⟨2, _⟩ => show win0_0.index t (2 : Fin 3) * 512 + 1 * f.val = f.val; omega

/-- An element of the weight block at point `t` is the weight array's element under it. -/
theorem v0_blk1_apply (c : Dev nD) (t : Fin cfg0.N) (u : Fin 1) (g : Fin 512) (f : Fin 512) (r : Fin 3)
    (hr : r.val = win0_3.index t (0 : Fin 3)) :
    (iblk0 (F := Ideal) V c 1 t : Vec Ideal S1x512x512 .f32) (ix3 u g f) = (V c main_arg3 : S3x512x512.Idx → EReal) (ix3 r g f) := by
  obtain ⟨-, -, -, e0, e1, e2, -⟩ := v0_idx_facts t
  have hu : u.val = 0 := by omega
  unfold iblk0
  rw [View.read_apply]
  show V c main_arg3 _ = V c main_arg3 _
  congr 1
  funext a
  apply Fin.ext
  match a with
  | ⟨0, _⟩ => show win0_1.index t (0 : Fin 3) * 1 + 1 * u.val = r.val; omega
  | ⟨1, _⟩ => show win0_1.index t (1 : Fin 3) * 512 + 1 * g.val = g.val; omega
  | ⟨2, _⟩ => show win0_1.index t (2 : Fin 3) * 512 + 1 * f.val = f.val; omega

/-- An element of the bias block at point `t` is the bias array's element under it. -/
theorem v0_blk2_apply (c : Dev nD) (t : Fin cfg0.N) (u : Fin 1) (z : Fin 1) (g : Fin 512) (r : Fin 3)
    (hr : r.val = win0_3.index t (0 : Fin 3)) :
    (iblk0 (F := Ideal) V c 2 t : Vec Ideal S1x1x512 .f32) (ix3 u z g) = (V c main_v1 : S3x1x512.Idx → EReal) (ix3 r (0 : Fin 1) g) := by
  obtain ⟨-, -, -, -, -, -, e0, e1, e2, -⟩ := v0_idx_facts t
  have hu : u.val = 0 := by omega
  have hz : z.val = 0 := by omega
  unfold iblk0
  rw [View.read_apply]
  show V c main_v1 _ = V c main_v1 _
  congr 1
  funext a
  apply Fin.ext
  match a with
  | ⟨0, _⟩ => show win0_2.index t (0 : Fin 3) * 1 + 1 * u.val = r.val; omega
  | ⟨1, _⟩ => show win0_2.index t (1 : Fin 3) * 1 + 1 * z.val = 0; omega
  | ⟨2, _⟩ => show win0_2.index t (2 : Fin 3) * 512 + 1 * g.val = g.val; omega

/-- WHAT POINT `t` WRITES BACK is block `t` of the first layer of the arrays the region found. -/
theorem v0_flushed_eq (c : Dev nD) (t : Fin cfg0.N) :
    (dat0 (F := Ideal) V c).flushed 3 t
      = ((cfg0.win 3).blk t).view.read (Elt Ideal) (Cert.Spec.h1blocks (V c main_v0) (V c main_arg3) (V c main_v1)) := by
  show (cfg0.win 3).cut (grid0.coords t) ((dat0 V c).after 3 t) = _
  rw [after0_3]
  show k0_pay1 (iblk0 V c 0 t) (iblk0 V c 1 t) (iblk0 V c 2 t) = _
  obtain ⟨-, -, -, -, -, -, -, -, -, e2, b0, b1⟩ := v0_idx_facts t
  funext y
  obtain ⟨u, p, q, rfl⟩ : ∃ (u : Fin 1) (p : Fin 1024) (q : Fin 512), y = ix3 u p q := ⟨y 0, y 1, y 2, eq_ix3 y⟩
  have hu : u.val = 0 := by omega
  have hemb : ((cfg0.win 3).blk t).view.emb (ix3 u p q)
      = ix3 (⟨win0_3.index t (0 : Fin 3), b0⟩ : Fin 3) (⟨win0_3.index t (1 : Fin 3) * 1024 + p.val, by omega⟩ : Fin 4096) q := by
    funext a
    apply Fin.ext
    match a with
    | ⟨0, _⟩ => show win0_3.index t (0 : Fin 3) * 1 + 1 * u.val = win0_3.index t (0 : Fin 3); omega
    | ⟨1, _⟩ => show win0_3.index t (1 : Fin 3) * 1024 + 1 * p.val = win0_3.index t (1 : Fin 3) * 1024 + p.val; omega
    | ⟨2, _⟩ => show win0_3.index t (2 : Fin 3) * 512 + 1 * q.val = q.val; omega
  rw [View.read_apply, hemb]
  refine (v0_pay_apply (iblk0 V c 0 t) (iblk0 V c 1 t) (iblk0 V c 2 t) u p q).trans ?_
  refine Eq.trans ?_ (Cert.Spec.h1blocks_apply (V c main_v0) (V c main_arg3) (V c main_v1) _ _ q).symm
  refine congrArg₂ (fun s z => max (s + z) 0) (Finset.sum_congr rfl fun k _ => ?_) ?_
  · exact congrArg₂ (· * ·) (v0_blk0_apply V c t 0 p k _ _ rfl rfl) (v0_blk1_apply V c t 0 q k _ rfl)
  · exact v0_blk2_apply V c t 0 0 q _ rfl

/-- An index of the output array is in point `t`'s block iff each coordinate is in the block's range on its axis. -/
theorem v0_mem_blk (t : Fin cfg0.N) (i : S3x4096x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v6).slice (win0_3.rect t)).set ↔ _
  rw [View.set_slice_whole, Rect.mem_set_unit]
  exact Iff.rfl

/-- Every index of the output array is in some point's block: relation `i 0`, row block `i 1 / 1024`. -/
theorem v0_cover (i : S3x4096x512.Idx) : ∃ t : Fin cfg0.N, (cfg0.win 3).flush t = true ∧ i ∈ ((cfg0.win 3).blk t).view.set := by
  have h0 : (i 0).val < 3 := (i 0).isLt
  have h1 : (i 1).val < 4096 := (i 1).isLt
  have h2 : (i 2).val < 512 := (i 2).isLt
  obtain ⟨t, ht⟩ := v0_idx_onto ⟨(i 0).val, h0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [v0_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

end Blocks

/-- The first region's output array after the region is the first layer of the arrays it found. -/
theorem out0_eq (V : (c : Dev nD) → (b : Ref sig .tc) → Buf (Elt Ideal) ((c : Thread nD τ).loc b)) (c : Dev nD) :
    (dat0 (F := Ideal) V c).arrAt 3 cfg0.N = Cert.Spec.h1blocks (V c main_v0) (V c main_arg3) (V c main_v1) :=
  (dat0 (F := Ideal) V c).arrAt_eq_of_cover 3 _ (fun t _ => v0_flushed_eq V c t) v0_cover

end Cert.KernelIdeal.Hand

end
-- ==== Proof.KI.Value1Acc.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulator at a point that writes the output back

Such a point is the last of a run of 4 points; the first of the run has column block 0 and clears the accumulator, and
each point of the run adds its block product: the accumulator after the point is 4 nested updates of the cleared
accumulator, innermost first. -/

variable (V : (c : Dev nD) → (b : Ref sig .tc) → Buf (Elt F) ((c : Thread nD τ).loc b))

/-- A point whose column block is not 0 adds its block product to what the point before left. -/
theorem acc1_succ_live (c : Dev nD) (t : Fin cfg1.N) (h0 : t.val % 4 ≠ 0) :
    acc1 V c (t.val + 1) = k1_pay2 (iblk1 V c 0 t) (iblk1 V c 1 t) (acc1 V c t.val) := by
  rw [← acc1_succ V c t (acc1 V c t.val) (fun _ => rfl)]
  unfold acc1_step
  rw [if_neg (fun h => h0 ((coord_last1 t).symm.trans h))]

/-- A point whose column block is 0 adds its block product to the cleared accumulator. -/
theorem acc1_succ_clear (c : Dev nD) (t : Fin cfg1.N) (h0 : t.val % 4 = 0) :
    acc1 V c (t.val + 1) = k1_pay2 (iblk1 V c 0 t) (iblk1 V c 1 t) k1_pay1 := by
  rw [← acc1_succ V c t k1_pay1 (fun h => absurd h0 h)]
  unfold acc1_step
  rw [if_pos ((coord_last1 t).trans h0)]

/-- The accumulator after a writing-back point `t`, in terms of the blocks at `t` and at the 3 points before it. -/
theorem acc1_flush (c : Dev nD) (t : Fin cfg1.N) (ht : t.val % 4 = 3) (t1 : Fin cfg1.N) (h1 : t1.val + 1 = t.val) (t2 : Fin cfg1.N) (h2 : t2.val + 2 = t.val) (t3 : Fin cfg1.N) (h3 : t3.val + 3 = t.val) :
    acc1 V c (t.val + 1) = k1_pay2 (iblk1 V c 0 t) (iblk1 V c 1 t) (k1_pay2 (iblk1 V c 0 t1) (iblk1 V c 1 t1) (k1_pay2 (iblk1 V c 0 t2) (iblk1 V c 1 t2) (k1_pay2 (iblk1 V c 0 t3) (iblk1 V c 1 t3) (k1_pay1)))) := by
  have r0 : t.val % 4 ≠ 0 := by omega
  have r1 : t1.val % 4 ≠ 0 := by omega
  have r2 : t2.val % 4 ≠ 0 := by omega
  have r3 : t3.val % 4 = 0 := by omega
  have e1 : acc1 V c t.val = acc1 V c (t1.val + 1) := by rw [h1]
  have e2 : acc1 V c t1.val = acc1 V c (t2.val + 1) := by rw [show t1.val = t2.val + 1 by omega]
  have e3 : acc1 V c t2.val = acc1 V c (t3.val + 1) := by rw [show t2.val = t3.val + 1 by omega]
  rw [acc1_succ_live V c t r0, e1, acc1_succ_live V c t1 r1, e2, acc1_succ_live V c t2 r2, e3,
    acc1_succ_clear V c t3 r3]

end Cert.KernelIdeal.Hand

end
-- ==== Proof.KI.Value1Cover.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The output blocks written back tile the output array

Index (r, n, g) of the 3 × 4096 × 512 output lies in the block of relation r and row block n / 1024, which is written back at the last
column block: point 16·r + 4·(n / 1024) + 3. -/

/-- The output window's block index at a point, decided over the grid: relation, row block, and column block 0. -/
theorem v1_cover_idx : ∀ t : Fin cfg1.N, win1_4.index t (0 : Fin 3) = t.val / 16
    ∧ win1_4.index t (1 : Fin 3) = (t.val / 4) % 4
    ∧ win1_4.index t (2 : Fin 3) = 0 :=
  (by decide +kernel : ∀ t : Fin grid1.N, _)

/-- An index of the output array is in a point's block iff each coordinate is in the block's range on its axis. -/
theorem v1_cover_mem (t : Fin cfg1.N) (i : S3x4096x512.Idx) :
    i ∈ ((cfg1.win 4).blk t).view.set ↔ ∀ a : Fin 3, win1_4.index t a * S1x1024x512.size a ≤ (i a).val
      ∧ (i a).val < win1_4.index t a * S1x1024x512.size a + S1x1024x512.size a := by
  show i ∈ ((View.whole main_v7).slice (win1_4.rect t)).set ↔ _
  rw [View.set_slice_whole, Rect.mem_set_unit]
  exact Iff.rfl

/-- Every index of the output array lies in the block of some point that writes the output back. -/
theorem v1_cover (i : S3x4096x512.Idx) :
    ∃ t : Fin cfg1.N, (cfg1.win 4).flush t = true ∧ i ∈ ((cfg1.win 4).blk t).view.set := by
  have h0 : (i 0).val < 3 := (i 0).isLt
  have h1 : (i 1).val < 4096 := (i 1).isLt
  have h2 : (i 2).val < 512 := (i 2).isLt
  obtain ⟨t, ht⟩ : ∃ t : Fin cfg1.N, t.val = 16 * (i 0).val + 4 * ((i 1).val / 1024) + 3 :=
    ⟨⟨16 * (i 0).val + 4 * ((i 1).val / 1024) + 3, by show _ < 48; omega⟩, rfl⟩
  refine ⟨t, (flush1_4 t).mpr (by omega), ?_⟩
  rw [v1_cover_mem]
  obtain ⟨e0, e1, e2⟩ := v1_cover_idx t
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 1024 ≤ (i 1).val ∧ (i 1).val < win1_4.index t (1 : Fin 3) * 1024 + 1024
    omega
  | ⟨2, _⟩ =>
    show win1_4.index t (2 : Fin 3) * 512 ≤ (i 2).val ∧ (i 2).val < win1_4.index t (2 : Fin 3) * 512 + 512
    omega

end Cert.KernelIdeal.Hand

end
-- ==== Proof.KI.Value1Pay.lean ====
import proofs.«170717_j11553462026818_1_alg».proof.Proof.Gen.KernelIdeal.Skeleton
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! # The second kernel's arithmetic, index by index, on the extended reals

Three values are stored by the body. The cleared accumulator is zero everywhere. One accumulation step adds, at row `p`
and feature `g`, the sum over the block's 1024 columns `k` of adjacency `(p, k)` times feature `(k, g)`. The stored output
block is, at row `p` and output feature `q`, the sum over the 512 features `f` of accumulator `(p, f)` times weight
`(q, f)` (the weights enter transposed), plus the bias at `q`, clipped below at zero. A change of float format is the
identity here, and a product into the zero accumulator is the plain sum over the contracted coordinate. -/

/-! ## The two products' operand indices: rows times columns, one contracted axis -/

theorem v1_lhsA_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem v1_lhsA_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem v1_rhsA_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem v1_rhsA_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-! ## The block product: adjacency block times feature block -/

/-- The product read at an index: the sum over the contracted coordinate. -/
theorem v1_matmulA_apply (a : FVec Ideal S1024x1024 .bf16) (h : FVec Ideal S1024x512 .bf16) (p : Fin 1024) (g : Fin 512) :
    matmul dot_S1024x1024_S1024x512_S1024x512_1_0_0_1_n_n none a h (constant (F := Ideal) S1024x512 .f32 0x00000000#32) (ix2 p g)
      = ∑ k : Fin 1024, a (ix2 p k) * h (ix2 k g) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p g) ((contrEquiv1 dot_S1024x1024_S1024x512_S1024x512_1_0_0_1_n_n 1024 rfl rfl).symm k) = ix2 p k := funext fun ax => Fin.ext (by
    match ax with
    | ⟨0, _⟩ => exact v1_lhsA_0 _ _
    | ⟨1, _⟩ => exact (v1_lhsA_1 _ _).trans hk)
  have er : dot_S1024x1024_S1024x512_S1024x512_1_0_0_1_n_n.rhsIdx (ix2 p g) ((contrEquiv1 dot_S1024x1024_S1024x512_S1024x512_1_0_0_1_n_n 1024 rfl rfl).symm k) = ix2 k g := funext fun ax => Fin.ext (by
    match ax with
    | ⟨0, _⟩ => exact (v1_rhsA_0 _ _).trans hk
    | ⟨1, _⟩ => exact v1_rhsA_1 _ _)
  rw [el, er]

/-! ## The second layer's product: accumulator times transposed weights -/

theorem v1_lhsB_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem v1_lhsB_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem v1_rhsB_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem v1_rhsB_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product read at an index: the sum over the contracted coordinate. -/
theorem v1_matmulB_apply (a : FVec Ideal S1024x512 .bf16) (h : FVec Ideal S512x512 .bf16) (p : Fin 1024) (g : Fin 512) :
    matmul dot_S1024x512_S512x512_S1024x512_1_0_0_1_n_n none a h (constant (F := Ideal) S1024x512 .f32 0x00000000#32) (ix2 p g)
      = ∑ k : Fin 512, a (ix2 p k) * h (ix2 k g) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p g) ((contrEquiv1 dot_S1024x512_S512x512_S1024x512_1_0_0_1_n_n 512 rfl rfl).symm k) = ix2 p k := funext fun ax => Fin.ext (by
    match ax with
    | ⟨0, _⟩ => exact v1_lhsB_0 _ _
    | ⟨1, _⟩ => exact (v1_lhsB_1 _ _).trans hk)
  have er : dot_S1024x512_S512x512_S1024x512_1_0_0_1_n_n.rhsIdx (ix2 p g) ((contrEquiv1 dot_S1024x512_S512x512_S1024x512_1_0_0_1_n_n 512 rfl rfl).symm k) = ix2 k g := funext fun ax => Fin.ext (by
    match ax with
    | ⟨0, _⟩ => exact (v1_rhsB_0 _ _).trans hk
    | ⟨1, _⟩ => exact v1_rhsB_1 _ _)
  rw [el, er]

/-! ## The three stored values at an index -/

/-- The cleared accumulator is zero at every index. -/
theorem v1_pay1_apply (p : Fin 1024) (g : Fin 512) : (k1_pay1 (F := Ideal)) (ix2 p g) = 0 := by
  unfold k1_pay1
  rw [shapeCast_self]
  show Ideal.ofBits .f32 0x00000000#32 = 0
  exact Ideal.ofBits_zero_f32

/-- One accumulation step at an index: what was there plus the block product's entry. -/
theorem v1_pay2_apply (a : Vec Ideal S1024x1024 .f32) (h : Vec Ideal S1x1024x512 .bf16) (s : Vec Ideal S1024x512 .f32)
    (p : Fin 1024) (g : Fin 512) :
    k1_pay2 a h s (ix2 p g) = s (ix2 p g) + ∑ k : Fin 1024, a (ix2 p k) * h (ix3 (0 : Fin 1) k g) := by
  unfold k1_pay2
  rw [shapeCast_self, addf_apply, v1_matmulA_apply]
  refine congrArg (s (ix2 p g) + ·) (Finset.sum_congr rfl fun k _ => ?_)
  rw [truncf_apply, shapeCast_1ab_ab_apply]

/-- The stored block at an index: the accumulator's row against the weights' row, plus the bias, clipped below at zero. -/
theorem v1_pay3_apply (s : Vec Ideal S1024x512 .f32) (w : Vec Ideal S1x512x512 .f32) (b : Vec Ideal S1x1x512 .f32)
    (u : Fin 1) (p : Fin 1024) (q : Fin 512) :
    k1_pay3 s w b (ix3 u p q)
      = max ((∑ f : Fin 512, s (ix2 p f) * w (ix3 (0 : Fin 1) q f)) + b (ix3 (0 : Fin 1) (0 : Fin 1) q)) 0 := by
  unfold k1_pay3
  rw [shapeCast_ab_1ab_apply, truncf_apply, maximumf_apply, addf_apply, v1_matmulB_apply, broadcast_apply,
    broadcastTo_1b_ab_apply, shapeCast_1ab_ab_apply]
  have hz : (Scalar.ofBits .f32 0x00000000#32 : Ideal .f32) = 0 := Ideal.ofBits_zero_f32
  rw [hz]
  refine congrArg (fun x => max (x + b (ix3 (0 : Fin 1) (0 : Fin 1) q)) 0) (Finset.sum_congr rfl fun f _ => ?_)
  rw [truncf_apply, transpose_ix2_apply, truncf_apply, shapeCast_1ab_ab_apply]

/-- Four accumulation steps onto the cleared accumulator, at an index: the four block products' entries added, the oldest
    first (`0 + x = x` absorbs the cleared accumulator). -/
theorem v1_chain_apply (a0 a1 a2 a3 : Vec Ideal S1024x1024 .f32) (h0 h1 h2 h3 : Vec Ideal S1x1024x512 .bf16)
    (p : Fin 1024) (g : Fin 512) :
    k1_pay2 a0 h0 (k1_pay2 a1 h1 (k1_pay2 a2 h2 (k1_pay2 a3 h3 (k1_pay1 (F := Ideal))))) (ix2 p g)
      = (∑ k : Fin 1024, a3 (ix2 p k) * h3 (ix3 (0 : Fin 1) k g)) + (∑ k : Fin 1024, a2 (ix2 p k) * h2 (ix3 (0 : Fin 1) k g))
        + (∑ k : Fin 1024, a1 (ix2 p k) * h1 (ix3 (0 : Fin 1) k g)) + (∑ k : Fin 1024, a0 (ix2 p k) * h0 (ix3 (0 : Fin 1) k g)) := by
  rw [v1_pay2_apply, v1_pay2_apply, v1_pay2_apply, v1_pay2_apply, v1_pay1_apply, zero_add]

end Cert.KernelIdeal.Hand

end
-- ==== Proof.SumBlocks.lean ====
import Mathlib.Algebra.BigOperators.Fin
import Mathlib.Algebra.BigOperators.Group.Finset.Defs
import Mathlib.Data.Fintype.BigOperators
import Mathlib.Logic.Equiv.Fin.Basic

/-! # A sum over 4096 indices as four blocks of 1024 -/

namespace Cert.Spec

/-- Index `j` of block `k` among 4096. -/
def inBlock (k : Fin 4) (j : Fin 1024) : Fin 4096 := ⟨k.val * 1024 + j.val, by have := k.isLt; have := j.isLt; omega⟩

/-- A sum over 4096 indices is the sum over the four blocks of the sums inside each block, in any commutative
    monoid. -/
theorem sum_inBlock {M : Type*} [AddCommMonoid M] (g : Fin 4096 → M) :
    ∑ j : Fin 4096, g j = ∑ k : Fin 4, ∑ j : Fin 1024, g (inBlock k j) := by
  -- the pairs (block, place in the block) number the 4096 indices: pair (k, j) is index j + 1024 k
  calc ∑ j : Fin 4096, g j
      = ∑ p : Fin 4 × Fin 1024, g (finProdFinEquiv p) := (Equiv.sum_comp (finProdFinEquiv (m := 4) (n := 1024)) g).symm
    _ = ∑ p : Fin 4 × Fin 1024, g (inBlock p.1 p.2) :=
        Finset.sum_congr rfl fun p _ => congrArg g (Fin.ext (by
          show p.2.val + 1024 * p.1.val = p.1.val * 1024 + p.2.val
          omega))
    _ = ∑ k : Fin 4, ∑ j : Fin 1024, g (inBlock k j) := Fintype.sum_prod_type' fun k j => g (inBlock k j)

/-- The same with the four blocks written out. -/
theorem sum_inBlock4 {M : Type*} [AddCommMonoid M] (g : Fin 4096 → M) :
    ∑ j : Fin 4096, g j = (∑ j : Fin 1024, g (inBlock 0 j)) + (∑ j : Fin 1024, g (inBlock 1 j))
      + (∑ j : Fin 1024, g (inBlock 2 j)) + (∑ j : Fin 1024, g (inBlock 3 j)) := by
  rw [sum_inBlock, Fin.sum_univ_four]

end Cert.Spec
-- ==== Proof.KI.Value1.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Region1
import proofs.«170717_j11553462026818_1_alg».proof.Proof.KI.Value1Acc
import proofs.«170717_j11553462026818_1_alg».proof.Proof.KI.Value1Cover
import proofs.«170717_j11553462026818_1_alg».proof.Proof.KI.Value1Pay
import proofs.«170717_j11553462026818_1_alg».proof.Proof.SpecBlocks
import proofs.«170717_j11553462026818_1_alg».proof.Proof.SpecApply
import proofs.«170717_j11553462026818_1_alg».proof.Proof.SumBlocks
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # What the second region leaves in its output array, on the extended reals

The output block of (relation, row block) is written back at the last of its four column blocks; by then the
accumulator holds the sum, over the four column blocks, of adjacency block times feature block, which is the sum over
all 4096 columns of the relation; the stored value is the second layer of that. The twelve written blocks tile the
array, so the array after the region is ONE function of the arrays the region found.

Point `t` of the grid has relation `t / 16`, row block `(t / 4) % 4` and column block `t % 4`. An element of a block sits
in its array, on each axis, at the block's number times the block's size plus its own coordinate: row `p` of the adjacency
block is row `(t / 4) % 4 · 1024 + p` of the adjacency, its column `k` is column `(4 · (t / 16) + t % 4) · 1024 + k`, which
is node `(t % 4) · 1024 + k` of the relation's type; row `k` of the feature block is that same node. So the four block
products of a run of four points are the four quarters of the relation's sum over its 4096 source nodes. -/

section
variable (V : (c : Dev nD) → (b : Ref sig .tc) → Buf (Elt Ideal) ((c : Thread nD τ).loc b))

/-- The windows' block numbers at point `t`, decided over the grid: relation `t / 16`, row block `(t / 4) % 4`,
    column block `t % 4`. -/
theorem v1_idx_facts : ∀ t : Fin cfg1.N,
    win1_0.index t (0 : Fin 2) = (t.val / 4) % 4 ∧ win1_0.index t (1 : Fin 2) = 4 * (t.val / 16) + t.val % 4
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0
    ∧ win1_4.index t (0 : Fin 3) = t.val / 16 ∧ win1_4.index t (1 : Fin 3) = (t.val / 4) % 4 ∧ win1_4.index t (2 : Fin 3) = 0 :=
  (by decide +kernel : ∀ t : Fin grid1.N, _)

/-- The adjacency block at point `t`, read in the whole adjacency. -/
theorem v1_iblk0_apply (c : Dev nD) (t : Fin cfg1.N) (p k : Fin 1024) (r cl : Fin 12288)
    (hr : r.val = ((t.val / 4) % 4) * 1024 + p.val) (hc : cl.val = (4 * (t.val / 16) + t.val % 4) * 1024 + k.val) :
    (iblk1 V c 0 t : Vec Ideal S1024x1024 .f32) (ix2 p k) = (V c main_arg1 : S12288x12288.Idx → EReal) (ix2 r cl) := by
  obtain ⟨e0, e1, -⟩ := v1_idx_facts t
  unfold iblk1
  rw [View.read_apply]
  show V c main_arg1 _ = V c main_arg1 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * k.val = cl.val; rw [e1, hc]; omega

/-- The feature block at point `t`, read in the whole first-layer features. -/
theorem v1_iblk1_apply (c : Dev nD) (t : Fin cfg1.N) (k : Fin 1024) (g : Fin 512) (R : Fin 3) (j : Fin 4096)
    (hR : R.val = t.val / 16) (hj : j.val = (t.val % 4) * 1024 + k.val) :
    (iblk1 V c 1 t : Vec Ideal S1x1024x512 .bf16) (ix3 (0 : Fin 1) k g) = (V c main_v6 : S3x4096x512.Idx → EReal) (ix3 R j g) := by
  obtain ⟨-, -, e0, e1, e2, -⟩ := v1_idx_facts t
  unfold iblk1
  rw [View.read_apply]
  show V c main_v6 _ = V c main_v6 _
  congr 1
  funext a
  apply Fin.ext
  match a with
  | ⟨0, _⟩ => show win1_1.index t (0 : Fin 3) * 1 + 1 * 0 = R.val; rw [e0, hR]; omega
  | ⟨1, _⟩ => show win1_1.index t (1 : Fin 3) * 1024 + 1 * k.val = j.val; rw [e1, hj]; omega
  | ⟨2, _⟩ => show win1_1.index t (2 : Fin 3) * 512 + 1 * g.val = g.val; rw [e2]; omega

/-- The weights' block at point `t`, read in the whole weights. -/
theorem v1_iblk2_apply (c : Dev nD) (t : Fin cfg1.N) (q f : Fin 512) (R : Fin 3) (hR : R.val = t.val / 16) :
    (iblk1 V c 2 t : Vec Ideal S1x512x512 .f32) (ix3 (0 : Fin 1) q f) = (V c main_arg5 : S3x512x512.Idx → EReal) (ix3 R q f) := by
  obtain ⟨-, -, -, -, -, e0, e1, e2, -⟩ := v1_idx_facts t
  unfold iblk1
  rw [View.read_apply]
  show V c main_arg5 _ = V c main_arg5 _
  congr 1
  funext a
  apply Fin.ext
  match a with
  | ⟨0, _⟩ => show win1_2.index t (0 : Fin 3) * 1 + 1 * 0 = R.val; rw [e0, hR]; omega
  | ⟨1, _⟩ => show win1_2.index t (1 : Fin 3) * 512 + 1 * q.val = q.val; rw [e1]; omega
  | ⟨2, _⟩ => show win1_2.index t (2 : Fin 3) * 512 + 1 * f.val = f.val; rw [e2]; omega

/-- The bias block at point `t`, read in the whole bias. -/
theorem v1_iblk3_apply (c : Dev nD) (t : Fin cfg1.N) (q : Fin 512) (R : Fin 3) (hR : R.val = t.val / 16) :
    (iblk1 V c 3 t : Vec Ideal S1x1x512 .f32) (ix3 (0 : Fin 1) (0 : Fin 1) q) = (V c main_v2 : S3x1x512.Idx → EReal) (ix3 R (0 : Fin 1) q) := by
  obtain ⟨-, -, -, -, -, -, -, -, e0, e1, e2, -⟩ := v1_idx_facts t
  unfold iblk1
  rw [View.read_apply]
  show V c main_v2 _ = V c main_v2 _
  congr 1
  funext a
  apply Fin.ext
  match a with
  | ⟨0, _⟩ => show win1_3.index t (0 : Fin 3) * 1 + 1 * 0 = R.val; rw [e0, hR]; omega
  | ⟨1, _⟩ => show win1_3.index t (1 : Fin 3) * 1 + 1 * 0 = 0; rw [e1]
  | ⟨2, _⟩ => show win1_3.index t (2 : Fin 3) * 512 + 1 * q.val = q.val; rw [e2]; omega

/-- One column block's product at an index is that block's part of the relation's sum over its 4096 columns, once the two
    blocks are read in the whole arrays. -/
theorem v1_block_sum (a : Vec Ideal S1024x1024 .f32) (h : Vec Ideal S1x1024x512 .bf16) (adj : S12288x12288.Idx → EReal)
    (feat : S3x4096x512.Idx → EReal) (b : Fin 4) (p : Fin 1024) (f : Fin 512) (R : Fin 3) (n : Fin 4096)
    (ha : ∀ k : Fin 1024, a (ix2 p k) = adj (ix2 (Cert.Spec.rowIn n) (Cert.Spec.nodeOf R (Cert.Spec.inBlock b k))))
    (hh : ∀ k : Fin 1024, h (ix3 (0 : Fin 1) k f) = feat (ix3 R (Cert.Spec.inBlock b k) f)) :
    ∑ k : Fin 1024, a (ix2 p k) * h (ix3 (0 : Fin 1) k f)
      = ∑ k : Fin 1024, adj (ix2 (Cert.Spec.rowIn n) (Cert.Spec.nodeOf R (Cert.Spec.inBlock b k))) * feat (ix3 R (Cert.Spec.inBlock b k) f) :=
  Finset.sum_congr rfl fun k _ => by rw [ha k, hh k]

/-- The two blocks of a point with column block `b`, read in the whole arrays: the hypotheses of `v1_block_sum`. -/
theorem v1_blocks_read (c : Dev nD) (tj : Fin cfg1.N) (b : Fin 4) (hb : tj.val % 4 = b.val) (p : Fin 1024) (f : Fin 512)
    (R : Fin 3) (n : Fin 4096) (hR : R.val = tj.val / 16) (hn : n.val = ((tj.val / 4) % 4) * 1024 + p.val) :
    (∀ k : Fin 1024, (iblk1 V c 0 tj : Vec Ideal S1024x1024 .f32) (ix2 p k)
        = (V c main_arg1 : S12288x12288.Idx → EReal) (ix2 (Cert.Spec.rowIn n) (Cert.Spec.nodeOf R (Cert.Spec.inBlock b k))))
    ∧ (∀ k : Fin 1024, (iblk1 V c 1 tj : Vec Ideal S1x1024x512 .bf16) (ix3 (0 : Fin 1) k f)
        = (V c main_v6 : S3x4096x512.Idx → EReal) (ix3 R (Cert.Spec.inBlock b k) f)) :=
  ⟨fun k => v1_iblk0_apply V c tj p k (Cert.Spec.rowIn n) (Cert.Spec.nodeOf R (Cert.Spec.inBlock b k)) (by show n.val = _; exact hn)
      (by show R.val * 4096 + (b.val * 1024 + k.val) = _; omega),
    fun k => v1_iblk1_apply V c tj k f R (Cert.Spec.inBlock b k) hR (by show b.val * 1024 + k.val = _; omega)⟩

/-- WHAT A WRITING-BACK POINT STORES, at an index: the second layer of the messages the relation brings to the row. The
    accumulator holds, block by block, the sum over the relation's 4096 columns of adjacency times first-layer feature. -/
theorem v1_point_eq (c : Dev nD) (t : Fin cfg1.N) (ht : t.val % 4 = 3) (u : Fin 1) (p : Fin 1024) (q : Fin 512)
    (R : Fin 3) (n : Fin 4096) (hR : R.val = t.val / 16) (hn : n.val = ((t.val / 4) % 4) * 1024 + p.val) :
    k1_pay3 (acc1 V c (t.val + 1)) (iblk1 V c 2 t) (iblk1 V c 3 t) (ix3 u p q)
      = Cert.Spec.h2blocks (V c main_arg1) (V c main_v6) (V c main_arg5) (V c main_v2) (ix3 R n q) := by
  have hlt : t.val < 48 := lt_of_lt_of_eq t.isLt N_1
  have hN : cfg1.N = 48 := N_1
  rw [Cert.Spec.h2blocks_apply,
    acc1_flush V c t ht ⟨t.val - 1, by omega⟩ (by show t.val - 1 + 1 = t.val; omega) ⟨t.val - 2, by omega⟩ (by show t.val - 2 + 2 = t.val; omega)
      ⟨t.val - 3, by omega⟩ (by show t.val - 3 + 3 = t.val; omega)]
  refine (v1_pay3_apply _ (iblk1 V c 2 t) (iblk1 V c 3 t) u p q).trans ?_
  rw [v1_iblk3_apply V c t q R hR]
  refine congrArg (fun x => max (x + (V c main_v2 : S3x1x512.Idx → EReal) (ix3 R (0 : Fin 1) q)) 0) (Finset.sum_congr rfl fun f _ => ?_)
  rw [v1_iblk2_apply V c t q f R hR, v1_chain_apply]
  refine congrArg (· * (V c main_arg5 : S3x512x512.Idx → EReal) (ix3 R q f)) ?_
  unfold Cert.Spec.msg
  have r3 := v1_blocks_read V c ⟨t.val - 3, by omega⟩ 0 (by show (t.val - 3) % 4 = 0; omega) p f R n (by show R.val = (t.val - 3) / 16; omega)
    (by show n.val = (t.val - 3) / 4 % 4 * 1024 + p.val; omega)
  have r2 := v1_blocks_read V c ⟨t.val - 2, by omega⟩ 1 (by show (t.val - 2) % 4 = 1; omega) p f R n (by show R.val = (t.val - 2) / 16; omega)
    (by show n.val = (t.val - 2) / 4 % 4 * 1024 + p.val; omega)
  have r1 := v1_blocks_read V c ⟨t.val - 1, by omega⟩ 2 (by show (t.val - 1) % 4 = 2; omega) p f R n (by show R.val = (t.val - 1) / 16; omega)
    (by show n.val = (t.val - 1) / 4 % 4 * 1024 + p.val; omega)
  have r0 := v1_blocks_read V c t 3 (by show t.val % 4 = 3; exact ht) p f R n hR hn
  rw [Cert.Spec.sum_inBlock4,
    v1_block_sum (iblk1 V c 0 ⟨t.val - 3, by omega⟩) (iblk1 V c 1 ⟨t.val - 3, by omega⟩) (V c main_arg1) (V c main_v6) 0 p f R n r3.1 r3.2,
    v1_block_sum (iblk1 V c 0 ⟨t.val - 2, by omega⟩) (iblk1 V c 1 ⟨t.val - 2, by omega⟩) (V c main_arg1) (V c main_v6) 1 p f R n r2.1 r2.2,
    v1_block_sum (iblk1 V c 0 ⟨t.val - 1, by omega⟩) (iblk1 V c 1 ⟨t.val - 1, by omega⟩) (V c main_arg1) (V c main_v6) 2 p f R n r1.1 r1.2,
    v1_block_sum (iblk1 V c 0 t) (iblk1 V c 1 t) (V c main_arg1) (V c main_v6) 3 p f R n r0.1 r0.2]

/-- WHAT A WRITING-BACK POINT WRITES is its block of the specification's array: the block of relation `t / 16` and row block
    `(t / 4) % 4`, whose element `(u, p, q)` sits at `(t / 16, (t / 4) % 4 · 1024 + p, q)` of the array. -/
theorem v1_flushed_eq (c : Dev nD) (t : Fin cfg1.N) (hf : (cfg1.win 4).flush t = true) :
    (dat1 (F := Ideal) V c).flushed 4 t
      = ((cfg1.win 4).blk t).view.read (Elt Ideal) (Cert.Spec.h2blocks (V c main_arg1) (V c main_v6) (V c main_arg5) (V c main_v2)) := by
  have ht : t.val % 4 = 3 := (flush1_4 t).mp hf
  have hlt : t.val < 48 := lt_of_lt_of_eq t.isLt N_1
  obtain ⟨e0, e1, e2⟩ := v1_cover_idx t
  show (cfg1.win 4).cut (grid1.coords t) ((dat1 (F := Ideal) V c).after 4 t) = _
  rw [after1_4]
  funext y
  obtain ⟨u, p, q, rfl⟩ : ∃ (u : Fin 1) (p : Fin 1024) (q : Fin 512), y = ix3 u p q := ⟨y 0, y 1, y 2, eq_ix3 y⟩
  show k1_pay3 (acc1 V c (t.val + 1)) (iblk1 V c 2 t) (iblk1 V c 3 t) (ix3 u p q)
    = Cert.Spec.h2blocks (V c main_arg1) (V c main_v6) (V c main_arg5) (V c main_v2) (((cfg1.win 4).blk t).view.emb (ix3 u p q))
  have hu : u.val = 0 := by omega
  have hp : p.val < 1024 := p.isLt
  refine (v1_point_eq V c t ht u p q ⟨t.val / 16, by omega⟩ ⟨(t.val / 4 % 4) * 1024 + p.val, by omega⟩ rfl rfl).trans ?_
  congr 1
  funext a
  apply Fin.ext
  match a with
  | ⟨0, _⟩ => show t.val / 16 = win1_4.index t (0 : Fin 3) * 1 + 1 * u.val; rw [e0, hu]; omega
  | ⟨1, _⟩ => show (t.val / 4 % 4) * 1024 + p.val = win1_4.index t (1 : Fin 3) * 1024 + 1 * p.val; rw [e1]; omega
  | ⟨2, _⟩ => show q.val = win1_4.index t (2 : Fin 3) * 512 + 1 * q.val; rw [e2]; omega

end

/-- The second region's output array after the region is message passing and the second layer of the arrays it found. -/
theorem out1_eq (V : (c : Dev nD) → (b : Ref sig .tc) → Buf (Elt Ideal) ((c : Thread nD τ).loc b)) (c : Dev nD) :
    (dat1 (F := Ideal) V c).arrAt 4 cfg1.N = Cert.Spec.h2blocks (V c main_arg1) (V c main_v6) (V c main_arg5) (V c main_v2) :=
  (dat1 (F := Ideal) V c).arrAt_eq_of_cover 4 _ (fun t hf => v1_flushed_eq V c t hf) v1_cover

end Cert.KernelIdeal.Hand

end
-- ==== Proof.KI.Value2Acc.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulator at a point that writes the output back

Such a point is the last of a run of 3 points; the first of the run has relation 0 and clears the accumulator, and
each point of the run adds its block product: the accumulator after the point is 3 nested updates of the cleared
accumulator, innermost first. -/

variable (V : (c : Dev nD) → (b : Ref sig .tc) → Buf (Elt F) ((c : Thread nD τ).loc b))

/-- The accumulator after a writing-back point `t`, in terms of the blocks at `t` and at the 2 points before it. -/
theorem acc2_flush (c : Dev nD) (t : Fin cfg2.N) (ht : t.val % 3 = 2) (t1 : Fin cfg2.N) (h1 : t1.val + 1 = t.val) (t2 : Fin cfg2.N) (h2 : t2.val + 2 = t.val) :
    acc2 V c (t.val + 1) = k2_pay2 (iblk2 V c 0 t) (iblk2 V c 1 t) (k2_pay2 (iblk2 V c 0 t1) (iblk2 V c 1 t1) (k2_pay2 (iblk2 V c 0 t2) (iblk2 V c 1 t2) (k2_pay1))) := by
  have h12 : t2.val + 1 = t1.val := by omega
  have e0 : acc2 V c (t.val + 1) = k2_pay2 (iblk2 V c 0 t) (iblk2 V c 1 t) (acc2 V c t.val) := by
    rw [acc2_succ]; unfold acc2_step; rw [if_neg (by rw [coord_last2]; omega)]
  have e1 : acc2 V c t.val = k2_pay2 (iblk2 V c 0 t1) (iblk2 V c 1 t1) (acc2 V c t1.val) := by
    rw [← h1, acc2_succ]; unfold acc2_step; rw [if_neg (by rw [coord_last2]; omega)]
  have e2 : acc2 V c t1.val = k2_pay2 (iblk2 V c 0 t2) (iblk2 V c 1 t2) k2_pay1 := by
    rw [← h12, acc2_succ]; unfold acc2_step; rw [if_pos (by rw [coord_last2]; omega)]
  rw [e0, e1, e2]

end Cert.KernelIdeal.Hand

end
-- ==== Proof.KI.Value2Pay.lean ====
import proofs.«170717_j11553462026818_1_alg».proof.Proof.Gen.KernelIdeal.Skeleton
import proofs.«170717_j11553462026818_1_alg».proof.Proof.SpecBlocks
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! # The third kernel's three stored values, read at an index on the extended reals

The cleared accumulator is zero everywhere. The accumulating store adds to the old accumulator, at row `p` and class
`q`, the sum over the 512 features of the feature block at `(p, k)` times the weight slice at `(q, k)` (the weights are
transposed before the product). The output store is the row-wise log-softmax of the accumulator plus the bias row. -/

/-! ## The product: operand indices of the contraction -/

theorem v2_lhs_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
theorem v2_lhs_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
theorem v2_rhs_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
theorem v2_rhs_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- The product into the zero accumulator, at row `p` and column `q`: the sum over the 512 inner coordinates. -/
theorem v2_matmul_apply (a : FVec Ideal S1024x512 .bf16) (b : FVec Ideal S512x32 .bf16) (p : Fin 1024) (q : Fin 32) :
    matmul dot_S1024x512_S512x32_S1024x32_1_0_0_1_n_n none a b (constant (F := Ideal) S1024x32 .f32 0x00000000#32) (ix2 p q)
      = ∑ k : Fin 512, a (ix2 p k) * b (ix2 k q) := by
  simp only [matmul]
  rw [Ideal.matmul_constant_zero_apply, ← Equiv.sum_comp (contrEquiv1 dot_S1024x512_S512x32_S1024x32_1_0_0_1_n_n 512 rfl rfl).symm]
  refine Finset.sum_congr rfl fun k _ => ?_
  have hk := contrEquiv1_symm_val dot_S1024x512_S512x32_S1024x32_1_0_0_1_n_n 512 rfl rfl k
  have el : dot_S1024x512_S512x32_S1024x32_1_0_0_1_n_n.lhsIdx (ix2 p q) ((contrEquiv1 dot_S1024x512_S512x32_S1024x32_1_0_0_1_n_n 512 rfl rfl).symm k) = ix2 p k := funext fun a => Fin.ext (by
    match a with
    | ⟨0, _⟩ => exact v2_lhs_0 _ _
    | ⟨1, _⟩ => exact (v2_lhs_1 _ _).trans hk)
  have er : dot_S1024x512_S512x32_S1024x32_1_0_0_1_n_n.rhsIdx (ix2 p q) ((contrEquiv1 dot_S1024x512_S512x32_S1024x32_1_0_0_1_n_n 512 rfl rfl).symm k) = ix2 k q := funext fun a => Fin.ext (by
    match a with
    | ⟨0, _⟩ => exact (v2_rhs_0 _ _).trans hk
    | ⟨1, _⟩ => exact v2_rhs_1 _ _)
  rw [el, er]

/-! ## The column forms: a vector as a column, a column over the classes -/

/-- A vector of 1024 entries as a 1024 × 1 column. -/
theorem v2_column_apply {α : Type} (v : S1024.Idx → α) (p : Fin 1024) :
    shapeCast S1024x1 v shapeCasts_S1024_S1024x1 (ix2 p (0 : Fin 1)) = v (ix1 p) :=
  shapeCast_apply v _ _ _ (by
    rw [Shape.rowMajor_val_one, Shape.rowMajor_val_two]
    show p.val = p.val * 1 + 0
    omega)

/-- A 1024 × 1 column repeated over the 32 classes. -/
theorem v2_spread_apply {α : Type} (v : S1024x1.Idx → α) (p : Fin 1024) (q : Fin 32) :
    broadcastTo S1024x32 v broadcasts_S1024x1_S1024x32 (ix2 p q) = v (ix2 p (0 : Fin 1)) :=
  broadcastTo_apply v _ _ _ fun ax => match ax with
    | ⟨0, _⟩ => by show p.val = if (1024 : ℕ) = 1 then 0 else p.val; rw [if_neg (by decide)]
    | ⟨1, _⟩ => by show 0 = if (1 : ℕ) = 1 then 0 else q.val; rw [if_pos rfl]

/-! ## The two row reductions -/

/-- The word of minus infinity is the bottom element. -/
theorem v2_ofBits_neg_inf : Ideal.ofBits .f32 0xFF800000#32 = (⊥ : EReal) := by simp [Ideal.ofBits, Ideal.ieee]

/-- A row index with the class coordinate put back. -/
theorem v2_lift_row (h : S1024x32.Reduces [1] S1024) (p : Fin 1024) (k : Fin (S1024x32.size 1)) :
    h.lift (ix1 p) k = ix2 p (⟨k.val, k.isLt⟩ : Fin 32) := by
  funext c; apply Fin.ext
  fin_cases c <;> rfl

/-- The row maximum from minus infinity. -/
theorem v2_rowmax_apply (z : FVec Ideal S1024x32 .f32) (hφ : FKind.Formats .f32)
    (hacc : (0xFF800000#32 : BitVec 32) = FKind.maximumf.neutral .f32 hφ) (p : Fin 1024) :
    multiReduction .maximumf [1] S1024 z 0xFF800000#32 reduces_S1024x32_S1024 hφ hacc (ix1 p)
      = Spec.rowMax (fun c => z (ix2 p c)) := by
  refine (Ideal.multiReduction_maximumf_single z 0xFF800000#32 reduces_S1024x32_S1024 hφ hacc (ix1 p)).trans ?_
  have hf : (z ∘ reduces_S1024x32_S1024.lift (ix1 p)) = fun c : Fin 32 => z (ix2 p c) :=
    funext fun k => congrArg z (v2_lift_row reduces_S1024x32_S1024 p k)
  rw [hf]
  show Finset.fold max (Ideal.ofBits .f32 0xFF800000#32) _ _ = _
  rw [v2_ofBits_neg_inf]
  rfl

/-- The row sum. -/
theorem v2_rowsum_apply (z : FVec Ideal S1024x32 .f32) (hφ : FKind.Formats .f32)
    (hacc : (0x00000000#32 : BitVec 32) = FKind.add.neutral .f32 hφ) (p : Fin 1024) :
    multiReduction .add [1] S1024 z 0x00000000#32 reduces_S1024x32_S1024 hφ hacc (ix1 p)
      = ∑ c : Fin 32, z (ix2 p c) := by
  refine (Ideal.multiReduction_add_single z 0x00000000#32 reduces_S1024x32_S1024 hφ hacc (ix1 p)).trans ?_
  exact Finset.sum_congr rfl fun k _ => congrArg z (v2_lift_row reduces_S1024x32_S1024 p k)

/-! ## The three stored values -/

/-- The cleared accumulator is zero. -/
theorem v2_pay1_apply (p : Fin 1024) (q : Fin 32) : (k2_pay1 (F := Ideal)) (ix2 p q) = 0 := by
  unfold k2_pay1
  simp only [shapeCast_self]
  exact Ideal.ofBits_zero_f32

/-- The accumulating store: the old accumulator plus the block product. -/
theorem v2_pay2_apply (h : Vec Ideal S1x1024x512 .bf16) (w : Vec Ideal S1x32x512 .f32) (s : Vec Ideal S1024x32 .f32)
    (p : Fin 1024) (q : Fin 32) :
    k2_pay2 h w s (ix2 p q) = s (ix2 p q) + ∑ k : Fin 512, h (ix3 (0 : Fin 1) p k) * w (ix3 (0 : Fin 1) q k) := by
  unfold k2_pay2
  simp only [shapeCast_self]
  refine (congrArg (s (ix2 p q) + ·) (v2_matmul_apply _ _ p q)).trans ?_
  refine congrArg (s (ix2 p q) + ·) (Finset.sum_congr rfl fun k _ => ?_)
  rw [shapeCast_1ab_ab_apply, transpose_ix2_apply]
  show h (ix3 (0 : Fin 1) p k) * shapeCast S32x512 w shapeCasts_S1x32x512_S32x512 (ix2 q k) = _
  rw [shapeCast_1ab_ab_apply]

/-- The row-wise log-softmax of a block of logits, as the kernel computes it: subtract the row maximum, then the
    logarithm of the row sum of the exponentials. -/
theorem v2_logsoftmax_apply (z : FVec Ideal S1024x32 .f32) (p : Fin 1024) (q : Fin 32) :
    subf (subf z (broadcastTo S1024x32 (shapeCast S1024x1 (multiReduction (F := Ideal) .maximumf [1] S1024 z 0xFF800000#32 reduces_S1024x32_S1024 (.inl rfl) rfl) shapeCasts_S1024_S1024x1) broadcasts_S1024x1_S1024x32))
        (broadcastTo S1024x32 (log (shapeCast S1024x1 (multiReduction (F := Ideal) .add [1] S1024
          (exp (subf z (broadcastTo S1024x32 (shapeCast S1024x1 (multiReduction (F := Ideal) .maximumf [1] S1024 z 0xFF800000#32 reduces_S1024x32_S1024 (.inl rfl) rfl) shapeCasts_S1024_S1024x1) broadcasts_S1024x1_S1024x32))) 0x00000000#32 reduces_S1024x32_S1024 (.inl rfl) rfl) shapeCasts_S1024_S1024x1))
          broadcasts_S1024x1_S1024x32) (ix2 p q)
      = Spec.logSoftmax (fun c => z (ix2 p c)) q := by
  have hM : ∀ c : Fin 32, (broadcastTo S1024x32 (shapeCast S1024x1 (multiReduction (F := Ideal) .maximumf [1] S1024 z 0xFF800000#32 reduces_S1024x32_S1024 (.inl rfl) rfl) shapeCasts_S1024_S1024x1) broadcasts_S1024x1_S1024x32) (ix2 p c) = Spec.rowMax (fun c => z (ix2 p c)) := fun c =>
    (v2_spread_apply _ p c).trans ((v2_column_apply _ p).trans (v2_rowmax_apply z _ _ p))
  have hE : ∀ c : Fin 32, exp (subf z (broadcastTo S1024x32 (shapeCast S1024x1 (multiReduction (F := Ideal) .maximumf [1] S1024 z 0xFF800000#32 reduces_S1024x32_S1024 (.inl rfl) rfl) shapeCasts_S1024_S1024x1) broadcasts_S1024x1_S1024x32)) (ix2 p c) = Ideal.exp (z (ix2 p c) - Spec.rowMax (fun c => z (ix2 p c))) := fun c =>
    congrArg (fun m => Ideal.exp (z (ix2 p c) - m)) (hM c)
  have hL : (broadcastTo S1024x32 (log (shapeCast S1024x1 (multiReduction (F := Ideal) .add [1] S1024
          (exp (subf z (broadcastTo S1024x32 (shapeCast S1024x1 (multiReduction (F := Ideal) .maximumf [1] S1024 z 0xFF800000#32 reduces_S1024x32_S1024 (.inl rfl) rfl) shapeCasts_S1024_S1024x1) broadcasts_S1024x1_S1024x32))) 0x00000000#32 reduces_S1024x32_S1024 (.inl rfl) rfl) shapeCasts_S1024_S1024x1))
          broadcasts_S1024x1_S1024x32) (ix2 p q)
        = Ideal.log (∑ c : Fin 32, Ideal.exp (z (ix2 p c) - Spec.rowMax (fun c => z (ix2 p c)))) :=
    (v2_spread_apply _ p q).trans (congrArg Ideal.log ((v2_column_apply _ p).trans
      ((v2_rowsum_apply _ _ _ p).trans (Finset.sum_congr rfl fun c _ => hE c))))
  refine (congrArg₂ (fun m l => (z (ix2 p q) - m) - l) (hM q) hL).trans ?_
  rfl

/-- The output store: the row-wise log-softmax of the accumulator plus the bias row. -/
theorem v2_pay3_apply (a : FVec Ideal S1024x32 .f32) (b : FVec Ideal S1x32 .f32) (p : Fin 1024) (q : Fin 32) :
    k2_pay3 (F := Ideal) a b (ix2 p q) = Spec.logSoftmax (fun c => a (ix2 p c) + b (ix2 (0 : Fin 1) c)) q := by
  unfold k2_pay3
  simp only [shapeCast_self]
  refine (v2_logsoftmax_apply _ p q).trans ?_
  exact congrArg (fun l => Spec.logSoftmax l q) (funext fun c =>
    congrArg (a (ix2 p c) + ·) (broadcastTo_1b_ab_apply b broadcasts_S1x32_S1024x32 p c))

end Cert.KernelIdeal.Hand

end
-- ==== Proof.KI.Value2.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Region2
import proofs.«170717_j11553462026818_1_alg».proof.Proof.KI.Value2Acc
import proofs.«170717_j11553462026818_1_alg».proof.Proof.KI.Value2Pay
import proofs.«170717_j11553462026818_1_alg».proof.Proof.SpecBlocks
import proofs.«170717_j11553462026818_1_alg».proof.Proof.SpecApply
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # What the third region leaves in its output array, on the extended reals

The output block of a row block is written back at the last of the three relations; by then the accumulator holds the
sum over the relations of feature block times the transposed weight slice, which is the last layer's double sum; the
stored value is its row-wise log-softmax after the bias. The four written blocks tile the array. -/

/-! ## Where the blocks sit -/

/-- The block indices of the four windows at a point: the relation is the point's number modulo 3, the row block its
    quotient by 3. -/
theorem v2_idx_facts : ∀ t : Fin cfg2.N,
    win2_0.index t (0 : Fin 3) = t.val % 3 ∧ win2_0.index t (1 : Fin 3) = t.val / 3 ∧ win2_0.index t (2 : Fin 3) = 0
    ∧ win2_1.index t (0 : Fin 3) = t.val % 3 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val / 3 ∧ win2_3.index t (1 : Fin 2) = 0 :=
  (by decide +kernel : ∀ t : Fin grid2.N, _)

/-- Row `p` of row block `i` among the 4096 rows. -/
def v2_row (i : Fin 4) (p : Fin 1024) : Fin 4096 := ⟨i.val * 1024 + p.val, by have := i.isLt; have := p.isLt; omega⟩

section Blocks

variable (V : (c : Dev nD) → (b : Ref sig .tc) → Buf (Elt Ideal) ((c : Thread nD τ).loc b))

/-- The arrays the region finds, and the blocks and the accumulator at a point, each at its literal type. -/
abbrev v2_harr (c : Dev nD) : FVec Ideal S3x4096x512 .bf16 := V c main_v7
abbrev v2_warr (c : Dev nD) : FVec Ideal S3x32x512 .f32 := V c main_v4
abbrev v2_barr (c : Dev nD) : FVec Ideal S1x32 .f32 := V c main_v5
abbrev v2_hblk (c : Dev nD) (t : Fin cfg2.N) : FVec Ideal S1x1024x512 .bf16 := iblk2 V c 0 t
abbrev v2_wblk (c : Dev nD) (t : Fin cfg2.N) : FVec Ideal S1x32x512 .f32 := iblk2 V c 1 t
abbrev v2_bblk (c : Dev nD) (t : Fin cfg2.N) : FVec Ideal S1x32 .f32 := iblk2 V c 2 t
abbrev v2_acc (c : Dev nD) (n : ℕ) : FVec Ideal S1024x32 .f32 := acc2 (F := Ideal) V c n

/-- The feature block at a point of relation `r` and row block `i`, read off the whole array. -/
theorem v2_hblk_apply (c : Dev nD) (t : Fin cfg2.N) (r : Fin 3) (i : Fin 4) (hr : t.val % 3 = r.val) (hi : t.val / 3 = i.val)
    (p : Fin 1024) (k : Fin 512) :
    v2_hblk V c t (ix3 (0 : Fin 1) p k) = v2_harr V c (ix3 r (v2_row i p) k) := by
  obtain ⟨e0, e1, e2, -⟩ := v2_idx_facts t
  unfold v2_hblk v2_harr iblk2
  rw [View.read_apply]
  show V c main_v7 _ = V c main_v7 _
  refine congrArg (V c main_v7) (funext fun a => Fin.ext ?_)
  match a with
  | ⟨0, _⟩ => show win2_0.index t (0 : Fin 3) * 1 + 1 * 0 = r.val; omega
  | ⟨1, _⟩ => show win2_0.index t (1 : Fin 3) * 1024 + 1 * p.val = i.val * 1024 + p.val; omega
  | ⟨2, _⟩ => show win2_0.index t (2 : Fin 3) * 512 + 1 * k.val = k.val; omega

/-- The weight slice at a point of relation `r`, read off the whole array. -/
theorem v2_wblk_apply (c : Dev nD) (t : Fin cfg2.N) (r : Fin 3) (hr : t.val % 3 = r.val) (q : Fin 32) (k : Fin 512) :
    v2_wblk V c t (ix3 (0 : Fin 1) q k) = v2_warr V c (ix3 r q k) := by
  obtain ⟨-, -, -, e0, e1, e2, -⟩ := v2_idx_facts t
  unfold v2_wblk v2_warr iblk2
  rw [View.read_apply]
  show V c main_v4 _ = V c main_v4 _
  refine congrArg (V c main_v4) (funext fun a => Fin.ext ?_)
  match a with
  | ⟨0, _⟩ => show win2_1.index t (0 : Fin 3) * 1 + 1 * 0 = r.val; omega
  | ⟨1, _⟩ => show win2_1.index t (1 : Fin 3) * 32 + 1 * q.val = q.val; omega
  | ⟨2, _⟩ => show win2_1.index t (2 : Fin 3) * 512 + 1 * k.val = k.val; omega

/-- The bias row at any point is the whole bias. -/
theorem v2_bblk_apply (c : Dev nD) (t : Fin cfg2.N) (q : Fin 32) :
    v2_bblk V c t (ix2 (0 : Fin 1) q) = v2_barr V c (ix2 (0 : Fin 1) q) := by
  obtain ⟨-, -, -, -, -, -, e0, e1, -⟩ := v2_idx_facts t
  unfold v2_bblk v2_barr iblk2
  rw [View.read_apply]
  show V c main_v5 _ = V c main_v5 _
  refine congrArg (V c main_v5) (funext fun a => Fin.ext ?_)
  match a with
  | ⟨0, _⟩ => show win2_2.index t (0 : Fin 2) * 1 + 1 * 0 = 0; omega
  | ⟨1, _⟩ => show win2_2.index t (1 : Fin 2) * 32 + 1 * q.val = q.val; omega

/-! ## Three products accumulated from zero -/

/-- Three accumulating stores on top of the cleared accumulator, at an index. -/
theorem v2_three_apply (h0 h1 h2 : Vec Ideal S1x1024x512 .bf16) (w0 w1 w2 : Vec Ideal S1x32x512 .f32) (p : Fin 1024) (q : Fin 32) :
    k2_pay2 h2 w2 (k2_pay2 h1 w1 (k2_pay2 h0 w0 (k2_pay1 (F := Ideal)))) (ix2 p q)
      = ((0 + ∑ k : Fin 512, h0 (ix3 (0 : Fin 1) p k) * w0 (ix3 (0 : Fin 1) q k))
          + ∑ k : Fin 512, h1 (ix3 (0 : Fin 1) p k) * w1 (ix3 (0 : Fin 1) q k))
          + ∑ k : Fin 512, h2 (ix3 (0 : Fin 1) p k) * w2 (ix3 (0 : Fin 1) q k) := by
  rw [v2_pay2_apply, v2_pay2_apply, v2_pay2_apply, v2_pay1_apply]

/-! ## The block a writing-back point writes -/

/-- The accumulator after a writing-back point plus the bias row, at row `p` and class `q`: the last layer's double sum
    over relation and feature, plus the bias. -/
theorem v2_logits_apply (c : Dev nD) (t : Fin cfg2.N) (ht : t.val % 3 = 2) (t1 : Fin cfg2.N) (h1 : t1.val + 1 = t.val)
    (t2 : Fin cfg2.N) (h2 : t2.val + 2 = t.val) (i : Fin 4) (hi : t.val / 3 = i.val) (p : Fin 1024) (q : Fin 32) :
    v2_acc V c (t.val + 1) (ix2 p q) + v2_bblk V c t (ix2 (0 : Fin 1) q)
      = (∑ r : Fin 3, ∑ f : Fin 512, v2_harr V c (ix3 r (v2_row i p) f) * v2_warr V c (ix3 r q f))
        + v2_barr V c (ix2 (0 : Fin 1) q) := by
  have hP : ∀ (t' : Fin cfg2.N) (r : Fin 3), t'.val % 3 = r.val → t'.val / 3 = i.val →
      ∑ k : Fin 512, v2_hblk V c t' (ix3 (0 : Fin 1) p k) * v2_wblk V c t' (ix3 (0 : Fin 1) q k)
        = ∑ f : Fin 512, v2_harr V c (ix3 r (v2_row i p) f) * v2_warr V c (ix3 r q f) :=
    fun t' r hr hi' => Finset.sum_congr rfl fun k _ =>
      congrArg₂ (· * ·) (v2_hblk_apply V c t' r i hr hi' p k) (v2_wblk_apply V c t' r hr q k)
  have hacc : v2_acc V c (t.val + 1) = k2_pay2 (v2_hblk V c t) (v2_wblk V c t) (k2_pay2 (v2_hblk V c t1) (v2_wblk V c t1)
      (k2_pay2 (v2_hblk V c t2) (v2_wblk V c t2) (k2_pay1 (F := Ideal)))) := acc2_flush V c t ht t1 h1 t2 h2
  rw [hacc]
  refine (congrArg₂ (· + ·) (v2_three_apply (v2_hblk V c t2) (v2_hblk V c t1) (v2_hblk V c t) (v2_wblk V c t2) (v2_wblk V c t1)
    (v2_wblk V c t) p q) (v2_bblk_apply V c t q)).trans ?_
  rw [Fin.sum_univ_three, zero_add]
  exact congrArg (· + v2_barr V c (ix2 (0 : Fin 1) q)) (congrArg₂ (· + ·) (congrArg₂ (· + ·)
    (hP t2 0 (by show t2.val % 3 = 0; omega) (by omega)) (hP t1 1 (by show t1.val % 3 = 1; omega) (by omega)))
    (hP t 2 (by show t.val % 3 = 2; omega) hi))

/-- What a writing-back point writes is its block of the last layer and log-softmax of the arrays the region found. -/
theorem v2_flushed_eq (c : Dev nD) (t : Fin cfg2.N) (hf : (cfg2.win 3).flush t = true) :
    (dat2 (F := Ideal) V c).flushed 3 t
      = ((cfg2.win 3).blk t).view.read (Elt Ideal) (Spec.outBlocks (V c main_v7) (V c main_v4) (V c main_v5)) := by
  have ht : t.val % 3 = 2 := (flush2_3 t).mp hf
  have hN : cfg2.N = 12 := N_2
  have hlt : t.val < cfg2.N := t.isLt
  obtain ⟨-, -, -, -, -, -, -, -, e0, e1⟩ := v2_idx_facts t
  show (cfg2.win 3).cut (grid2.coords t) ((dat2 (F := Ideal) V c).after 3 t) = _
  rw [after2_3]
  funext y
  obtain ⟨p, q, rfl⟩ : ∃ (p : Fin 1024) (q : Fin 32), y = ix2 p q := ⟨y 0, y 1, eq_ix2 y⟩
  rw [View.read_apply]
  have hemb : ((cfg2.win 3).blk t).view.emb (ix2 p q) = ix2 (v2_row ⟨t.val / 3, by omega⟩ p) q := funext fun a => Fin.ext (by
    match a with
    | ⟨0, _⟩ => show win2_3.index t (0 : Fin 2) * 1024 + 1 * p.val = t.val / 3 * 1024 + p.val; omega
    | ⟨1, _⟩ => show win2_3.index t (1 : Fin 2) * 32 + 1 * q.val = q.val; omega)
  show k2_pay3 (F := Ideal) (acc2 (F := Ideal) V c (t.val + 1)) (iblk2 V c 2 t) (ix2 p q)
    = Spec.outBlocks (V c main_v7) (V c main_v4) (V c main_v5) (((cfg2.win 3).blk t).view.emb (ix2 p q))
  rw [hemb, Spec.outBlocks_apply]
  refine (v2_pay3_apply _ _ p q).trans ?_
  exact congrArg (fun l => Spec.logSoftmax l q) (funext fun c' =>
    v2_logits_apply V c t ht ⟨t.val - 1, by omega⟩ (by show t.val - 1 + 1 = t.val; omega) ⟨t.val - 2, by omega⟩
      (by show t.val - 2 + 2 = t.val; omega) ⟨t.val / 3, by omega⟩ rfl p c')

end Blocks

/-! ## The written blocks tile the array -/

/-- An index of the array is in a point's block iff each coordinate is in the block's range on its axis. -/
theorem v2_mem_blk (t : Fin cfg2.N) (j : S4096x32.Idx) :
    j ∈ ((cfg2.win 3).blk t).view.set ↔ ∀ a : Fin 2, win2_3.index t a * S1024x32.size a ≤ (j a).val
      ∧ (j a).val < win2_3.index t a * S1024x32.size a + S1024x32.size a := by
  show j ∈ ((View.whole main_v8).slice (win2_3.rect t)).set ↔ _
  rw [View.set_slice_whole, Rect.mem_set_unit]
  exact Iff.rfl

/-- Row `n` is written back at the last relation's point of its row block. -/
theorem v2_cover (j : S4096x32.Idx) : ∃ t : Fin cfg2.N, (cfg2.win 3).flush t = true ∧ j ∈ ((cfg2.win 3).blk t).view.set := by
  have hN : cfg2.N = 12 := N_2
  have hj0 : (j 0).val < 4096 := (j 0).isLt
  have hj1 : (j 1).val < 32 := (j 1).isLt
  obtain ⟨t, htv⟩ : ∃ t : Fin cfg2.N, t.val = 3 * ((j 0).val / 1024) + 2 := ⟨⟨3 * ((j 0).val / 1024) + 2, by omega⟩, rfl⟩
  obtain ⟨-, -, -, -, -, -, -, -, e0, e1⟩ := v2_idx_facts t
  refine ⟨t, (flush2_3 t).mpr (by omega), ?_⟩
  rw [v2_mem_blk]
  intro a
  match a with
  | ⟨0, _⟩ =>
    show win2_3.index t (0 : Fin 2) * 1024 ≤ (j 0).val ∧ (j 0).val < win2_3.index t (0 : Fin 2) * 1024 + 1024
    omega
  | ⟨1, _⟩ =>
    show win2_3.index t (1 : Fin 2) * 32 ≤ (j 1).val ∧ (j 1).val < win2_3.index t (1 : Fin 2) * 32 + 32
    omega

/-- The third region's output array after the region is the last layer and the log-softmax of the arrays it found. -/
theorem out2_eq (V : (c : Dev nD) → (b : Ref sig .tc) → Buf (Elt Ideal) ((c : Thread nD τ).loc b)) (c : Dev nD) :
    (dat2 (F := Ideal) V c).arrAt 3 cfg2.N = Cert.Spec.outBlocks (V c main_v7) (V c main_v4) (V c main_v5) :=
  (dat2 (F := Ideal) V c).arrAt_eq_of_cover 3 (Cert.Spec.outBlocks (V c main_v7) (V c main_v4) (V c main_v5))
    (fun t hf => v2_flushed_eq V c t hf) (fun j => v2_cover j)

end Cert.KernelIdeal.Hand

end
-- ==== Proof.KI.HostGlue.lean ====
import proofs.«170717_j11553462026818_1_alg».proof.Proof.Gen.KernelIdeal.Regions
import proofs.«170717_j11553462026818_1_alg».proof.Proof.SpecBlocks
import Idealize.ShloMosaic.Lib.ValueIdx
import Idealize.ShloMosaic.Lib.ValueLayout
import Idealize.ShloMosaic.Lib.Pipeline.Value
import Idealize.ShloMosaic.Lib.StableHlo.Run

set_option maxRecDepth 16384

/-! # The host operations before the first region, read at an index

Six re-layings of four arguments: the node features as 3 × 4096 × 512 (row `t·4096 + n` becomes `(t, n)`), the two biases
as 3 × 1 × 512, the last layer's weights as 32 × 3 × 512 and then, transposed, as 3 × 32 × 512 (column `t·512 + f` of
class `c` becomes `(t, c, f)`), its bias as 1 × 32. No host operation writes an argument. -/

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

theorem V1_v0 (t : Fin 3) (n : Fin 4096) (f : Fin 512) :
    Gen.V1 (F := Ideal) m c main_v0 (ix3 t n f) = m ((c : Thread nD τ).loc main_arg0) (ix2 (Cert.Spec.nodeOf t n) f) := by
  have e : (Gen.V1 (F := Ideal) m c main_v0 : S3x4096x512.Idx → EReal)
      = shapeCast _ (m ((c : Thread nD τ).loc main_arg0)) shapeCasts_S12288x512_S3x4096x512 := by
    dsimp only [Gen.V1, Gen.V0, Gen.hostOps0]; after_results; rfl
  rw [e]
  exact shapeCast_apply _ shapeCasts_S12288x512_S3x4096x512 (ix3 t n f) (ix2 (Cert.Spec.nodeOf t n) f)
    (by rewrite [Shape.rowMajor_val_two, Shape.rowMajor_val_three]
        show (t.val * 4096 + n.val) * 512 + f.val = (t.val * 4096 + n.val) * 512 + f.val
        rfl)
theorem V1_v1 (t : Fin 3) (g : Fin 512) :
    Gen.V1 (F := Ideal) m c main_v1 (ix3 t 0 g) = m ((c : Thread nD τ).loc main_arg4) (ix2 t g) := by
  have e : (Gen.V1 (F := Ideal) m c main_v1 : S3x1x512.Idx → EReal)
      = shapeCast _ (m ((c : Thread nD τ).loc main_arg4)) shapeCasts_S3x512_S3x1x512 := by
    dsimp only [Gen.V1, Gen.V0, Gen.hostOps0]; after_results; rfl
  rw [e]
  exact shapeCast_apply _ shapeCasts_S3x512_S3x1x512 (ix3 t 0 g) (ix2 t g)
    (by rewrite [Shape.rowMajor_val_two, Shape.rowMajor_val_three]
        show t.val * 512 + g.val = (t.val * 1 + 0) * 512 + g.val
        omega)
theorem V1_v2 (t : Fin 3) (g : Fin 512) :
    Gen.V1 (F := Ideal) m c main_v2 (ix3 t 0 g) = m ((c : Thread nD τ).loc main_arg6) (ix2 t g) := by
  have e : (Gen.V1 (F := Ideal) m c main_v2 : S3x1x512.Idx → EReal)
      = shapeCast _ (m ((c : Thread nD τ).loc main_arg6)) shapeCasts_S3x512_S3x1x512 := by
    dsimp only [Gen.V1, Gen.V0, Gen.hostOps0]; after_results; rfl
  rw [e]
  exact shapeCast_apply _ shapeCasts_S3x512_S3x1x512 (ix3 t 0 g) (ix2 t g)
    (by rewrite [Shape.rowMajor_val_two, Shape.rowMajor_val_three]
        show t.val * 512 + g.val = (t.val * 1 + 0) * 512 + g.val
        omega)
theorem V1_v4 (t : Fin 3) (cl : Fin 32) (f : Fin 512) :
    Gen.V1 (F := Ideal) m c main_v4 (ix3 t cl f) = m ((c : Thread nD τ).loc main_arg7) (ix2 cl (Cert.Spec.featOf t f)) := by
  have e : (Gen.V1 (F := Ideal) m c main_v4 : S3x32x512.Idx → EReal)
      = transpose S3x32x512 [1, 0, 2]
          (shapeCast S32x3x512 (m ((c : Thread nD τ).loc main_arg7)) shapeCasts_S32x1536_S32x3x512)
          transposes_S32x3x512_S3x32x512_1_0_2 := by
    dsimp only [Gen.V1, Gen.V0, Gen.hostOps0]; after_results; rfl
  rw [e]
  refine (transpose_apply [1, 0, 2] _ transposes_S32x3x512_S3x32x512_1_0_2 (ix3 t cl f) (ix3 cl t f) (fun b => match b with
    | ⟨0, _⟩ => rfl
    | ⟨1, _⟩ => rfl
    | ⟨2, _⟩ => rfl)).trans ?_
  exact shapeCast_apply _ shapeCasts_S32x1536_S32x3x512 (ix3 cl t f) (ix2 cl (Cert.Spec.featOf t f))
    (by rewrite [Shape.rowMajor_val_two, Shape.rowMajor_val_three]
        show cl.val * 1536 + (t.val * 512 + f.val) = (cl.val * 3 + t.val) * 512 + f.val
        omega)
theorem V1_v5 (cl : Fin 32) :
    Gen.V1 (F := Ideal) m c main_v5 (ix2 0 cl) = m ((c : Thread nD τ).loc main_arg8) (ix1 cl) := by
  have e : (Gen.V1 (F := Ideal) m c main_v5 : S1x32.Idx → EReal)
      = shapeCast _ (m ((c : Thread nD τ).loc main_arg8)) shapeCasts_S32_S1x32 := by
    dsimp only [Gen.V1, Gen.V0, Gen.hostOps0]; after_results; rfl
  rw [e]
  exact shapeCast_apply _ shapeCasts_S32_S1x32 (ix2 0 cl) (ix1 cl)
    (by rewrite [Shape.rowMajor_val_one, Shape.rowMajor_val_two]
        show cl.val = 0 * 32 + cl.val
        omega)

end Cert.KernelIdeal.Hand

end
-- ==== Proof.KI.Value.lean ====
import proofs.«170717_j11553462026818_1_alg».proof.Proof.Gen.KernelIdeal.Launch
import proofs.«170717_j11553462026818_1_alg».proof.Proof.Gen.KernelIdeal.Skeleton
import proofs.«170717_j11553462026818_1_alg».proof.Proof.Gen.KernelIdeal.Points
import proofs.«170717_j11553462026818_1_alg».proof.Proof.KI.Run
import proofs.«170717_j11553462026818_1_alg».proof.Proof.KI.Value0
import proofs.«170717_j11553462026818_1_alg».proof.Proof.KI.Value1
import proofs.«170717_j11553462026818_1_alg».proof.Proof.KI.Value2
import proofs.«170717_j11553462026818_1_alg».proof.Proof.KI.HostGlue
import proofs.«170717_j11553462026818_1_alg».proof.Proof.SpecApply
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The result array, as the specification's function of the arguments

Each region's output array is its layer of the arrays the region found; the arrays a region finds are the arguments,
their re-laid copies, and the layer before. Reading the copies at an index turns the three layers over the copies into
the specification's three layers over the raw arguments, and composing them gives the whole network. -/

variable (m : (ℓ : Loc nD τ sig) → Buf (Elt Ideal) ℓ) (c : Dev nD)

/-- No host operation writes an argument. -/
theorem V1_arg (r : Ref sig .tc) (h : r ∉ Gen.hostOps0_W) : Gen.V1 (F := Ideal) m c r = m ((c : Thread nD τ).loc r) :=
  (Gen.V1_of m c r h).trans rfl

/-- The first region leaves the first layer's features. -/
theorem x6_eq : x6 (F := Ideal) m c = Cert.Spec.h1arr (m ((c : Thread nD τ).loc main_arg0)) (m ((c : Thread nD τ).loc main_arg3)) (m ((c : Thread nD τ).loc main_arg4)) := by
  unfold x6
  rw [out0_eq]
  funext j
  obtain ⟨t, n, g, rfl⟩ : ∃ (t : Fin 3) (n : Fin 4096) (g : Fin 512), j = ix3 t n g := ⟨j 0, j 1, j 2, eq_ix3 j⟩
  show Cert.Spec.h1blocks (Gen.V1 m c main_v0) (Gen.V1 m c main_arg3) (Gen.V1 m c main_v1) (ix3 t n g) = _
  rw [V1_arg m c main_arg3 (by decide)]
  refine (Cert.Spec.h1blocks_apply _ _ _ t n g).trans (Eq.trans ?_ (Cert.Spec.h1arr_apply _ _ _ t n g).symm)
  rw [V1_v1]
  congr 2
  exact Finset.sum_congr rfl fun f _ => by rw [V1_v0]

/-- The second region leaves the second layer's features of what the first left. -/
theorem x7_eq : x7 (F := Ideal) m c = Cert.Spec.h2arr (m ((c : Thread nD τ).loc main_arg1)) (x6 m c) (m ((c : Thread nD τ).loc main_arg5)) (m ((c : Thread nD τ).loc main_arg6)) := by
  unfold x7
  rw [out1_eq]
  funext j
  have e1 : U2 m c main_arg1 = m ((c : Thread nD τ).loc main_arg1) :=
    (Function.update_of_ne (StableHlo.devRef_ne_of_ne (by decide)) _ _).trans (V1_arg m c main_arg1 (by decide))
  have e5 : U2 m c main_arg5 = m ((c : Thread nD τ).loc main_arg5) :=
    (Function.update_of_ne (StableHlo.devRef_ne_of_ne (by decide)) _ _).trans (V1_arg m c main_arg5 (by decide))
  have e6 : U2 m c main_v6 = x6 m c := Function.update_self _ _ _
  have e2 : U2 m c main_v2 = Gen.V1 m c main_v2 := Function.update_of_ne (StableHlo.devRef_ne_of_ne (by decide)) _ _
  rw [e1, e5, e6, e2]
  obtain ⟨t, n, g, rfl⟩ : ∃ (t : Fin 3) (n : Fin 4096) (g : Fin 512), j = ix3 t n g := ⟨j 0, j 1, j 2, eq_ix3 j⟩
  refine (Cert.Spec.h2blocks_apply _ _ _ _ t n g).trans (Eq.trans ?_ (Cert.Spec.h2arr_apply _ _ _ _ t n g).symm)
  rw [V1_v2]

/-- The third region leaves the last layer and the log-softmax of what the second left. -/
theorem x8_eq : x8 (F := Ideal) m c = Cert.Spec.outArr (x7 m c) (m ((c : Thread nD τ).loc main_arg7)) (m ((c : Thread nD τ).loc main_arg8)) := by
  unfold x8
  rw [out2_eq]
  funext j
  have e7 : U3 m c main_v7 = x7 m c := Function.update_self _ _ _
  have e4 : U3 m c main_v4 = Gen.V1 m c main_v4 :=
    (Function.update_of_ne (StableHlo.devRef_ne_of_ne (by decide)) _ _).trans (Function.update_of_ne (StableHlo.devRef_ne_of_ne (by decide)) _ _)
  have e5 : U3 m c main_v5 = Gen.V1 m c main_v5 :=
    (Function.update_of_ne (StableHlo.devRef_ne_of_ne (by decide)) _ _).trans (Function.update_of_ne (StableHlo.devRef_ne_of_ne (by decide)) _ _)
  rw [e7, e4, e5]
  obtain ⟨n, cl, rfl⟩ : ∃ (n : Fin 4096) (cl : Fin 32), j = ix2 n cl := ⟨j 0, j 1, eq_ix2 j⟩
  refine (Cert.Spec.outBlocks_apply _ _ _ n cl).trans (Eq.trans ?_ (Cert.Spec.outArr_apply _ _ _ n cl).symm)
  refine congrArg (fun l => Cert.Spec.logSoftmax l cl) (funext fun c' => ?_)
  rw [V1_v5]
  refine congrArg (fun s => s + m ((c : Thread nD τ).loc main_arg8) (ix1 c')) ?_
  exact Finset.sum_congr rfl fun t _ => Finset.sum_congr rfl fun f _ => by rw [V1_v4]

/-- The result array is the whole network of the arguments. -/
theorem x8_spec : x8 (F := Ideal) m c
    = Cert.Spec.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [x8_eq, x7_eq, x6_eq]; rfl

end Cert.KernelIdeal.Hand

end
-- ==== Proof.RefValue.lean ====
import proofs.«170717_j11553462026818_1_alg».proof.Proof.RefRead
import proofs.«170717_j11553462026818_1_alg».proof.Proof.Spec
import Idealize.ShloMosaic.Lib.ValueIdx
import Idealize.ShloMosaic.Lib.Pipeline.Value
import Idealize.ShloMosaic.PureOps.Ideal.Laws

/-! # The reference's result is the specification's function of its arguments

The reference's stages, each read at an index, against the specification's layers: the first layer
(a reshape of the features into the three relations' blocks, a contraction with the first weights, the
bias broadcast over the nodes, the rectifier), the messages and the second layer (the first 4096 rows of
the adjacency cut into the three relations' column blocks, a contraction over the source nodes, a contraction
with the second weights, bias, rectifier), and the last layer with the row-wise log-softmax (the three
relations' features side by side, a contraction over all 1536 of them, bias, the row maximum from minus
infinity, the shifted exponentials' sum from zero, its logarithm). Each stage is stated as a function
of the whole array that the stage before it produces. -/

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem

/-! ## Sums, constants and the row maximum -/

/-- A sum over the 1536 concatenated features is the double sum over relation and feature. -/
theorem sum_featOf (g : Fin 1536 → EReal) :
    ∑ k : Fin 1536, g k = ∑ t : Fin 3, ∑ f : Fin 512, g (Spec.featOf t f) := by
  rw [← Fintype.sum_prod_type']
  refine (Fintype.sum_equiv (finProdFinEquiv (m := 3) (n := 512)) (fun p => g (Spec.featOf p.1 p.2)) g (fun p => ?_)).symm
  exact congrArg g (Fin.ext (by simp [Spec.featOf, finProdFinEquiv]; omega))

/-- The word of minus infinity is the bottom element. -/
theorem ofBits_neg_inf : Ideal.ofBits .f32 0xFF800000#32 = (⊥ : EReal) := by simp [Ideal.ofBits, Ideal.ieee]

/-- A row index with the class coordinate put back. -/
theorem lift_row (h : S4096x32.Reduces [1] S4096) (i : S4096.Idx) (k : Fin (S4096x32.size 1)) :
    h.lift i k = ix2 (i 0) (⟨k.val, k.isLt⟩ : Fin 32) := by
  funext c; apply Fin.ext
  fin_cases c <;> rfl

/-- The maximum over a row, from minus infinity. -/
theorem reduce_max_row (y : S4096x32.Idx → EReal) (i : S4096.Idx) :
    Host.reduce (FloatOps.maximumf (F := Ideal) (φ := .f32)) y (constant (F := Ideal) S_ .f32 0xFF800000#32)
        reducesTo_S4096x32_S4096_d1 h_S_ i
      = (Finset.univ : Finset (Fin 32)).fold max ⊥ (fun c => y (ix2 (i 0) c)) := by
  have h : S4096x32.Reduces [1] S4096 := by decide
  rw [Host.reduce_eq_fold_single (FloatOps.maximumf (F := Ideal) (φ := .f32)) y _ reducesTo_S4096x32_S4096_d1 h h_S_]
  have hf : (y ∘ h.lift i) = fun c : Fin 32 => y (ix2 (i 0) c) := funext fun k => congrArg y (lift_row h i k)
  rw [hf]
  show Finset.fold max (Ideal.ofBits .f32 0xFF800000#32) _ _ = _
  rw [ofBits_neg_inf]
  rfl

/-! ## The first layer -/

/-- Node `n` of relation `t`, feature `k`: the features' row read through the reshape. -/
theorem idx_feature_row (j : S3x4096x512.Idx) (k : Fin 512) :
    idx_main_v0 (lidx_main_v4 j k) = ix2 (Spec.nodeOf (j 0) (j 1)) k := by
  funext a; apply Fin.ext
  match a with
  | ⟨0, _⟩ =>
    show (((j 0).val * 4096 + (j 1).val) * 512 + k.val) / 512 = (j 0).val * 4096 + (j 1).val
    have := k.isLt; omega
  | ⟨1, _⟩ =>
    show (((j 0).val * 4096 + (j 1).val) * 512 + k.val) % 512 = k.val
    have := k.isLt; omega

theorem idx_weight1 (j : S3x4096x512.Idx) (k : Fin 512) : ridx_main_v4 j k = ix3 (j 0) (j 2) k :=
  funext fun a => Fin.ext (by match a with | ⟨0, _⟩ => rfl | ⟨1, _⟩ => rfl | ⟨2, _⟩ => rfl)

theorem idx_bias1 (j : S3x4096x512.Idx) : idx_main_v5 (idx_main_v6 j) = ix2 (j 0) (j 2) :=
  funext fun a => Fin.ext (by match a with | ⟨0, _⟩ => rfl | ⟨1, _⟩ => rfl)

/-- The reference's first stage is the specification's first layer. -/
theorem first_layer (x0 : (⟨S12288x512, .f32⟩ : BufTy).Contents (Elt Ideal)) (x3 : (⟨S3x512x512, .f32⟩ : BufTy).Contents (Elt Ideal)) (x4 : (⟨S3x512, .f32⟩ : BufTy).Contents (Elt Ideal)) :
    val_main_v8 (F := Ideal) x0 x3 x4 = Spec.h1arr x0 x3 x4 := by
  funext j
  rw [val_main_v8_apply, val_main_v7_apply, val_main_v4_apply, val_main_v6_apply, val_main_v5_apply,
    val_main_call0_v0_apply, val_main_call0_cst_apply]
  simp only [val_main_v0_apply, idx_feature_row, idx_weight1, idx_bias1, Ideal.maximumf_def, Ideal.addf_def,
    Ideal.ofBits_def, Ideal.ofBits_zero_f32]
  rfl

/-! ## The messages and the second layer -/

/-- Row `i` of the first type, column `k` of relation `t`'s block: the adjacency read through the slice, the reshape
    and the transpose. -/
theorem idx_adjacency (i : S3x4096x512.Idx) (k : Fin 4096) :
    idx_main_v1 (idx_main_v2 (idx_main_v3 (lidx_main_v9 i k))) = ix2 (Spec.rowIn (i 1)) (Spec.nodeOf (i 0) k) := by
  funext a; apply Fin.ext
  match a with
  | ⟨0, _⟩ =>
    show (((i 1).val * 3 + (i 0).val) * 4096 + k.val) / 12288 = (i 1).val
    have := k.isLt; have h0 : (i 0).val < 3 := (i 0).isLt; omega
  | ⟨1, _⟩ =>
    show (((i 1).val * 3 + (i 0).val) * 4096 + k.val) % 12288 = (i 0).val * 4096 + k.val
    have := k.isLt; have h0 : (i 0).val < 3 := (i 0).isLt; omega

theorem idx_source (i : S3x4096x512.Idx) (k : Fin 4096) : ridx_main_v9 i k = ix3 (i 0) k (i 2) :=
  funext fun a => Fin.ext (by match a with | ⟨0, _⟩ => rfl | ⟨1, _⟩ => rfl | ⟨2, _⟩ => rfl)

/-- The contraction with the adjacency's blocks is the specification's message sum. -/
theorem messages (x0 : (⟨S12288x512, .f32⟩ : BufTy).Contents (Elt Ideal)) (x1 : (⟨S12288x12288, .f32⟩ : BufTy).Contents (Elt Ideal)) (x3 : (⟨S3x512x512, .f32⟩ : BufTy).Contents (Elt Ideal)) (x4 : (⟨S3x512, .f32⟩ : BufTy).Contents (Elt Ideal)) (i : S3x4096x512.Idx) :
    val_main_v9 (F := Ideal) x0 x1 x3 x4 i = Spec.msg x1 (val_main_v8 (F := Ideal) x0 x3 x4) (i 0) (i 1) (i 2) := by
  rw [val_main_v9_apply]
  simp only [val_main_v3_apply, val_main_v2_apply, val_main_v1_apply, idx_adjacency, idx_source]
  rfl

theorem idx_weight2 (j : S3x4096x512.Idx) (k : Fin 512) : ridx_main_v10 j k = ix3 (j 0) (j 2) k :=
  funext fun a => Fin.ext (by match a with | ⟨0, _⟩ => rfl | ⟨1, _⟩ => rfl | ⟨2, _⟩ => rfl)

theorem idx_bias2 (j : S3x4096x512.Idx) : idx_main_v11 (idx_main_v12 j) = ix2 (j 0) (j 2) :=
  funext fun a => Fin.ext (by match a with | ⟨0, _⟩ => rfl | ⟨1, _⟩ => rfl)

/-- The reference's second stage is the specification's message passing and second layer, over the first stage's array. -/
theorem second_layer (x0 : (⟨S12288x512, .f32⟩ : BufTy).Contents (Elt Ideal)) (x1 : (⟨S12288x12288, .f32⟩ : BufTy).Contents (Elt Ideal)) (x3 : (⟨S3x512x512, .f32⟩ : BufTy).Contents (Elt Ideal)) (x4 : (⟨S3x512, .f32⟩ : BufTy).Contents (Elt Ideal)) (x5 : (⟨S3x512x512, .f32⟩ : BufTy).Contents (Elt Ideal)) (x6 : (⟨S3x512, .f32⟩ : BufTy).Contents (Elt Ideal)) :
    val_main_v14 (F := Ideal) x0 x1 x3 x4 x5 x6 = Spec.h2arr x1 (val_main_v8 (F := Ideal) x0 x3 x4) x5 x6 := by
  funext j
  rw [val_main_v14_apply, val_main_v13_apply, val_main_v10_apply, val_main_v12_apply, val_main_v11_apply,
    val_main_call1_v0_apply, val_main_call1_cst_apply]
  simp only [messages, idx_weight2, idx_bias2, Ideal.maximumf_def, Ideal.addf_def, Ideal.ofBits_def, Ideal.ofBits_zero_f32]
  rfl

/-! ## The last layer and the log-softmax -/

/-- Node `n`, feature `f` of relation `t` among the 1536: the second layer's array read through the transpose and the reshape. -/
theorem idx_concat (j : S4096x32.Idx) (t : Fin 3) (f : Fin 512) :
    idx_main_v15 (idx_main_v16 (lidx_main_v18 j (Spec.featOf t f))) = ix3 t (j 0) f := by
  funext a; apply Fin.ext
  match a with
  | ⟨0, _⟩ =>
    show ((j 0).val * 1536 + (t.val * 512 + f.val)) / 512 % 3 = t.val
    have := t.isLt; have := f.isLt; omega
  | ⟨1, _⟩ =>
    show ((j 0).val * 1536 + (t.val * 512 + f.val)) / 1536 = (j 0).val
    have := t.isLt; have := f.isLt; omega
  | ⟨2, _⟩ =>
    show ((j 0).val * 1536 + (t.val * 512 + f.val)) % 512 = f.val
    have := t.isLt; have := f.isLt; omega

theorem idx_weight3 (j : S4096x32.Idx) (k : Fin 1536) : idx_main_v17 (ridx_main_v18 j k) = ix2 (j 1) k :=
  funext fun a => Fin.ext (by match a with | ⟨0, _⟩ => rfl | ⟨1, _⟩ => rfl)

theorem idx_bias3 (j : S4096x32.Idx) : idx_main_v19 (idx_main_v20 j) = ix1 (j 1) :=
  funext fun a => Fin.ext (by match a with | ⟨0, _⟩ => rfl)

/-- The last layer's value, over the second stage's array. -/
theorem logits (x0 : (⟨S12288x512, .f32⟩ : BufTy).Contents (Elt Ideal)) (x1 : (⟨S12288x12288, .f32⟩ : BufTy).Contents (Elt Ideal)) (x3 : (⟨S3x512x512, .f32⟩ : BufTy).Contents (Elt Ideal)) (x4 : (⟨S3x512, .f32⟩ : BufTy).Contents (Elt Ideal)) (x5 : (⟨S3x512x512, .f32⟩ : BufTy).Contents (Elt Ideal)) (x6 : (⟨S3x512, .f32⟩ : BufTy).Contents (Elt Ideal)) (x7 : (⟨S32x1536, .f32⟩ : BufTy).Contents (Elt Ideal)) (x8 : (⟨S32, .f32⟩ : BufTy).Contents (Elt Ideal)) (j : S4096x32.Idx) :
    val_main_v21 (F := Ideal) x0 x1 x3 x4 x5 x6 x7 x8
        j = Spec.logit (val_main_v14 (F := Ideal) x0 x1 x3 x4 x5 x6) x7 x8 (j 0) (j 1) := by
  rw [val_main_v21_apply, val_main_v18_apply, val_main_v20_apply, val_main_v19_apply, sum_featOf]
  simp only [val_main_v16_apply, val_main_v15_apply, val_main_v17_apply, idx_concat, idx_weight3, idx_bias3, Ideal.addf_def]
  rfl

/-- The row maximum of the last layer's values. -/
theorem row_max (x0 : (⟨S12288x512, .f32⟩ : BufTy).Contents (Elt Ideal)) (x1 : (⟨S12288x12288, .f32⟩ : BufTy).Contents (Elt Ideal)) (x3 : (⟨S3x512x512, .f32⟩ : BufTy).Contents (Elt Ideal)) (x4 : (⟨S3x512, .f32⟩ : BufTy).Contents (Elt Ideal)) (x5 : (⟨S3x512x512, .f32⟩ : BufTy).Contents (Elt Ideal)) (x6 : (⟨S3x512, .f32⟩ : BufTy).Contents (Elt Ideal)) (x7 : (⟨S32x1536, .f32⟩ : BufTy).Contents (Elt Ideal)) (x8 : (⟨S32, .f32⟩ : BufTy).Contents (Elt Ideal)) (i : S4096.Idx) :
    val_main_call2_v0 (F := Ideal) x0 x1 x3 x4 x5 x6 x7 x8 i
      = (Finset.univ : Finset (Fin 32)).fold max ⊥ (fun c => val_main_v21 (F := Ideal) x0 x1 x3 x4 x5 x6 x7 x8 (ix2 (i 0) c)) := by
  unfold val_main_call2_v0
  exact reduce_max_row _ i

/-- The reference's third stage is the specification's last layer and log-softmax, over the second stage's array. -/
theorem last_layer (x0 : (⟨S12288x512, .f32⟩ : BufTy).Contents (Elt Ideal)) (x1 : (⟨S12288x12288, .f32⟩ : BufTy).Contents (Elt Ideal)) (x3 : (⟨S3x512x512, .f32⟩ : BufTy).Contents (Elt Ideal)) (x4 : (⟨S3x512, .f32⟩ : BufTy).Contents (Elt Ideal)) (x5 : (⟨S3x512x512, .f32⟩ : BufTy).Contents (Elt Ideal)) (x6 : (⟨S3x512, .f32⟩ : BufTy).Contents (Elt Ideal)) (x7 : (⟨S32x1536, .f32⟩ : BufTy).Contents (Elt Ideal)) (x8 : (⟨S32, .f32⟩ : BufTy).Contents (Elt Ideal)) :
    val_main_v22 (F := Ideal) x0 x1 x3 x4 x5 x6 x7 x8 = Spec.outArr (val_main_v14 (F := Ideal) x0 x1 x3 x4 x5 x6) x7 x8 := by
  funext j
  rw [val_main_v22_apply, val_main_call2_v10_apply, val_main_call2_v9_apply, val_main_call2_v8_apply,
    val_main_call2_v7_apply, val_main_call2_cst_1_apply]
  simp only [val_main_call2_v6_apply, val_main_call2_v5_apply, val_main_call2_v4_apply, val_main_call2_v3_apply,
    val_main_call2_v2_apply, val_main_call2_v1_apply, val_main_call2_cst_0_apply, row_max, logits,
    Ideal.subf_def, Ideal.maximumf_def, Ideal.hostUnary_exp_def, Ideal.hostUnary_log_def, Ideal.ofBits_def,
    Ideal.ofBits_zero_f32, ofBits_neg_inf, zero_add, max_bot_left]
  rfl

/-! ## The result -/

/-- The reference run's result is the specification's function of the argument arrays. -/
theorem result_eq (m : (ℓ : Loc nD τ sig) → Buf (Elt Ideal) ℓ) (c : Dev nD) :
    Cert.ReferenceIdeal.ValueP.res_out0 (F := Ideal) m c
      = Spec.out (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) :=
  (val_main_v22_eq (F := Ideal) m c).trans (by rw [last_layer, second_layer, first_layer]; rfl)

end Cert.ReferenceIdeal.RefValue

end
-- ==== Proof.lean ====
/- The network both programs compute — three relations' linear layers with a rectifier, dense message passing to
   the nodes of the first type, a second linear layer with a rectifier, one last linear layer on the three
   relations' features side by side, and a row-wise log-softmax — is written once, index by index on the extended
   reals (`Cert.Spec.out`). The kernel's program is six re-layings of arguments and three pipelined regions; each
   region's body is run once on whole buffers over its payloads, the second and third carrying an accumulator
   between grid points (cleared at the first of every four, respectively three, points and stored from at the
   last), and the three regions are chained through the valuations of the unscoped buffers between them. That
   gives, at any float family, the run of @main with the result array named and every argument unchanged: the two
   kernel frames are that run with the result forgotten. At the extended reals the three regions' output arrays
   are the specification's three layers (sums over column blocks, respectively relations, regroup freely in a
   commutative monoid; nothing needs the entries to be finite), and the reference's composed term is the same
   function of the arguments, so the two results agree. No rewrite was applied when the kernel was idealized, so
   the preservation claim is empty. -/
import proofs.«170717_j11553462026818_1_alg».proof.Defs
import proofs.«170717_j11553462026818_1_alg».proof.Proof.Gen.Kernel
import proofs.«170717_j11553462026818_1_alg».proof.Proof.Gen.KernelIdeal
import proofs.«170717_j11553462026818_1_alg».proof.Proof.Gen.ReferenceIdeal
import proofs.«170717_j11553462026818_1_alg».proof.Proof.Gen.Pre_finite_inputs
import proofs.«170717_j11553462026818_1_alg».proof.Proof.K.Run
import proofs.«170717_j11553462026818_1_alg».proof.Proof.KI.Value
import proofs.«170717_j11553462026818_1_alg».proof.Proof.RefValue
import Idealize.ShloMosaic.Adequacy
import Idealize.ShloMosaic.Init

noncomputable section

namespace Cert.Proof

open Idealize.ShloMosaic Idealize.SL.Sem

/-- The word-level program runs to the end and leaves its arguments as launched. -/
theorem frame_kernel : Cert.frame_Kernel := fun m ρ _ => Cert.Kernel.Hand.frame (F := Bits) m ρ

/-- So does the idealized program. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- At the extended reals both programs end with the specification's function of the arguments in their result
    arrays. -/
theorem algebraic : Cert.algebraic_KernelIdeal_ReferenceIdeal := by
  intro m ρ m' ρ' _ hagree
  refine ⟨fun c => Cert.KernelIdeal.Hand.x8 (F := Ideal) m c, Cert.KernelIdeal.Hand.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, -, h3, h4, h5, h6, h7, h8⟩ := hagree c
  refine (Cert.ReferenceIdeal.RefValue.result_eq m' c).trans ?_
  rw [h0, h1, h3, h4, h5, h6, h7, h8]
  exact (Cert.KernelIdeal.Hand.x8_spec m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
